-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1200000 : Shape := ⟨2, ![2, 1200000]⟩
abbrev S100000 : Shape := ⟨1, ![100000]⟩
abbrev S11x64 : Shape := ⟨2, ![11, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg30 : FVec F S1 .f32) (main_v133 : IVec S_ 1) (main_v136 : IVec S64x1 1) : IVec S_ 1 :=
  let main_c_53 : IVec S_ 1 := constantI S_ 1 1#1
  let main_v137 : IVec S_ 1 := (fun x v => Host.reduce IntOp.andi x v reducesTo_S64x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  main_v143

def fn_part7 {F : FTy → Type} [FloatOps F] (main_arg27 : FVec F S64x64 .f32) (main_arg28 : FVec F S64 .f32) (main_arg29 : FVec F S64x1 .f32) (main_arg30 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg27
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x1 .f32 := Host.absf main_arg29
  let main_cst_52 : FVec F S_ .f32 := constant S_ .f32 0x7F800000#32
  let main_v135 : FVec F S64x1 .f32 := broadcastInDim S64x1 ![] bcast_S_S64x1 main_cst_52
  let main_v136 : IVec S64x1 1 := cmpf .olt main_v134 main_v135
  fn_part8 (F := F) main_arg30 main_v133 main_v136

def fn_part6 {F : FTy → Type} [FloatOps F] (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg27 main_arg28 main_arg29 main_arg30 main_v118 main_v119

def fn_part5 {F : FTy → Type} [FloatOps F] (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x11 .f32) (main_arg1 : IVec S2x1200000 32) (main_arg2 : IVec S100000 32) (main_arg3 : FVec F S11x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S64x64 .f32) (main_arg28 : FVec F S64 .f32) (main_arg29 : FVec F S64x1 .f32) (main_arg30 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x64 .f32 := Host.absf main_arg3
  let main_cst_0 : FVec F S_ .f32 := constant S_ .f32 0x7F800000#32
  let main_v5 : FVec F S11x64 .f32 := broadcastInDim S11x64 ![] bcast_S_S11x64 main_cst_0
  let main_v6 : IVec S11x64 1 := cmpf .olt main_v4 main_v5
  let main_c_1 : IVec S_ 1 := constantI S_ 1 1#1
  let main_v7 : IVec S_ 1 := (fun x v => Host.reduce IntOp.andi x v reducesTo_S11x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x11 : Shape := ⟨2, ![100000, 11]⟩
abbrev S2x1200000 : Shape := ⟨2, ![2, 1200000]⟩
abbrev S100000 : Shape := ⟨1, ![100000]⟩
abbrev S11x64 : Shape := ⟨2, ![11, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x11 : Shape := ⟨2, ![1200000, 11]⟩
abbrev S100352x11 : Shape := ⟨2, ![100352, 11]⟩
abbrev S100352x64 : Shape := ⟨2, ![100352, 64]⟩
abbrev S2048x11 : Shape := ⟨2, ![2048, 11]⟩
abbrev S2048x64 : Shape := ⟨2, ![2048, 64]⟩
abbrev S1x64 : Shape := ⟨2, ![1, 64]⟩
abbrev S100000x64 : Shape := ⟨2, ![100000, 64]⟩
abbrev S1200000x64 : Shape := ⟨2, ![1200000, 64]⟩
abbrev S100352 : Shape := ⟨1, ![100352]⟩
abbrev S1000x64 : Shape := ⟨2, ![1000, 64]⟩
abbrev S1024x64 : Shape := ⟨2, ![1024, 64]⟩
abbrev S1024 : Shape := ⟨1, ![1024]⟩
abbrev S1024x1000 : Shape := ⟨2, ![1024, 1000]⟩
abbrev S1024x1 : Shape := ⟨2, ![1024, 1]⟩
abbrev S1000x1 : Shape := ⟨2, ![1000, 1]⟩
abbrev S1x1 : Shape := ⟨2, ![1, 1]⟩

abbrev nBuf : Space → Nat
  | .hbm => 106
  | .vmem => 47
  | .smem => 0
  | _ => 0

abbrev bufTy : (tb : Table) → Fin (tcTables nBuf tb) → BufTy
  | .hbm, ⟨0, _⟩ => ⟨S100000x11, .f32⟩
  | .hbm, ⟨1, _⟩ => ⟨S2x1200000, .i32⟩
  | .hbm, ⟨2, _⟩ => ⟨S100000, .i32⟩
  | .hbm, ⟨3, _⟩ => ⟨S11x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S64x64, .f32⟩
  | .hbm, ⟨28, _⟩ => ⟨S64, .f32⟩
  | .hbm, ⟨29, _⟩ => ⟨S64x1, .f32⟩
  | .hbm, ⟨30, _⟩ => ⟨S1, .f32⟩
  | .hbm, ⟨31, _⟩ => ⟨S1x1200000, .i32⟩
  | .hbm, ⟨32, _⟩ => ⟨S1200000, .i32⟩
  | .hbm, ⟨33, _⟩ => ⟨S1x1200000, .i32⟩
  | .hbm, ⟨34, _⟩ => ⟨S1200000, .i32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x11, .f32⟩
  | .hbm, ⟨44, _⟩ => ⟨S_, .f32⟩
  | .hbm, ⟨45, _⟩ => ⟨S100000x11, .f32⟩
  | .hbm, ⟨46, _⟩ => ⟨S1200000x1, .i32⟩
  | .hbm, ⟨47, _⟩ => ⟨S100000x11, .f32⟩
  | .hbm, ⟨48, _⟩ => ⟨S100000x11, .f32⟩
  | .hbm, ⟨49, _⟩ => ⟨S_, .i32⟩
  | .hbm, ⟨50, _⟩ => ⟨S_, .f32⟩
  | .hbm, ⟨51, _⟩ => ⟨S100352x11, .f32⟩
  | .hbm, ⟨52, _⟩ => ⟨S100352x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1200000, .i32⟩
  | .hbm, ⟨59, _⟩ => ⟨S1200000, .i1⟩
  | .hbm, ⟨60, _⟩ => ⟨S_, .i32⟩
  | .hbm, ⟨61, _⟩ => ⟨S1200000, .i32⟩
  | .hbm, ⟨62, _⟩ => ⟨S1200000, .i32⟩
  | .hbm, ⟨63, _⟩ => ⟨S1200000, .i32⟩
  | .hbm, ⟨64, _⟩ => ⟨S1200000x1, .i32⟩
  | .hbm, ⟨65, _⟩ => ⟨S1200000x64, .f32⟩
  | .hbm, ⟨66, _⟩ => ⟨S_, .f32⟩
  | .hbm, ⟨67, _⟩ => ⟨S100000x64, .f32⟩
  | .hbm, ⟨68, _⟩ => ⟨S1200000x1, .i32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S_, .f32⟩
  | .hbm, ⟨73, _⟩ => ⟨S100352x64, .f32⟩
  | .hbm, ⟨74, _⟩ => ⟨S100352x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1200000, .i32⟩
  | .hbm, ⟨81, _⟩ => ⟨S1200000, .i1⟩
  | .hbm, ⟨82, _⟩ => ⟨S_, .i32⟩
  | .hbm, ⟨83, _⟩ => ⟨S1200000, .i32⟩
  | .hbm, ⟨84, _⟩ => ⟨S1200000, .i32⟩
  | .hbm, ⟨85, _⟩ => ⟨S1200000, .i32⟩
  | .hbm, ⟨86, _⟩ => ⟨S1200000x1, .i32⟩
  | .hbm, ⟨87, _⟩ => ⟨S1200000x64, .f32⟩
  | .hbm, ⟨88, _⟩ => ⟨S_, .f32⟩
  | .hbm, ⟨89, _⟩ => ⟨S100000x64, .f32⟩
  | .hbm, ⟨90, _⟩ => ⟨S1200000x1, .i32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S_, .f32⟩
  | .hbm, ⟨95, _⟩ => ⟨S100352x64, .f32⟩
  | .hbm, ⟨96, _⟩ => ⟨S100352x64, .f32⟩
  | .hbm, ⟨97, _⟩ => ⟨S100000x64, .f32⟩
  | .hbm, ⟨98, _⟩ => ⟨S_, .i32⟩
  | .hbm, ⟨99, _⟩ => ⟨S_, .f32⟩
  | .hbm, ⟨100, _⟩ => ⟨S100352x64, .f32⟩
  | .hbm, ⟨101, _⟩ => ⟨S_, .i32⟩
  | .hbm, ⟨102, _⟩ => ⟨S_, .i32⟩
  | .hbm, ⟨103, _⟩ => ⟨S100352, .i32⟩
  | .hbm, ⟨104, _⟩ => ⟨S1000x64, .f32⟩
  | .hbm, ⟨105, _⟩ => ⟨S1000x1, .f32⟩
  | .local _ .vmem, ⟨0, _⟩ => ⟨S2048x11, .f32⟩
  | .local _ .vmem, ⟨1, _⟩ => ⟨S2048x11, .f32⟩
  | .local _ .vmem, ⟨2, _⟩ => ⟨S11x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S64x64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S64x64, .f32⟩
  | .local _ .vmem, ⟨27, _⟩ => ⟨S64, .f32⟩
  | .local _ .vmem, ⟨28, _⟩ => ⟨S64, .f32⟩
  | .local _ .vmem, ⟨29, _⟩ => ⟨S64, .f32⟩
  | .local _ .vmem, ⟨30, _⟩ => ⟨S64, .f32⟩
  | .local _ .vmem, ⟨31, _⟩ => ⟨S64, .f32⟩
  | .local _ .vmem, ⟨32, _⟩ => ⟨S64x64, .f32⟩
  | .local _ .vmem, ⟨33, _⟩ => ⟨S64, .f32⟩
  | .local _ .vmem, ⟨34, _⟩ => ⟨S2048x64, .f32⟩
  | .local _ .vmem, ⟨35, _⟩ => ⟨S2048x64, .f32⟩
  | .local _ .vmem, ⟨36, _⟩ => ⟨S1024x64, .f32⟩
  | .local _ .vmem, ⟨37, _⟩ => ⟨S1024x64, .f32⟩
  | .local _ .vmem, ⟨38, _⟩ => ⟨S1024, .i32⟩
  | .local _ .vmem, ⟨39, _⟩ => ⟨S1024, .i32⟩
  | .local _ .vmem, ⟨40, _⟩ => ⟨S1000x64, .f32⟩
  | .local _ .vmem, ⟨41, _⟩ => ⟨S1000x64, .f32⟩
  | .local _ .vmem, ⟨42, _⟩ => ⟨S64x64, .f32⟩
  | .local _ .vmem, ⟨43, _⟩ => ⟨S64, .f32⟩
  | .local _ .vmem, ⟨44, _⟩ => ⟨S64x1, .f32⟩
  | .local _ .vmem, ⟨45, _⟩ => ⟨S1, .f32⟩
  | .local _ .vmem, ⟨46, _⟩ => ⟨S1000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_call0_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_2 : Ref sig .tc := ⟨.hbm, 54, rfl⟩
abbrev main_v18 : Ref sig .tc := ⟨.hbm, 55, rfl⟩
abbrev main_v19 : Ref sig .tc := ⟨.hbm, 56, rfl⟩
abbrev main_c_3 : Ref sig .tc := ⟨.hbm, 57, rfl⟩
abbrev main_v20 : Ref sig .tc := ⟨.hbm, 58, rfl⟩
abbrev main_v21 : Ref sig .tc := ⟨.hbm, 59, rfl⟩
abbrev main_c_4 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_5 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_6 : Ref sig .tc := ⟨.hbm, 71, rfl⟩
abbrev main_call1_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_7 : Ref sig .tc := ⟨.hbm, 76, rfl⟩
abbrev main_v34 : Ref sig .tc := ⟨.hbm, 77, rfl⟩
abbrev main_v35 : Ref sig .tc := ⟨.hbm, 78, rfl⟩
abbrev main_c_8 : Ref sig .tc := ⟨.hbm, 79, rfl⟩
abbrev main_v36 : Ref sig .tc := ⟨.hbm, 80, rfl⟩
abbrev main_v37 : Ref sig .tc := ⟨.hbm, 81, rfl⟩
abbrev main_c_9 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_10 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_11 : Ref sig .tc := ⟨.hbm, 93, rfl⟩
abbrev main_call2_v0 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_12 : Ref sig .tc := ⟨.hbm, 98, rfl⟩
abbrev main_call3_v0 : Ref sig .tc := ⟨.hbm, 99, rfl⟩
abbrev main_v50 : Ref sig .tc := ⟨.hbm, 100, rfl⟩
abbrev main_c_13 : Ref sig .tc := ⟨.hbm, 101, rfl⟩
abbrev main_call4_v0 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc4_stg0_0 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc4_sem0_0 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1000x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1000x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x11 : S_.BroadcastsInDim S100000x11 (![] : Fin 0 → Fin S100000x11.rank)
  pads_S100000x11_S100352x11_03520_000 : S100000x11.Pads (![0, 0] : Fin 2 → Nat) ![352, 0] ![0, 0] S100352x11
  h_S_ : 0 < S_.numel
  inb_S2048x11_S2048x11_0_0 : ∀ a, (![0, 0] : Fin 2 → Nat) a + S2048x11.size a ≤ S2048x11.size a
  h_S2048x11 : 0 < S2048x11.numel
  shapeCasts_S2048x11_S2048x11 : S2048x11.ShapeCasts S2048x11
  inb_S11x64_S11x64_0_0 : ∀ a, (![0, 0] : Fin 2 → Nat) a + S11x64.size a ≤ S11x64.size a
  h_S11x64 : 0 < S11x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S2048x64_S2048x64_0_0 : ∀ a, (![0, 0] : Fin 2 → Nat) a + S2048x64.size a ≤ S2048x64.size a
  h_S2048x64 : 0 < S2048x64.numel
  slices_S100352x64_S100000x64_0_0 : S100352x64.Slices ![0, 0] S100000x64
  bcast_S_S100000x64 : S_.BroadcastsInDim S100000x64 (![] : Fin 0 → Fin S100000x64.rank)
  pads_S100000x64_S100352x64_03520_000 : S100000x64.Pads (![0, 0] : Fin 2 → Nat) ![352, 0] ![0, 0] S100352x64
  shapeCasts_S2048x64_S2048x64 : S2048x64.ShapeCasts S2048x64
  pads_S100000_S100352_03520 : S100000.Pads (![0] : Fin 1 → Nat) ![352] ![0] S100352
  inb_S1000x64_S1000x64_0_0 : ∀ a, (![0, 0] : Fin 2 → Nat) a + S1000x64.size a ≤ S1000x64.size a
  h_S1000x64 : 0 < S1000x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024_S1024_0 : ∀ a, (![0] : Fin 1 → Nat) a + S1024.size a ≤ S1024.size a
  h_S1024 : 0 < S1024.numel
  shapeCasts_S1024_S1024 : S1024.ShapeCasts S1024
  iota_S1024x1000_d1_w32 : S1024x1000.Iotas .tc 32 [1]
  shapeCasts_S1024_S1024x1 : S1024.ShapeCasts S1024x1
  broadcasts_S1024x1_S1024x1000 : S1024x1.Broadcasts S1024x1000
  natLt_1_32 : 1 < 32
  shapeCasts_S1000x64_S1000x64 : S1000x64.ShapeCasts S1000x64
  broadcasts_S1x64_S1000x64 : S1x64.Broadcasts S1000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  gather_S100000x11_S1200000x1_S1200000x11_1_0_n_n_0_1_111_wf : GatherDims.WF S100000x11 S1200000x1 S1200000x11 [1] [0] [] [0] [] 1 ![1, 11]
  scatter_S100000x11_S1200000x1_S1200000x11_1_0_0_1_wf : ScatterDims.WF S100000x11 S1200000x1 S1200000x11 [1] [0] [0] 1
  dot_S2048x11_S11x64_S2048x64_1_0_0_1_n_n_wf : DotDims.WF S2048x11 S11x64 S2048x64 [1] [0] [0] [1] [] []
  dot_S2048x64_S64x64_S2048x64_1_0_0_1_n_n_wf : DotDims.WF S2048x64 S64x64 S2048x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S1024x1000_S1024x64_S1000x64_0_0_1_1_n_n_wf : DotDims.WF S1024x1000 S1024x64 S1000x64 [0] [0] [1] [1] [] []
  dot_S1000x64_S64x64_S1000x64_1_0_0_1_n_n_wf : DotDims.WF S1000x64 S64x64 S1000x64 [1] [0] [0] [1] [] []
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x11.size a ≤ S100352x11.size a
  hwx0_0 : ∀ i : grid0.Coords, EltTy.bits .f32 = 32 ∨ (Rect.block (s := S100352x11) S2048x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x64.size a ≤ S11x64.size a
  hwx0_1 : ∀ i : grid0.Coords, EltTy.bits .f32 = 32 ∨ (Rect.block (s := S11x64) S11x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x64.size a ≤ S100352x64.size a
  hwx0_9 : ∀ i : grid0.Coords, EltTy.bits .f32 = 32 ∨ (Rect.block (s := S100352x64) S2048x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S100352x64.size a
  hwx1_0 : ∀ i : grid1.Coords, EltTy.bits .f32 = 32 ∨ (Rect.block (s := S100352x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x64.size a ≤ S100352x64.size a
  hwx1_9 : ∀ i : grid1.Coords, EltTy.bits .f32 = 32 ∨ (Rect.block (s := S100352x64) S2048x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S100352x64.size a
  hwx2_0 : ∀ i : grid2.Coords, EltTy.bits .f32 = 32 ∨ (Rect.block (s := S100352x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x64.size a ≤ S100352x64.size a
  hwx2_9 : ∀ i : grid2.Coords, EltTy.bits .f32 = 32 ∨ (Rect.block (s := S100352x64) S2048x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S100352x64.size a
  hwx3_0 : ∀ i : grid3.Coords, EltTy.bits .f32 = 32 ∨ (Rect.block (s := S100352x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S100352.size a
  hwx3_1 : ∀ i : grid3.Coords, EltTy.bits .i32 = 32 ∨ (Rect.block (s := S100352) S1024.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S1000x64.size a
  hwx3_2 : ∀ i : grid3.Coords, EltTy.bits .f32 = 32 ∨ (Rect.block (s := S1000x64) S1000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S1000x64.size a
  hwx4_0 : ∀ i : grid4.Coords, EltTy.bits .f32 = 32 ∨ (Rect.block (s := S1000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1000x1.size a ≤ S1000x1.size a
  hwx4_5 : ∀ i : grid4.Coords, EltTy.bits .f32 = 32 ∨ (Rect.block (s := S1000x1) S1000x1.size (cc4_transform_5 i) (hinb4_5 i)).WholeWords (EltTy.packing .f32)

variable [Facts₀]

def gather_S100000x11_S1200000x1_S1200000x11_1_0_n_n_0_1_111 : GatherDims S100000x11 S1200000x1 S1200000x11 where
  offsetDims := [1]
  collapsedSliceDims := [0]
  operandBatchingDims := []
  startIndicesBatchingDims := []
  startIndexMap := [0]
  indexVectorDim := 1
  sliceSizes := ![1, 11]
  wf := gather_S100000x11_S1200000x1_S1200000x11_1_0_n_n_0_1_111_wf
def scatter_S100000x11_S1200000x1_S1200000x11_1_0_0_1 : ScatterDims S100000x11 S1200000x1 S1200000x11 where
  updateWindowDims := [1]
  insertedWindowDims := [0]
  scatterDimsToOperandDims := [0]
  indexVectorDim := 1
  wf := scatter_S100000x11_S1200000x1_S1200000x11_1_0_0_1_wf
def dot_S2048x11_S11x64_S2048x64_1_0_0_1_n_n : DotDims S2048x11 S11x64 S2048x64 where
  lhsContracting := [1]
  rhsContracting := [0]
  lhsNonContracting := [0]
  rhsNonContracting := [1]
  lhsBatch := []
  rhsBatch := []
  wf := dot_S2048x11_S11x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S1024x1000_S1024x64_S1000x64_0_0_1_1_n_n : DotDims S1024x1000 S1024x64 S1000x64 where
  lhsContracting := [0]
  rhsContracting := [0]
  lhsNonContracting := [1]
  rhsNonContracting := [1]
  lhsBatch := []
  rhsBatch := []
  wf := dot_S1024x1000_S1024x64_S1000x64_0_0_1_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_v15) S2048x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S2048x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v31) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S2048x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg19) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg21) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg25) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48) S2048x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v50) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1000x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S1000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg27) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg28) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg29) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg30) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S1000x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x11 : Shape := ⟨2, ![100000, 11]⟩
abbrev S2x1200000 : Shape := ⟨2, ![2, 1200000]⟩
abbrev S100000 : Shape := ⟨1, ![100000]⟩
abbrev S11x64 : Shape := ⟨2, ![11, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x11 : Shape := ⟨2, ![1200000, 11]⟩
abbrev S100000x64 : Shape := ⟨2, ![100000, 64]⟩
abbrev S1x64 : Shape := ⟨2, ![1, 64]⟩
abbrev S1200000x64 : Shape := ⟨2, ![1200000, 64]⟩
abbrev S1000x64 : Shape := ⟨2, ![1000, 64]⟩
abbrev S100000x1 : Shape := ⟨2, ![100000, 1]⟩
abbrev S1000x1 : Shape := ⟨2, ![1000, 1]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S100000x11, .f32⟩
  | 1 => ⟨S2x1200000, .i32⟩
  | 2 => ⟨S100000, .i32⟩
  | 3 => ⟨S11x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64, .f32⟩
  | 24 => ⟨S64, .f32⟩
  | 25 => ⟨S64x64, .f32⟩
  | 26 => ⟨S64, .f32⟩
  | 27 => ⟨S64x64, .f32⟩
  | 28 => ⟨S64, .f32⟩
  | 29 => ⟨S64x1, .f32⟩
  | 30 => ⟨S1, .f32⟩
  | 31 => ⟨S1x1200000, .i32⟩
  | 32 => ⟨S1200000, .i32⟩
  | 33 => ⟨S1x1200000, .i32⟩
  | 34 => ⟨S1200000, .i32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000x11, .f32⟩
  | 44 => ⟨S_, .f32⟩
  | 45 => ⟨S100000x11, .f32⟩
  | 46 => ⟨S1200000x1, .i32⟩
  | 47 => ⟨S100000x11, .f32⟩
  | 48 => ⟨S100000x11, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000x64, .f32⟩
  | 91 => ⟨S_, .f32⟩
  | 92 => ⟨S100000x64, .f32⟩
  | 93 => ⟨S1200000x1, .i32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S100000x64, .f32⟩
  | _ => ⟨S100000x11, .f32⟩

abbrev hbmTy0_1 (i : Nat) : BufTy := match i % 128 with
  | 0 => ⟨S100000x64, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S_, .f32⟩
  | 11 => ⟨S100000x64, .f32⟩
  | 12 => ⟨S1200000x1, .i32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S64, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S_, .f32⟩
  | 46 => ⟨S1000x64, .f32⟩
  | 47 => ⟨S100000x1, .i32⟩
  | 48 => ⟨S1000x64, .f32⟩
  | 49 => ⟨S1000x64, .f32⟩
  | 50 => ⟨S1x64, .f32⟩
  | 51 => ⟨S1000x64, .f32⟩
  | 52 => ⟨S1000x64, .f32⟩
  | 53 => ⟨S_, .f32⟩
  | 54 => ⟨S1000x64, .f32⟩
  | 55 => ⟨S1000x64, .f32⟩
  | 56 => ⟨S1000x1, .f32⟩
  | 57 => ⟨S1x1, .f32⟩
  | 58 => ⟨S1000x1, .f32⟩
  | 59 => ⟨S1000x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_call2_cst : Ref sig .tc := ⟨.hbm, 79, rfl⟩
abbrev main_call2_v0 : Ref sig .tc := ⟨.hbm, 80, rfl⟩
abbrev main_v40 : Ref sig .tc := ⟨.hbm, 81, rfl⟩
abbrev main_c_2 : Ref sig .tc := ⟨.hbm, 82, rfl⟩
abbrev main_v41 : Ref sig .tc := ⟨.hbm, 83, rfl⟩
abbrev main_v42 : Ref sig .tc := ⟨.hbm, 84, rfl⟩
abbrev main_c_3 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_4 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_5 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_call3_cst : Ref sig .tc := ⟨.hbm, 116, rfl⟩
abbrev main_call3_v0 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call4_cst : Ref sig .tc := ⟨.hbm, 123, rfl⟩
abbrev main_call4_v0 : Ref sig .tc := ⟨.hbm, 124, rfl⟩
abbrev main_v76 : Ref sig .tc := ⟨.hbm, 125, rfl⟩
abbrev main_call5_cst : Ref sig .tc := ⟨.hbm, 126, rfl⟩
abbrev main_call5_v0 : Ref sig .tc := ⟨.hbm, 127, rfl⟩
abbrev main_v77 : Ref sig .tc := ⟨.hbm, 128, rfl⟩
abbrev main_c_6 : Ref sig .tc := ⟨.hbm, 129, rfl⟩
abbrev main_v78 : Ref sig .tc := ⟨.hbm, 130, rfl⟩
abbrev main_v79 : Ref sig .tc := ⟨.hbm, 131, rfl⟩
abbrev main_c_7 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_8 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_9 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_call6_cst : Ref sig .tc := ⟨.hbm, 163, rfl⟩
abbrev main_call6_v0 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_call7_cst : Ref sig .tc := ⟨.hbm, 170, rfl⟩
abbrev main_call7_v0 : Ref sig .tc := ⟨.hbm, 171, rfl⟩
abbrev main_v113 : Ref sig .tc := ⟨.hbm, 172, rfl⟩
abbrev main_cst_10 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_call8_cst : Ref sig .tc := ⟨.hbm, 181, rfl⟩
abbrev main_call8_v0 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x11 : S_.BroadcastsInDim S100000x11 (![] : Fin 0 → Fin S100000x11.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S1x64_S1000x64_0_1 : S1x64.BroadcastsInDim S1000x64 (![0, 1] : Fin 2 → Fin S1000x64.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x11_S1200000x1_S1200000x11_1_0_n_n_0_1_111_wf : GatherDims.WF S100000x11 S1200000x1 S1200000x11 [1] [0] [] [0] [] 1 ![1, 11]
  scatter_S100000x11_S1200000x1_S1200000x11_1_0_0_1_wf : ScatterDims.WF S100000x11 S1200000x1 S1200000x11 [1] [0] [0] 1
  dot_S100000x11_S11x64_S100000x64_1_0_0_1_n_n_wf : DotDims.WF S100000x11 S11x64 S100000x64 [1] [0] [0] [1] [] []
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S1000x64_S100000x1_S100000x64_1_0_0_1_wf : ScatterDims.WF S1000x64 S100000x1 S100000x64 [1] [0] [0] 1
  dot_S1000x64_S64x64_S1000x64_1_0_0_1_n_n_wf : DotDims.WF S1000x64 S64x64 S1000x64 [1] [0] [0] [1] [] []
  dot_S1000x64_S64x1_S1000x1_1_0_0_1_n_n_wf : DotDims.WF S1000x64 S64x1 S1000x1 [1] [0] [0] [1] [] []

variable [Facts₀]

def gather_S100000x11_S1200000x1_S1200000x11_1_0_n_n_0_1_111 : GatherDims S100000x11 S1200000x1 S1200000x11 where
  offsetDims := [1]
  collapsedSliceDims := [0]
  operandBatchingDims := []
  startIndicesBatchingDims := []
  startIndexMap := [0]
  indexVectorDim := 1
  sliceSizes := ![1, 11]
  wf := gather_S100000x11_S1200000x1_S1200000x11_1_0_n_n_0_1_111_wf
def scatter_S100000x11_S1200000x1_S1200000x11_1_0_0_1 : ScatterDims S100000x11 S1200000x1 S1200000x11 where
  updateWindowDims := [1]
  insertedWindowDims := [0]
  scatterDimsToOperandDims := [0]
  indexVectorDim := 1
  wf := scatter_S100000x11_S1200000x1_S1200000x11_1_0_0_1_wf
def dot_S100000x11_S11x64_S100000x64_1_0_0_1_n_n : DotDims S100000x11 S11x64 S100000x64 where
  lhsContracting := [1]
  rhsContracting := [0]
  lhsNonContracting := [0]
  rhsNonContracting := [1]
  lhsBatch := []
  rhsBatch := []
  wf := dot_S100000x11_S11x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

class Facts : Prop extends Facts₀ where

variable [Facts]
-- ==== Proof.Spec.lean ====
/-
  The mathematics of the graph network, as functions of arrays of extended reals, index by index.

  One stage of the network acts on each node's feature row separately: a linear map, a shift and scale by fixed
  per-feature statistics (subtract the mean, multiply by the reciprocal square root of the variance plus a small
  constant, multiply by a gain, add an offset), a clamp at zero from below, a second linear map plus offset, and a
  second clamp. Because a row of the result depends on the same row of the input only, the stage commutes with
  appending rows to the input and dropping them from the result.

  Pooling adds up, for each graph number g, the rows of the nodes whose graph number is g; a node whose number is not
  the number of any graph adds nothing. The read-out is two linear maps with a clamp between them, row by row.
-/
import Idealize.ShloMosaic.PureOps.Ideal
import Idealize.ShloMosaic.Lib.ValueIdx

noncomputable section

namespace Cert.Gin

open Idealize.ShloMosaic Idealize.ShloMosaic.ValueIdx

/-- A matrix of extended reals with R rows and C columns. -/
abbrev Mat (R C : Nat) := (⟨2, ![R, C]⟩ : Shape).Idx → EReal
/-- A vector of extended reals of length n. -/
abbrev Vct (n : Nat) := (⟨1, ![n]⟩ : Shape).Idx → EReal
/-- A vector of 32-bit words of length n. -/
abbrev Wrd (n : Nat) := (⟨1, ![n]⟩ : Shape).Idx → BitVec 32

/-- The small constant added to the variance: the single-precision number nearest to one hundred-thousandth. -/
def eps : EReal := Ideal.ofBits .f32 0x3727C5AC#32

/-- Entry k of the normalised, clamped first linear map of a feature row a. -/
def hidden {D : Nat} (a : Fin D → EReal) (wa : Mat D 64) (ba g be mu v : Vct 64) (k : Fin 64) : EReal :=
  max (((((∑ i : Fin D, a i * wa (ix2 i k)) + ba (ix1 k)) - mu (ix1 k)) * Ideal.rsqrt (v (ix1 k) + eps)) * g (ix1 k)
    + be (ix1 k)) 0

/-- Entry j of one stage applied to a feature row a. -/
def stageRow {D : Nat} (a : Fin D → EReal) (wa : Mat D 64) (ba g be mu v : Vct 64) (wb : Mat 64 64) (bb : Vct 64)
    (j : Fin 64) : EReal :=
  max ((∑ k : Fin 64, hidden a wa ba g be mu v k * wb (ix2 k j)) + bb (ix1 j)) 0

/-- One stage applied to every row of A. -/
def stage {R D : Nat} (A : Mat R D) (wa : Mat D 64) (ba g be mu v : Vct 64) (wb : Mat 64 64) (bb : Vct 64) : Mat R 64 :=
  fun y => stageRow (fun i => A (ix2 ⟨(y 0).val, idx2_lt0 y⟩ i)) wa ba g be mu v wb bb ⟨(y 1).val, idx2_lt1 y⟩

theorem stage_ix2 {R D : Nat} (A : Mat R D) (wa : Mat D 64) (ba g be mu v : Vct 64) (wb : Mat 64 64) (bb : Vct 64)
    (r : Fin R) (j : Fin 64) :
    stage A wa ba g be mu v wb bb (ix2 r j) = stageRow (fun i => A (ix2 r i)) wa ba g be mu v wb bb j := rfl

/-- Rows of the result depend on the same rows of the input: if the first R rows of A' are the rows of A, the first R
    rows of the stage of A' are the stage of A. -/
theorem stage_of_rows {R R' D : Nat} (A : Mat R D) (A' : Mat R' D) (wa : Mat D 64) (ba g be mu v : Vct 64) (wb : Mat 64 64)
    (bb : Vct 64) (r : Fin R) (r' : Fin R') (h : ∀ i : Fin D, A' (ix2 r' i) = A (ix2 r i)) (j : Fin 64) :
    stage A' wa ba g be mu v wb bb (ix2 r' j) = stage A wa ba g be mu v wb bb (ix2 r j) := by
  rw [stage_ix2, stage_ix2]
  exact congrArg (fun a => stageRow a wa ba g be mu v wb bb j) (funext h)

/-- The pooled sums: entry (p, q) adds up column q over the nodes whose graph number, read as a signed integer, is p. -/
def pooled {N G : Nat} (h : Mat N 64) (b : Wrd N) : Mat G 64 :=
  fun y => ∑ n : Fin N, if (b (ix1 n)).toInt = ((y 0).val : ℤ) then h (ix2 n ⟨(y 1).val, idx2_lt1 y⟩) else 0

theorem pooled_ix2 {N G : Nat} (h : Mat N 64) (b : Wrd N) (p : Fin G) (q : Fin 64) :
    pooled (G := G) h b (ix2 p q) = ∑ n : Fin N, if (b (ix1 n)).toInt = (p.val : ℤ) then h (ix2 n q) else 0 := rfl

/-- The read-out of one pooled row: a linear map and offset, a clamp at zero, a second linear map to one number, and offset. -/
def readRow (a : Fin 64 → EReal) (w1 : Mat 64 64) (b1 : Vct 64) (w2 : Mat 64 1) (b2 : Vct 1) : EReal :=
  (∑ k : Fin 64, max ((∑ i : Fin 64, a i * w1 (ix2 i k)) + b1 (ix1 k)) 0 * w2 (ix2 k 0)) + b2 (ix1 0)

/-- The read-out applied to every pooled row. -/
def readout {G : Nat} (hg : Mat G 64) (w1 : Mat 64 64) (b1 : Vct 64) (w2 : Mat 64 1) (b2 : Vct 1) : Mat G 1 :=
  fun y => readRow (fun i => hg (ix2 ⟨(y 0).val, idx2_lt0 y⟩ i)) w1 b1 w2 b2

theorem readout_ix2 {G : Nat} (hg : Mat G 64) (w1 : Mat 64 64) (b1 : Vct 64) (w2 : Mat 64 1) (b2 : Vct 1) (p : Fin G)
    (q : Fin 1) : readout hg w1 b1 w2 b2 (ix2 p q) = readRow (fun i => hg (ix2 p i)) w1 b1 w2 b2 := rfl

end Cert.Gin

end
-- ==== Proof.PoolPad.lean ====
/-
  Appending nodes that belong to no graph changes no pooled sum: if the first N rows and graph numbers of a longer
  pair of arrays are those of a shorter pair, and none of the appended graph numbers is the number of a graph, every
  pooled entry of the longer pair is that of the shorter pair (the appended terms of each sum are switched off).
-/
import proofs.«404020_j57260503991115_3_alg».proof.Proof.Spec

noncomputable section

namespace Cert.Gin

open Idealize.ShloMosaic Idealize.ShloMosaic.ValueIdx

theorem pooled_append {N K G : Nat} (h : Mat N 64) (b : Wrd N) (hp : Mat (N + K) 64) (bp : Wrd (N + K))
    (hh : ∀ (n : Fin N) (q : Fin 64), hp (ix2 (Fin.castAdd K n) q) = h (ix2 n q))
    (hb : ∀ n : Fin N, bp (ix1 (Fin.castAdd K n)) = b (ix1 n))
    (hz : ∀ (n : Fin K) (p : Fin G), (bp (ix1 (Fin.natAdd N n))).toInt ≠ (p.val : ℤ)) :
    pooled (G := G) hp bp = pooled (G := G) h b := by
  funext y
  unfold pooled
  rw [Fin.sum_univ_add]
  have tail : (∑ n : Fin K, if (bp (ix1 (Fin.natAdd N n))).toInt = ((y 0).val : ℤ)
      then hp (ix2 (Fin.natAdd N n) ⟨(y 1).val, idx2_lt1 y⟩) else 0) = 0 :=
    Finset.sum_eq_zero fun n _ => if_neg (hz n ⟨(y 0).val, idx2_lt0 y⟩)
  rw [tail, add_zero]
  exact Finset.sum_congr rfl fun n _ => by rw [hb n, hh n]

end Cert.Gin

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.KStage0.lean ====
import proofs.«404020_j57260503991115_3_alg».proof.Proof.Gen.KernelIdeal.Frame
import proofs.«404020_j57260503991115_3_alg».proof.Proof.Spec
import proofs.«404020_j57260503991115_3_alg».proof.Proof.LibMatProduct
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# A stage's launch

The launch runs one body over 49 grid points. Point t stages rows 2048 t to 2048 t + 2047 of the padded input array
(100352 rows of 11 features) and the eight small operands whole (the first matrix, its offset, the gain, the second
offset, the mean, the variance, the second matrix and its offset), and writes back rows 2048 t to 2048 t + 2047 of the
output. The body's arithmetic on a block is, row by row, the stage of the specification: entry (p, j) of its result
depends on row p of the input block alone. The blocks of the 49 points are the consecutive bands of 2048 rows and
together make up all 100352 rows, so the output array after the launch is the stage of the input array, row for row.
-/

noncomputable section

namespace Cert.KernelIdeal.Stage0

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The body's arithmetic at one entry -/

/-- A vector of 64 numbers laid out as one row and repeated over 2048 rows reads, at (p, j), its entry j. -/
theorem row_apply (y : FVec Ideal S64 .f32) (p : Fin 2048) (j : Fin 64) :
    broadcastTo S2048x64 (shapeCast S1x64 y shapeCasts_S64_S1x64) broadcasts_S1x64_S2048x64 (ix2 p j) = y (ix1 j) := by
  rw [broadcastTo_1b_ab_apply, shapeCast_a_1a_apply]

/-- The first product, of the block of input rows with the first matrix, accumulated from zero: at (p, k) it is row p
    of the block against column k of the matrix. -/
theorem mm1_apply (A1 : FVec Ideal S2048x11 .bf16) (B1 : FVec Ideal S11x64 .bf16) (p : Fin 2048) (k : Fin 64) :
    matmul dot_S2048x11_S11x64_S2048x64_1_0_0_1_n_n none A1 B1 (constant S2048x64 .f32 0x00000000#32) (ix2 p k)
      = ∑ i : Fin 11, A1 (ix2 p i) * B1 (ix2 i k) := by
  show matmul (DotDims.plain 2048 11 64) none A1 B1 (constant ⟨2, ![2048, 64]⟩ .f32 0x00000000#32) (ix2 p k) = _
  rw [Cert.Lib.MatProduct.matmul_plain_zero_eq, Cert.Lib.MatProduct.matProd_ix2]

/-- The second product, of the hidden rows with the second matrix, accumulated from zero: at (p, j) it is hidden row p
    against column j of the matrix. -/
theorem mm2_apply (A2 : FVec Ideal S2048x64 .bf16) (B2 : FVec Ideal S64x64 .bf16) (p : Fin 2048) (j : Fin 64) :
    matmul dot_S2048x64_S64x64_S2048x64_1_0_0_1_n_n none A2 B2 (constant S2048x64 .f32 0x00000000#32) (ix2 p j)
      = ∑ k : Fin 64, A2 (ix2 p k) * B2 (ix2 k j) := by
  show matmul (DotDims.plain 2048 64 64) none A2 B2 (constant ⟨2, ![2048, 64]⟩ .f32 0x00000000#32) (ix2 p j) = _
  rw [Cert.Lib.MatProduct.matmul_plain_zero_eq, Cert.Lib.MatProduct.matProd_ix2]

/-- The reciprocal square root of a vector, entry by entry. -/
theorem rsqrt_apply {s : Shape} {φ : FTy} (v : FVec Ideal s φ) (i : s.Idx) : rsqrt v i = Ideal.rsqrt (v i) := rfl

/-- Entry (p, j) of what the body computes from its nine blocks is entry j of the stage applied to row p of the first
    block: the first product and offset, the shift by the mean, the scaling by the reciprocal root of the variance plus
    the small constant, the gain and offset, the clamp at zero, the second product and offset, and the last clamp, each
    read at the entry; a change of number format changes nothing at the extended reals. -/
theorem pay_apply (x0 : Vec Ideal S2048x11 .f32) (x1 : Vec Ideal S11x64 .f32) (x2 x3 x4 x5 x6 : Vec Ideal S64 .f32)
    (x7 : Vec Ideal S64x64 .f32) (x8 : Vec Ideal S64 .f32) (p : Fin 2048) (j : Fin 64) :
    k0_pay1 (F := Ideal) x0 x1 x2 x3 x4 x5 x6 x7 x8 (ix2 p j)
      = Cert.Gin.stageRow (fun i => x0 (ix2 p i)) x1 x2 x3 x4 x5 x6 x7 x8 j := by
  unfold k0_pay1 Cert.Gin.stageRow Cert.Gin.hidden Cert.Gin.eps
  simp only [maximumf_apply, addf_apply, subf_apply, mulf_apply, mm1_apply, mm2_apply, row_apply, broadcast_apply,
    truncf_apply, shapeCast_self, broadcastTo_1b_ab_apply, shapeCast_a_1a_apply, rsqrt_apply, Ideal.ofBits_def,
    Ideal.ofBits_zero_f32]

/-- The zero offsets of a whole-buffer access, in two spellings. -/
theorem hz2 : (![0, 0] : Fin 2 → Nat) = fun _ => 0 := funext fun a => by fin_cases a <;> rfl
theorem hz1 : (![0] : Fin 1 → Nat) = fun _ => 0 := funext fun a => by fin_cases a; rfl

/-- The body loads its nine staging buffers whole and stores its result whole, so what it leaves in the output's buffer
    is the arithmetic above of the buffers' contents. -/
theorem out_apply (x0 : Vec Ideal S2048x11 .f32) (x1 : Vec Ideal S11x64 .f32) (x2 x3 x4 x5 x6 : Vec Ideal S64 .f32)
    (x7 : Vec Ideal S64x64 .f32) (x8 : Vec Ideal S64 .f32) (p : Fin 2048) (j : Fin 64) :
    out0_9 (F := Ideal) x0 x1 x2 x3 x4 x5 x6 x7 x8 (ix2 p j)
      = Cert.Gin.stageRow (fun i => x0 (ix2 p i)) x1 x2 x3 x4 x5 x6 x7 x8 j := by
  unfold out0_9
  rw [View.canon_unit_zero hz2]
  simp only [View.ld_unit_zero (S := S2048x11) hz2, View.ld_unit_zero (S := S11x64) hz2, View.ld_unit_zero (S := S64x64) hz2, View.ld_unit_zero (S := S64) hz1]
  exact pay_apply x0 x1 x2 x3 x4 x5 x6 x7 x8 p j

/-! ## The blocks of one grid point -/

/-- The launch's index maps over its 49 points: the input's and the output's block at point t is block t of the rows and
    the only block of the columns; each of the eight small operands has the one block that is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row p of the input's block at point t is row 2048 t + p of the input array. -/
theorem blk0_apply (c : Dev nD) (t : Fin cfg0.N) (p : Fin 2048) (i : Fin 11) (r : Fin 100352)
    (hr : r.val = t.val * 2048 + p.val) :
    (iblk0 V c 0 t : Vec Ideal S2048x11 .f32) (ix2 p i) = (V c main_v15 : S100352x11.Idx → EReal) (ix2 r i) := by
  obtain ⟨e00, e01, e10, e11, e2, e3, e4, e5, e6, e70, e71, e8, e90, e91⟩ := idx_facts t
  unfold iblk0
  rw [View.read_apply]
  show V c main_v15 _ = V c main_v15 _
  congr 1
  funext a
  apply Fin.ext
  match a with
  | ⟨0, _⟩ => show win0_0.index t (0 : Fin 2) * 2048 + 1 * p.val = r.val; rw [e00, hr]; omega
  | ⟨1, _⟩ => show win0_0.index t (1 : Fin 2) * 11 + 1 * i.val = i.val; rw [e01]; omega

/-- The first matrix's block at every point is the whole matrix. -/
theorem blk1_eq (c : Dev nD) (t : Fin cfg0.N) :
    (iblk0 V c 1 t : Vec Ideal S11x64 .f32) = (V c main_arg3 : S11x64.Idx → EReal) := by
  obtain ⟨e00, e01, e10, e11, e2, e3, e4, e5, e6, e70, e71, e8, e90, e91⟩ := idx_facts t
  funext y
  unfold iblk0
  rw [View.read_apply]
  show V c main_arg3 _ = V c main_arg3 _
  congr 1
  funext a
  apply Fin.ext
  match a with
  | ⟨0, _⟩ => show win0_1.index t (0 : Fin 2) * 11 + 1 * (y 0).val = (y 0).val; rw [e10]; omega
  | ⟨1, _⟩ => show win0_1.index t (1 : Fin 2) * 64 + 1 * (y 1).val = (y 1).val; rw [e11]; omega

/-- The first offset's block at every point is the whole vector. -/
theorem blk2_eq (c : Dev nD) (t : Fin cfg0.N) :
    (iblk0 V c 2 t : Vec Ideal S64 .f32) = (V c main_arg4 : S64.Idx → EReal) := by
  obtain ⟨e00, e01, e10, e11, e2, e3, e4, e5, e6, e70, e71, e8, e90, e91⟩ := idx_facts t
  funext y
  unfold iblk0
  rw [View.read_apply]
  show V c main_arg4 _ = V c main_arg4 _
  congr 1
  funext a
  apply Fin.ext
  match a with
  | ⟨0, _⟩ => show win0_2.index t (0 : Fin 1) * 64 + 1 * (y 0).val = (y 0).val; rw [e2]; omega

/-- The gain's block at every point is the whole vector. -/
theorem blk3_eq (c : Dev nD) (t : Fin cfg0.N) :
    (iblk0 V c 3 t : Vec Ideal S64 .f32) = (V c main_arg5 : S64.Idx → EReal) := by
  obtain ⟨e00, e01, e10, e11, e2, e3, e4, e5, e6, e70, e71, e8, e90, e91⟩ := idx_facts t
  funext y
  unfold iblk0
  rw [View.read_apply]
  show V c main_arg5 _ = V c main_arg5 _
  congr 1
  funext a
  apply Fin.ext
  match a with
  | ⟨0, _⟩ => show win0_3.index t (0 : Fin 1) * 64 + 1 * (y 0).val = (y 0).val; rw [e3]; omega

/-- The second offset's block at every point is the whole vector. -/
theorem blk4_eq (c : Dev nD) (t : Fin cfg0.N) :
    (iblk0 V c 4 t : Vec Ideal S64 .f32) = (V c main_arg6 : S64.Idx → EReal) := by
  obtain ⟨e00, e01, e10, e11, e2, e3, e4, e5, e6, e70, e71, e8, e90, e91⟩ := idx_facts t
  funext y
  unfold iblk0
  rw [View.read_apply]
  show V c main_arg6 _ = V c main_arg6 _
  congr 1
  funext a
  apply Fin.ext
  match a with
  | ⟨0, _⟩ => show win0_4.index t (0 : Fin 1) * 64 + 1 * (y 0).val = (y 0).val; rw [e4]; omega

/-- The mean's block at every point is the whole vector. -/
theorem blk5_eq (c : Dev nD) (t : Fin cfg0.N) :
    (iblk0 V c 5 t : Vec Ideal S64 .f32) = (V c main_arg7 : S64.Idx → EReal) := by
  obtain ⟨e00, e01, e10, e11, e2, e3, e4, e5, e6, e70, e71, e8, e90, e91⟩ := idx_facts t
  funext y
  unfold iblk0
  rw [View.read_apply]
  show V c main_arg7 _ = V c main_arg7 _
  congr 1
  funext a
  apply Fin.ext
  match a with
  | ⟨0, _⟩ => show win0_5.index t (0 : Fin 1) * 64 + 1 * (y 0).val = (y 0).val; rw [e5]; omega

/-- The variance's block at every point is the whole vector. -/
theorem blk6_eq (c : Dev nD) (t : Fin cfg0.N) :
    (iblk0 V c 6 t : Vec Ideal S64 .f32) = (V c main_arg8 : S64.Idx → EReal) := by
  obtain ⟨e00, e01, e10, e11, e2, e3, e4, e5, e6, e70, e71, e8, e90, e91⟩ := idx_facts t
  funext y
  unfold iblk0
  rw [View.read_apply]
  show V c main_arg8 _ = V c main_arg8 _
  congr 1
  funext a
  apply Fin.ext
  match a with
  | ⟨0, _⟩ => show win0_6.index t (0 : Fin 1) * 64 + 1 * (y 0).val = (y 0).val; rw [e6]; omega

/-- The second matrix's block at every point is the whole matrix. -/
theorem blk7_eq (c : Dev nD) (t : Fin cfg0.N) :
    (iblk0 V c 7 t : Vec Ideal S64x64 .f32) = (V c main_arg9 : S64x64.Idx → EReal) := by
  obtain ⟨e00, e01, e10, e11, e2, e3, e4, e5, e6, e70, e71, e8, e90, e91⟩ := idx_facts t
  funext y
  unfold iblk0
  rw [View.read_apply]
  show V c main_arg9 _ = V c main_arg9 _
  congr 1
  funext a
  apply Fin.ext
  match a with
  | ⟨0, _⟩ => show win0_7.index t (0 : Fin 2) * 64 + 1 * (y 0).val = (y 0).val; rw [e70]; omega
  | ⟨1, _⟩ => show win0_7.index t (1 : Fin 2) * 64 + 1 * (y 1).val = (y 1).val; rw [e71]; omega

/-- The last offset's block at every point is the whole vector. -/
theorem blk8_eq (c : Dev nD) (t : Fin cfg0.N) :
    (iblk0 V c 8 t : Vec Ideal S64 .f32) = (V c main_arg10 : S64.Idx → EReal) := by
  obtain ⟨e00, e01, e10, e11, e2, e3, e4, e5, e6, e70, e71, e8, e90, e91⟩ := idx_facts t
  funext y
  unfold iblk0
  rw [View.read_apply]
  show V c main_arg10 _ = V c main_arg10 _
  congr 1
  funext a
  apply Fin.ext
  match a with
  | ⟨0, _⟩ => show win0_8.index t (0 : Fin 1) * 64 + 1 * (y 0).val = (y 0).val; rw [e8]; omega

/-! ## From the blocks to the array -/

/-- What point t writes back is block t of the stage of the arrays the launch found: entry (p, q) of the body's result
    is the stage of row p of the input's block, which is row 2048 t + p of the input, and that row and column q is where
    entry (p, q) of the output's block lies in the output array. -/
theorem flushed_eq (c : Dev nD) (t : Fin cfg0.N) :
    (dat0 (F := Ideal) V c).flushed 9 t
      = ((cfg0.win 9).blk t).view.read (Elt Ideal) (Cert.Gin.stage (V c main_v15) (V c main_arg3) (V c main_arg4) (V c main_arg5) (V c main_arg6) (V c main_arg7) (V c main_arg8) (V c main_arg9) (V c main_arg10)) := by
  show (cfg0.win 9).cut (grid0.coords t) ((dat0 V c).after 9 t) = _
  rw [after0_9]
  obtain ⟨e00, e01, e10, e11, e2, e3, e4, e5, e6, e70, e71, e8, e90, e91⟩ := idx_facts t
  funext y
  obtain ⟨p, q, rfl⟩ : ∃ (p : Fin 2048) (q : Fin 64), y = ix2 p q := ⟨y 0, y 1, eq_ix2 y⟩
  show out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = Cert.Gin.stage (V c main_v15) (V c main_arg3) (V c main_arg4) (V c main_arg5) (V c main_arg6) (V c main_arg7) (V c main_arg8) (V c main_arg9) (V c main_arg10) (((cfg0.win 9).blk t).view.emb (ix2 p q))
  have hN : cfg0.N = 49 := N_0
  have hr : t.val * 2048 + p.val < 100352 := by have := t.isLt; omega
  have he : ((cfg0.win 9).blk t).view.emb (ix2 p q) = ix2 (⟨t.val * 2048 + p.val, hr⟩ : Fin 100352) q := by
    funext a
    apply Fin.ext
    match a with
    | ⟨0, _⟩ => show win0_9.index t (0 : Fin 2) * 2048 + 1 * p.val = t.val * 2048 + p.val; rw [e90]; omega
    | ⟨1, _⟩ => show win0_9.index t (1 : Fin 2) * 64 + 1 * q.val = q.val; rw [e91]; omega
  rw [he, Cert.Gin.stage_ix2]
  refine (out_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  rw [blk1_eq V c t, blk2_eq V c t, blk3_eq V c t, blk4_eq V c t, blk5_eq V c t, blk6_eq V c t, blk7_eq V c t, blk8_eq V c t]
  exact congrArg (fun a => Cert.Gin.stageRow a (V c main_arg3) (V c main_arg4) (V c main_arg5) (V c main_arg6) (V c main_arg7) (V c main_arg8) (V c main_arg9) (V c main_arg10) q)
    (funext fun i => blk0_apply V c t p i ⟨t.val * 2048 + p.val, hr⟩ rfl)

/-- An index of the output array lies in point t's block when its row is among rows 2048 t to 2048 t + 2047. -/
theorem mem_blk (t : Fin cfg0.N) (i : S100352x64.Idx) :
    i ∈ ((cfg0.win 9).blk t).view.set ↔ ∀ a : Fin 2, win0_9.index t a * S2048x64.size a ≤ (i a).val ∧ (i a).val < win0_9.index t a * S2048x64.size a + S2048x64.size a := by
  show i ∈ ((View.whole main_v16).slice (win0_9.rect t)).set ↔ _
  rw [View.set_slice_whole, Rect.mem_set_unit]
  exact Iff.rfl

/-- Every index of the output array is written back by some point: row r by point r / 2048. -/
theorem cover (i : S100352x64.Idx) :
    ∃ t : Fin cfg0.N, (cfg0.win 9).flush t = true ∧ i ∈ ((cfg0.win 9).blk t).view.set := by
  have hi0 : (i 0).val < 100352 := (i 0).isLt
  have hi1 : (i 1).val < 64 := (i 1).isLt
  have hN : cfg0.N = 49 := N_0
  obtain ⟨t, ht⟩ : ∃ t : Fin cfg0.N, t.val = (i 0).val / 2048 := ⟨⟨(i 0).val / 2048, by rw [hN]; omega⟩, rfl⟩
  obtain ⟨e00, e01, e10, e11, e2, e3, e4, e5, e6, e70, e71, e8, e90, e91⟩ := idx_facts t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; rw [e90, ht]; omega
  | ⟨1, _⟩ => show win0_9.index t (1 : Fin 2) * 64 ≤ (i 1).val ∧ (i 1).val < win0_9.index t (1 : Fin 2) * 64 + 64; rw [e91]; omega

/-- The array the stage's launch leaves: every row of the result is the stage of the same row of the input. -/
theorem final (c : Dev nD) :
    (dat0 (F := Ideal) V c).arrAt 9 cfg0.N
      = Cert.Gin.stage (V c main_v15) (V c main_arg3) (V c main_arg4) (V c main_arg5) (V c main_arg6) (V c main_arg7) (V c main_arg8) (V c main_arg9) (V c main_arg10) :=
  (dat0 V c).arrAt_eq_of_cover 9 _ (fun t _ => flushed_eq V c t) cover

end Cert.KernelIdeal.Stage0

end
-- ==== Proof.KStage1.lean ====
import proofs.«404020_j57260503991115_3_alg».proof.Proof.Gen.KernelIdeal.Frame
import proofs.«404020_j57260503991115_3_alg».proof.Proof.Spec
import proofs.«404020_j57260503991115_3_alg».proof.Proof.LibMatProduct
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# A stage's launch

The launch runs one body over 49 grid points. Point t stages rows 2048 t to 2048 t + 2047 of the padded input array
(100352 rows of 64 features) and the eight small operands whole (the first matrix, its offset, the gain, the second
offset, the mean, the variance, the second matrix and its offset), and writes back rows 2048 t to 2048 t + 2047 of the
output. The body's arithmetic on a block is, row by row, the stage of the specification: entry (p, j) of its result
depends on row p of the input block alone. The blocks of the 49 points are the consecutive bands of 2048 rows and
together make up all 100352 rows, so the output array after the launch is the stage of the input array, row for row.
-/

noncomputable section

namespace Cert.KernelIdeal.Stage1

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The body's arithmetic at one entry -/

/-- A vector of 64 numbers laid out as one row and repeated over 2048 rows reads, at (p, j), its entry j. -/
theorem row_apply (y : FVec Ideal S64 .f32) (p : Fin 2048) (j : Fin 64) :
    broadcastTo S2048x64 (shapeCast S1x64 y shapeCasts_S64_S1x64) broadcasts_S1x64_S2048x64 (ix2 p j) = y (ix1 j) := by
  rw [broadcastTo_1b_ab_apply, shapeCast_a_1a_apply]

/-- The first product, of the block of input rows with the first matrix, accumulated from zero: at (p, k) it is row p
    of the block against column k of the matrix. -/
theorem mm1_apply (A1 : FVec Ideal S2048x64 .bf16) (B1 : FVec Ideal S64x64 .bf16) (p : Fin 2048) (k : Fin 64) :
    matmul dot_S2048x64_S64x64_S2048x64_1_0_0_1_n_n none A1 B1 (constant S2048x64 .f32 0x00000000#32) (ix2 p k)
      = ∑ i : Fin 64, A1 (ix2 p i) * B1 (ix2 i k) := by
  show matmul (DotDims.plain 2048 64 64) none A1 B1 (constant ⟨2, ![2048, 64]⟩ .f32 0x00000000#32) (ix2 p k) = _
  rw [Cert.Lib.MatProduct.matmul_plain_zero_eq, Cert.Lib.MatProduct.matProd_ix2]

/-- The second product, of the hidden rows with the second matrix, accumulated from zero: at (p, j) it is hidden row p
    against column j of the matrix. -/
theorem mm2_apply (A2 : FVec Ideal S2048x64 .bf16) (B2 : FVec Ideal S64x64 .bf16) (p : Fin 2048) (j : Fin 64) :
    matmul dot_S2048x64_S64x64_S2048x64_1_0_0_1_n_n none A2 B2 (constant S2048x64 .f32 0x00000000#32) (ix2 p j)
      = ∑ k : Fin 64, A2 (ix2 p k) * B2 (ix2 k j) := by
  show matmul (DotDims.plain 2048 64 64) none A2 B2 (constant ⟨2, ![2048, 64]⟩ .f32 0x00000000#32) (ix2 p j) = _
  rw [Cert.Lib.MatProduct.matmul_plain_zero_eq, Cert.Lib.MatProduct.matProd_ix2]

/-- The reciprocal square root of a vector, entry by entry. -/
theorem rsqrt_apply {s : Shape} {φ : FTy} (v : FVec Ideal s φ) (i : s.Idx) : rsqrt v i = Ideal.rsqrt (v i) := rfl

/-- Entry (p, j) of what the body computes from its nine blocks is entry j of the stage applied to row p of the first
    block: the first product and offset, the shift by the mean, the scaling by the reciprocal root of the variance plus
    the small constant, the gain and offset, the clamp at zero, the second product and offset, and the last clamp, each
    read at the entry; a change of number format changes nothing at the extended reals. -/
theorem pay_apply (x0 : Vec Ideal S2048x64 .f32) (x1 : Vec Ideal S64x64 .f32) (x2 x3 x4 x5 x6 : Vec Ideal S64 .f32)
    (x7 : Vec Ideal S64x64 .f32) (x8 : Vec Ideal S64 .f32) (p : Fin 2048) (j : Fin 64) :
    k1_pay1 (F := Ideal) x0 x1 x2 x3 x4 x5 x6 x7 x8 (ix2 p j)
      = Cert.Gin.stageRow (fun i => x0 (ix2 p i)) x1 x2 x3 x4 x5 x6 x7 x8 j := by
  unfold k1_pay1 Cert.Gin.stageRow Cert.Gin.hidden Cert.Gin.eps
  simp only [maximumf_apply, addf_apply, subf_apply, mulf_apply, mm1_apply, mm2_apply, row_apply, broadcast_apply,
    truncf_apply, shapeCast_self, broadcastTo_1b_ab_apply, shapeCast_a_1a_apply, rsqrt_apply, Ideal.ofBits_def,
    Ideal.ofBits_zero_f32]

/-- The zero offsets of a whole-buffer access, in two spellings. -/
theorem hz2 : (![0, 0] : Fin 2 → Nat) = fun _ => 0 := funext fun a => by fin_cases a <;> rfl
theorem hz1 : (![0] : Fin 1 → Nat) = fun _ => 0 := funext fun a => by fin_cases a; rfl

/-- The body loads its nine staging buffers whole and stores its result whole, so what it leaves in the output's buffer
    is the arithmetic above of the buffers' contents. -/
theorem out_apply (x0 : Vec Ideal S2048x64 .f32) (x1 : Vec Ideal S64x64 .f32) (x2 x3 x4 x5 x6 : Vec Ideal S64 .f32)
    (x7 : Vec Ideal S64x64 .f32) (x8 : Vec Ideal S64 .f32) (p : Fin 2048) (j : Fin 64) :
    out1_9 (F := Ideal) x0 x1 x2 x3 x4 x5 x6 x7 x8 (ix2 p j)
      = Cert.Gin.stageRow (fun i => x0 (ix2 p i)) x1 x2 x3 x4 x5 x6 x7 x8 j := by
  unfold out1_9
  rw [View.canon_unit_zero hz2]
  simp only [View.ld_unit_zero (S := S2048x64) hz2, View.ld_unit_zero (S := S64x64) hz2, View.ld_unit_zero (S := S64) hz1]
  exact pay_apply x0 x1 x2 x3 x4 x5 x6 x7 x8 p j

/-! ## The blocks of one grid point -/

/-- The launch's index maps over its 49 points: the input's and the output's block at point t is block t of the rows and
    the only block of the columns; each of the eight small operands has the one block that is the whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0 ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Row p of the input's block at point t is row 2048 t + p of the input array. -/
theorem blk0_apply (c : Dev nD) (t : Fin cfg1.N) (p : Fin 2048) (i : Fin 64) (r : Fin 100352)
    (hr : r.val = t.val * 2048 + p.val) :
    (iblk1 V c 0 t : Vec Ideal S2048x64 .f32) (ix2 p i) = (V c main_v31 : S100352x64.Idx → EReal) (ix2 r i) := by
  obtain ⟨e00, e01, e10, e11, e2, e3, e4, e5, e6, e70, e71, e8, e90, e91⟩ := idx_facts t
  unfold iblk1
  rw [View.read_apply]
  show V c main_v31 _ = V c main_v31 _
  congr 1
  funext a
  apply Fin.ext
  match a with
  | ⟨0, _⟩ => show win1_0.index t (0 : Fin 2) * 2048 + 1 * p.val = r.val; rw [e00, hr]; omega
  | ⟨1, _⟩ => show win1_0.index t (1 : Fin 2) * 64 + 1 * i.val = i.val; rw [e01]; omega

/-- The first matrix's block at every point is the whole matrix. -/
theorem blk1_eq (c : Dev nD) (t : Fin cfg1.N) :
    (iblk1 V c 1 t : Vec Ideal S64x64 .f32) = (V c main_arg11 : S64x64.Idx → EReal) := by
  obtain ⟨e00, e01, e10, e11, e2, e3, e4, e5, e6, e70, e71, e8, e90, e91⟩ := idx_facts t
  funext y
  unfold iblk1
  rw [View.read_apply]
  show V c main_arg11 _ = V c main_arg11 _
  congr 1
  funext a
  apply Fin.ext
  match a with
  | ⟨0, _⟩ => show win1_1.index t (0 : Fin 2) * 64 + 1 * (y 0).val = (y 0).val; rw [e10]; omega
  | ⟨1, _⟩ => show win1_1.index t (1 : Fin 2) * 64 + 1 * (y 1).val = (y 1).val; rw [e11]; omega

/-- The first offset's block at every point is the whole vector. -/
theorem blk2_eq (c : Dev nD) (t : Fin cfg1.N) :
    (iblk1 V c 2 t : Vec Ideal S64 .f32) = (V c main_arg12 : S64.Idx → EReal) := by
  obtain ⟨e00, e01, e10, e11, e2, e3, e4, e5, e6, e70, e71, e8, e90, e91⟩ := idx_facts t
  funext y
  unfold iblk1
  rw [View.read_apply]
  show V c main_arg12 _ = V c main_arg12 _
  congr 1
  funext a
  apply Fin.ext
  match a with
  | ⟨0, _⟩ => show win1_2.index t (0 : Fin 1) * 64 + 1 * (y 0).val = (y 0).val; rw [e2]; omega

/-- The gain's block at every point is the whole vector. -/
theorem blk3_eq (c : Dev nD) (t : Fin cfg1.N) :
    (iblk1 V c 3 t : Vec Ideal S64 .f32) = (V c main_arg13 : S64.Idx → EReal) := by
  obtain ⟨e00, e01, e10, e11, e2, e3, e4, e5, e6, e70, e71, e8, e90, e91⟩ := idx_facts t
  funext y
  unfold iblk1
  rw [View.read_apply]
  show V c main_arg13 _ = V c main_arg13 _
  congr 1
  funext a
  apply Fin.ext
  match a with
  | ⟨0, _⟩ => show win1_3.index t (0 : Fin 1) * 64 + 1 * (y 0).val = (y 0).val; rw [e3]; omega

/-- The second offset's block at every point is the whole vector. -/
theorem blk4_eq (c : Dev nD) (t : Fin cfg1.N) :
    (iblk1 V c 4 t : Vec Ideal S64 .f32) = (V c main_arg14 : S64.Idx → EReal) := by
  obtain ⟨e00, e01, e10, e11, e2, e3, e4, e5, e6, e70, e71, e8, e90, e91⟩ := idx_facts t
  funext y
  unfold iblk1
  rw [View.read_apply]
  show V c main_arg14 _ = V c main_arg14 _
  congr 1
  funext a
  apply Fin.ext
  match a with
  | ⟨0, _⟩ => show win1_4.index t (0 : Fin 1) * 64 + 1 * (y 0).val = (y 0).val; rw [e4]; omega

/-- The mean's block at every point is the whole vector. -/
theorem blk5_eq (c : Dev nD) (t : Fin cfg1.N) :
    (iblk1 V c 5 t : Vec Ideal S64 .f32) = (V c main_arg15 : S64.Idx → EReal) := by
  obtain ⟨e00, e01, e10, e11, e2, e3, e4, e5, e6, e70, e71, e8, e90, e91⟩ := idx_facts t
  funext y
  unfold iblk1
  rw [View.read_apply]
  show V c main_arg15 _ = V c main_arg15 _
  congr 1
  funext a
  apply Fin.ext
  match a with
  | ⟨0, _⟩ => show win1_5.index t (0 : Fin 1) * 64 + 1 * (y 0).val = (y 0).val; rw [e5]; omega

/-- The variance's block at every point is the whole vector. -/
theorem blk6_eq (c : Dev nD) (t : Fin cfg1.N) :
    (iblk1 V c 6 t : Vec Ideal S64 .f32) = (V c main_arg16 : S64.Idx → EReal) := by
  obtain ⟨e00, e01, e10, e11, e2, e3, e4, e5, e6, e70, e71, e8, e90, e91⟩ := idx_facts t
  funext y
  unfold iblk1
  rw [View.read_apply]
  show V c main_arg16 _ = V c main_arg16 _
  congr 1
  funext a
  apply Fin.ext
  match a with
  | ⟨0, _⟩ => show win1_6.index t (0 : Fin 1) * 64 + 1 * (y 0).val = (y 0).val; rw [e6]; omega

/-- The second matrix's block at every point is the whole matrix. -/
theorem blk7_eq (c : Dev nD) (t : Fin cfg1.N) :
    (iblk1 V c 7 t : Vec Ideal S64x64 .f32) = (V c main_arg17 : S64x64.Idx → EReal) := by
  obtain ⟨e00, e01, e10, e11, e2, e3, e4, e5, e6, e70, e71, e8, e90, e91⟩ := idx_facts t
  funext y
  unfold iblk1
  rw [View.read_apply]
  show V c main_arg17 _ = V c main_arg17 _
  congr 1
  funext a
  apply Fin.ext
  match a with
  | ⟨0, _⟩ => show win1_7.index t (0 : Fin 2) * 64 + 1 * (y 0).val = (y 0).val; rw [e70]; omega
  | ⟨1, _⟩ => show win1_7.index t (1 : Fin 2) * 64 + 1 * (y 1).val = (y 1).val; rw [e71]; omega

/-- The last offset's block at every point is the whole vector. -/
theorem blk8_eq (c : Dev nD) (t : Fin cfg1.N) :
    (iblk1 V c 8 t : Vec Ideal S64 .f32) = (V c main_arg18 : S64.Idx → EReal) := by
  obtain ⟨e00, e01, e10, e11, e2, e3, e4, e5, e6, e70, e71, e8, e90, e91⟩ := idx_facts t
  funext y
  unfold iblk1
  rw [View.read_apply]
  show V c main_arg18 _ = V c main_arg18 _
  congr 1
  funext a
  apply Fin.ext
  match a with
  | ⟨0, _⟩ => show win1_8.index t (0 : Fin 1) * 64 + 1 * (y 0).val = (y 0).val; rw [e8]; omega

/-! ## From the blocks to the array -/

/-- What point t writes back is block t of the stage of the arrays the launch found: entry (p, q) of the body's result
    is the stage of row p of the input's block, which is row 2048 t + p of the input, and that row and column q is where
    entry (p, q) of the output's block lies in the output array. -/
theorem flushed_eq (c : Dev nD) (t : Fin cfg1.N) :
    (dat1 (F := Ideal) V c).flushed 9 t
      = ((cfg1.win 9).blk t).view.read (Elt Ideal) (Cert.Gin.stage (V c main_v31) (V c main_arg11) (V c main_arg12) (V c main_arg13) (V c main_arg14) (V c main_arg15) (V c main_arg16) (V c main_arg17) (V c main_arg18)) := by
  show (cfg1.win 9).cut (grid1.coords t) ((dat1 V c).after 9 t) = _
  rw [after1_9]
  obtain ⟨e00, e01, e10, e11, e2, e3, e4, e5, e6, e70, e71, e8, e90, e91⟩ := idx_facts t
  funext y
  obtain ⟨p, q, rfl⟩ : ∃ (p : Fin 2048) (q : Fin 64), y = ix2 p q := ⟨y 0, y 1, eq_ix2 y⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
    = Cert.Gin.stage (V c main_v31) (V c main_arg11) (V c main_arg12) (V c main_arg13) (V c main_arg14) (V c main_arg15) (V c main_arg16) (V c main_arg17) (V c main_arg18) (((cfg1.win 9).blk t).view.emb (ix2 p q))
  have hN : cfg1.N = 49 := N_1
  have hr : t.val * 2048 + p.val < 100352 := by have := t.isLt; omega
  have he : ((cfg1.win 9).blk t).view.emb (ix2 p q) = ix2 (⟨t.val * 2048 + p.val, hr⟩ : Fin 100352) q := by
    funext a
    apply Fin.ext
    match a with
    | ⟨0, _⟩ => show win1_9.index t (0 : Fin 2) * 2048 + 1 * p.val = t.val * 2048 + p.val; rw [e90]; omega
    | ⟨1, _⟩ => show win1_9.index t (1 : Fin 2) * 64 + 1 * q.val = q.val; rw [e91]; omega
  rw [he, Cert.Gin.stage_ix2]
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  rw [blk1_eq V c t, blk2_eq V c t, blk3_eq V c t, blk4_eq V c t, blk5_eq V c t, blk6_eq V c t, blk7_eq V c t, blk8_eq V c t]
  exact congrArg (fun a => Cert.Gin.stageRow a (V c main_arg11) (V c main_arg12) (V c main_arg13) (V c main_arg14) (V c main_arg15) (V c main_arg16) (V c main_arg17) (V c main_arg18) q)
    (funext fun i => blk0_apply V c t p i ⟨t.val * 2048 + p.val, hr⟩ rfl)

/-- An index of the output array lies in point t's block when its row is among rows 2048 t to 2048 t + 2047. -/
theorem mem_blk (t : Fin cfg1.N) (i : S100352x64.Idx) :
    i ∈ ((cfg1.win 9).blk t).view.set ↔ ∀ a : Fin 2, win1_9.index t a * S2048x64.size a ≤ (i a).val ∧ (i a).val < win1_9.index t a * S2048x64.size a + S2048x64.size a := by
  show i ∈ ((View.whole main_v32).slice (win1_9.rect t)).set ↔ _
  rw [View.set_slice_whole, Rect.mem_set_unit]
  exact Iff.rfl

/-- Every index of the output array is written back by some point: row r by point r / 2048. -/
theorem cover (i : S100352x64.Idx) :
    ∃ t : Fin cfg1.N, (cfg1.win 9).flush t = true ∧ i ∈ ((cfg1.win 9).blk t).view.set := by
  have hi0 : (i 0).val < 100352 := (i 0).isLt
  have hi1 : (i 1).val < 64 := (i 1).isLt
  have hN : cfg1.N = 49 := N_1
  obtain ⟨t, ht⟩ : ∃ t : Fin cfg1.N, t.val = (i 0).val / 2048 := ⟨⟨(i 0).val / 2048, by rw [hN]; omega⟩, rfl⟩
  obtain ⟨e00, e01, e10, e11, e2, e3, e4, e5, e6, e70, e71, e8, e90, e91⟩ := idx_facts t
  refine ⟨t, flush1_9 t, ?_⟩
  rw [mem_blk]
  intro a
  match a with
  | ⟨0, _⟩ => show win1_9.index t (0 : Fin 2) * 2048 ≤ (i 0).val ∧ (i 0).val < win1_9.index t (0 : Fin 2) * 2048 + 2048; rw [e90, ht]; omega
  | ⟨1, _⟩ => show win1_9.index t (1 : Fin 2) * 64 ≤ (i 1).val ∧ (i 1).val < win1_9.index t (1 : Fin 2) * 64 + 64; rw [e91]; omega

/-- The array the stage's launch leaves: every row of the result is the stage of the same row of the input. -/
theorem final (c : Dev nD) :
    (dat1 (F := Ideal) V c).arrAt 9 cfg1.N
      = Cert.Gin.stage (V c main_v31) (V c main_arg11) (V c main_arg12) (V c main_arg13) (V c main_arg14) (V c main_arg15) (V c main_arg16) (V c main_arg17) (V c main_arg18) :=
  (dat1 V c).arrAt_eq_of_cover 9 _ (fun t _ => flushed_eq V c t) cover

end Cert.KernelIdeal.Stage1

end
-- ==== Proof.KStage2.lean ====
import proofs.«404020_j57260503991115_3_alg».proof.Proof.Gen.KernelIdeal.Frame
import proofs.«404020_j57260503991115_3_alg».proof.Proof.Spec
import proofs.«404020_j57260503991115_3_alg».proof.Proof.LibMatProduct
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# A stage's launch

The launch runs one body over 49 grid points. Point t stages rows 2048 t to 2048 t + 2047 of the padded input array
(100352 rows of 64 features) and the eight small operands whole (the first matrix, its offset, the gain, the second
offset, the mean, the variance, the second matrix and its offset), and writes back rows 2048 t to 2048 t + 2047 of the
output. The body's arithmetic on a block is, row by row, the stage of the specification: entry (p, j) of its result
depends on row p of the input block alone. The blocks of the 49 points are the consecutive bands of 2048 rows and
together make up all 100352 rows, so the output array after the launch is the stage of the input array, row for row.
-/

noncomputable section

namespace Cert.KernelIdeal.Stage2

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The body's arithmetic at one entry -/

/-- A vector of 64 numbers laid out as one row and repeated over 2048 rows reads, at (p, j), its entry j. -/
theorem row_apply (y : FVec Ideal S64 .f32) (p : Fin 2048) (j : Fin 64) :
    broadcastTo S2048x64 (shapeCast S1x64 y shapeCasts_S64_S1x64) broadcasts_S1x64_S2048x64 (ix2 p j) = y (ix1 j) := by
  rw [broadcastTo_1b_ab_apply, shapeCast_a_1a_apply]

/-- The first product, of the block of input rows with the first matrix, accumulated from zero: at (p, k) it is row p
    of the block against column k of the matrix. -/
theorem mm1_apply (A1 : FVec Ideal S2048x64 .bf16) (B1 : FVec Ideal S64x64 .bf16) (p : Fin 2048) (k : Fin 64) :
    matmul dot_S2048x64_S64x64_S2048x64_1_0_0_1_n_n none A1 B1 (constant S2048x64 .f32 0x00000000#32) (ix2 p k)
      = ∑ i : Fin 64, A1 (ix2 p i) * B1 (ix2 i k) := by
  show matmul (DotDims.plain 2048 64 64) none A1 B1 (constant ⟨2, ![2048, 64]⟩ .f32 0x00000000#32) (ix2 p k) = _
  rw [Cert.Lib.MatProduct.matmul_plain_zero_eq, Cert.Lib.MatProduct.matProd_ix2]

/-- The second product, of the hidden rows with the second matrix, accumulated from zero: at (p, j) it is hidden row p
    against column j of the matrix. -/
theorem mm2_apply (A2 : FVec Ideal S2048x64 .bf16) (B2 : FVec Ideal S64x64 .bf16) (p : Fin 2048) (j : Fin 64) :
    matmul dot_S2048x64_S64x64_S2048x64_1_0_0_1_n_n none A2 B2 (constant S2048x64 .f32 0x00000000#32) (ix2 p j)
      = ∑ k : Fin 64, A2 (ix2 p k) * B2 (ix2 k j) := by
  show matmul (DotDims.plain 2048 64 64) none A2 B2 (constant ⟨2, ![2048, 64]⟩ .f32 0x00000000#32) (ix2 p j) = _
  rw [Cert.Lib.MatProduct.matmul_plain_zero_eq, Cert.Lib.MatProduct.matProd_ix2]

/-- The reciprocal square root of a vector, entry by entry. -/
theorem rsqrt_apply {s : Shape} {φ : FTy} (v : FVec Ideal s φ) (i : s.Idx) : rsqrt v i = Ideal.rsqrt (v i) := rfl

/-- Entry (p, j) of what the body computes from its nine blocks is entry j of the stage applied to row p of the first
    block: the first product and offset, the shift by the mean, the scaling by the reciprocal root of the variance plus
    the small constant, the gain and offset, the clamp at zero, the second product and offset, and the last clamp, each
    read at the entry; a change of number format changes nothing at the extended reals. -/
theorem pay_apply (x0 : Vec Ideal S2048x64 .f32) (x1 : Vec Ideal S64x64 .f32) (x2 x3 x4 x5 x6 : Vec Ideal S64 .f32)
    (x7 : Vec Ideal S64x64 .f32) (x8 : Vec Ideal S64 .f32) (p : Fin 2048) (j : Fin 64) :
    k2_pay1 (F := Ideal) x0 x1 x2 x3 x4 x5 x6 x7 x8 (ix2 p j)
      = Cert.Gin.stageRow (fun i => x0 (ix2 p i)) x1 x2 x3 x4 x5 x6 x7 x8 j := by
  unfold k2_pay1 Cert.Gin.stageRow Cert.Gin.hidden Cert.Gin.eps
  simp only [maximumf_apply, addf_apply, subf_apply, mulf_apply, mm1_apply, mm2_apply, row_apply, broadcast_apply,
    truncf_apply, shapeCast_self, broadcastTo_1b_ab_apply, shapeCast_a_1a_apply, rsqrt_apply, Ideal.ofBits_def,
    Ideal.ofBits_zero_f32]

/-- The zero offsets of a whole-buffer access, in two spellings. -/
theorem hz2 : (![0, 0] : Fin 2 → Nat) = fun _ => 0 := funext fun a => by fin_cases a <;> rfl
theorem hz1 : (![0] : Fin 1 → Nat) = fun _ => 0 := funext fun a => by fin_cases a; rfl

/-- The body loads its nine staging buffers whole and stores its result whole, so what it leaves in the output's buffer
    is the arithmetic above of the buffers' contents. -/
theorem out_apply (x0 : Vec Ideal S2048x64 .f32) (x1 : Vec Ideal S64x64 .f32) (x2 x3 x4 x5 x6 : Vec Ideal S64 .f32)
    (x7 : Vec Ideal S64x64 .f32) (x8 : Vec Ideal S64 .f32) (p : Fin 2048) (j : Fin 64) :
    out2_9 (F := Ideal) x0 x1 x2 x3 x4 x5 x6 x7 x8 (ix2 p j)
      = Cert.Gin.stageRow (fun i => x0 (ix2 p i)) x1 x2 x3 x4 x5 x6 x7 x8 j := by
  unfold out2_9
  rw [View.canon_unit_zero hz2]
  simp only [View.ld_unit_zero (S := S2048x64) hz2, View.ld_unit_zero (S := S64x64) hz2, View.ld_unit_zero (S := S64) hz1]
  exact pay_apply x0 x1 x2 x3 x4 x5 x6 x7 x8 p j

/-! ## The blocks of one grid point -/

/-- The launch's index maps over its 49 points: the input's and the output's block at point t is block t of the rows and
    the only block of the columns; each of the eight small operands has the one block that is the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 1) = 0 ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = t.val ∧ win2_9.index t (1 : Fin 2) = 0 :=
  (by decide +kernel : ∀ t : Fin grid2.N, _)

/-- Row p of the input's block at point t is row 2048 t + p of the input array. -/
theorem blk0_apply (c : Dev nD) (t : Fin cfg2.N) (p : Fin 2048) (i : Fin 64) (r : Fin 100352)
    (hr : r.val = t.val * 2048 + p.val) :
    (iblk2 V c 0 t : Vec Ideal S2048x64 .f32) (ix2 p i) = (V c main_v47 : S100352x64.Idx → EReal) (ix2 r i) := by
  obtain ⟨e00, e01, e10, e11, e2, e3, e4, e5, e6, e70, e71, e8, e90, e91⟩ := idx_facts t
  unfold iblk2
  rw [View.read_apply]
  show V c main_v47 _ = V c main_v47 _
  congr 1
  funext a
  apply Fin.ext
  match a with
  | ⟨0, _⟩ => show win2_0.index t (0 : Fin 2) * 2048 + 1 * p.val = r.val; rw [e00, hr]; omega
  | ⟨1, _⟩ => show win2_0.index t (1 : Fin 2) * 64 + 1 * i.val = i.val; rw [e01]; omega

/-- The first matrix's block at every point is the whole matrix. -/
theorem blk1_eq (c : Dev nD) (t : Fin cfg2.N) :
    (iblk2 V c 1 t : Vec Ideal S64x64 .f32) = (V c main_arg19 : S64x64.Idx → EReal) := by
  obtain ⟨e00, e01, e10, e11, e2, e3, e4, e5, e6, e70, e71, e8, e90, e91⟩ := idx_facts t
  funext y
  unfold iblk2
  rw [View.read_apply]
  show V c main_arg19 _ = V c main_arg19 _
  congr 1
  funext a
  apply Fin.ext
  match a with
  | ⟨0, _⟩ => show win2_1.index t (0 : Fin 2) * 64 + 1 * (y 0).val = (y 0).val; rw [e10]; omega
  | ⟨1, _⟩ => show win2_1.index t (1 : Fin 2) * 64 + 1 * (y 1).val = (y 1).val; rw [e11]; omega

/-- The first offset's block at every point is the whole vector. -/
theorem blk2_eq (c : Dev nD) (t : Fin cfg2.N) :
    (iblk2 V c 2 t : Vec Ideal S64 .f32) = (V c main_arg20 : S64.Idx → EReal) := by
  obtain ⟨e00, e01, e10, e11, e2, e3, e4, e5, e6, e70, e71, e8, e90, e91⟩ := idx_facts t
  funext y
  unfold iblk2
  rw [View.read_apply]
  show V c main_arg20 _ = V c main_arg20 _
  congr 1
  funext a
  apply Fin.ext
  match a with
  | ⟨0, _⟩ => show win2_2.index t (0 : Fin 1) * 64 + 1 * (y 0).val = (y 0).val; rw [e2]; omega

/-- The gain's block at every point is the whole vector. -/
theorem blk3_eq (c : Dev nD) (t : Fin cfg2.N) :
    (iblk2 V c 3 t : Vec Ideal S64 .f32) = (V c main_arg21 : S64.Idx → EReal) := by
  obtain ⟨e00, e01, e10, e11, e2, e3, e4, e5, e6, e70, e71, e8, e90, e91⟩ := idx_facts t
  funext y
  unfold iblk2
  rw [View.read_apply]
  show V c main_arg21 _ = V c main_arg21 _
  congr 1
  funext a
  apply Fin.ext
  match a with
  | ⟨0, _⟩ => show win2_3.index t (0 : Fin 1) * 64 + 1 * (y 0).val = (y 0).val; rw [e3]; omega

/-- The second offset's block at every point is the whole vector. -/
theorem blk4_eq (c : Dev nD) (t : Fin cfg2.N) :
    (iblk2 V c 4 t : Vec Ideal S64 .f32) = (V c main_arg22 : S64.Idx → EReal) := by
  obtain ⟨e00, e01, e10, e11, e2, e3, e4, e5, e6, e70, e71, e8, e90, e91⟩ := idx_facts t
  funext y
  unfold iblk2
  rw [View.read_apply]
  show V c main_arg22 _ = V c main_arg22 _
  congr 1
  funext a
  apply Fin.ext
  match a with
  | ⟨0, _⟩ => show win2_4.index t (0 : Fin 1) * 64 + 1 * (y 0).val = (y 0).val; rw [e4]; omega

/-- The mean's block at every point is the whole vector. -/
theorem blk5_eq (c : Dev nD) (t : Fin cfg2.N) :
    (iblk2 V c 5 t : Vec Ideal S64 .f32) = (V c main_arg23 : S64.Idx → EReal) := by
  obtain ⟨e00, e01, e10, e11, e2, e3, e4, e5, e6, e70, e71, e8, e90, e91⟩ := idx_facts t
  funext y
  unfold iblk2
  rw [View.read_apply]
  show V c main_arg23 _ = V c main_arg23 _
  congr 1
  funext a
  apply Fin.ext
  match a with
  | ⟨0, _⟩ => show win2_5.index t (0 : Fin 1) * 64 + 1 * (y 0).val = (y 0).val; rw [e5]; omega

/-- The variance's block at every point is the whole vector. -/
theorem blk6_eq (c : Dev nD) (t : Fin cfg2.N) :
    (iblk2 V c 6 t : Vec Ideal S64 .f32) = (V c main_arg24 : S64.Idx → EReal) := by
  obtain ⟨e00, e01, e10, e11, e2, e3, e4, e5, e6, e70, e71, e8, e90, e91⟩ := idx_facts t
  funext y
  unfold iblk2
  rw [View.read_apply]
  show V c main_arg24 _ = V c main_arg24 _
  congr 1
  funext a
  apply Fin.ext
  match a with
  | ⟨0, _⟩ => show win2_6.index t (0 : Fin 1) * 64 + 1 * (y 0).val = (y 0).val; rw [e6]; omega

/-- The second matrix's block at every point is the whole matrix. -/
theorem blk7_eq (c : Dev nD) (t : Fin cfg2.N) :
    (iblk2 V c 7 t : Vec Ideal S64x64 .f32) = (V c main_arg25 : S64x64.Idx → EReal) := by
  obtain ⟨e00, e01, e10, e11, e2, e3, e4, e5, e6, e70, e71, e8, e90, e91⟩ := idx_facts t
  funext y
  unfold iblk2
  rw [View.read_apply]
  show V c main_arg25 _ = V c main_arg25 _
  congr 1
  funext a
  apply Fin.ext
  match a with
  | ⟨0, _⟩ => show win2_7.index t (0 : Fin 2) * 64 + 1 * (y 0).val = (y 0).val; rw [e70]; omega
  | ⟨1, _⟩ => show win2_7.index t (1 : Fin 2) * 64 + 1 * (y 1).val = (y 1).val; rw [e71]; omega

/-- The last offset's block at every point is the whole vector. -/
theorem blk8_eq (c : Dev nD) (t : Fin cfg2.N) :
    (iblk2 V c 8 t : Vec Ideal S64 .f32) = (V c main_arg26 : S64.Idx → EReal) := by
  obtain ⟨e00, e01, e10, e11, e2, e3, e4, e5, e6, e70, e71, e8, e90, e91⟩ := idx_facts t
  funext y
  unfold iblk2
  rw [View.read_apply]
  show V c main_arg26 _ = V c main_arg26 _
  congr 1
  funext a
  apply Fin.ext
  match a with
  | ⟨0, _⟩ => show win2_8.index t (0 : Fin 1) * 64 + 1 * (y 0).val = (y 0).val; rw [e8]; omega

/-! ## From the blocks to the array -/

/-- What point t writes back is block t of the stage of the arrays the launch found: entry (p, q) of the body's result
    is the stage of row p of the input's block, which is row 2048 t + p of the input, and that row and column q is where
    entry (p, q) of the output's block lies in the output array. -/
theorem flushed_eq (c : Dev nD) (t : Fin cfg2.N) :
    (dat2 (F := Ideal) V c).flushed 9 t
      = ((cfg2.win 9).blk t).view.read (Elt Ideal) (Cert.Gin.stage (V c main_v47) (V c main_arg19) (V c main_arg20) (V c main_arg21) (V c main_arg22) (V c main_arg23) (V c main_arg24) (V c main_arg25) (V c main_arg26)) := by
  show (cfg2.win 9).cut (grid2.coords t) ((dat2 V c).after 9 t) = _
  rw [after2_9]
  obtain ⟨e00, e01, e10, e11, e2, e3, e4, e5, e6, e70, e71, e8, e90, e91⟩ := idx_facts t
  funext y
  obtain ⟨p, q, rfl⟩ : ∃ (p : Fin 2048) (q : Fin 64), y = ix2 p q := ⟨y 0, y 1, eq_ix2 y⟩
  show out2_9 (iblk2 V c 0 t) (iblk2 V c 1 t) (iblk2 V c 2 t) (iblk2 V c 3 t) (iblk2 V c 4 t) (iblk2 V c 5 t) (iblk2 V c 6 t) (iblk2 V c 7 t) (iblk2 V c 8 t) (ix2 p q)
    = Cert.Gin.stage (V c main_v47) (V c main_arg19) (V c main_arg20) (V c main_arg21) (V c main_arg22) (V c main_arg23) (V c main_arg24) (V c main_arg25) (V c main_arg26) (((cfg2.win 9).blk t).view.emb (ix2 p q))
  have hN : cfg2.N = 49 := N_2
  have hr : t.val * 2048 + p.val < 100352 := by have := t.isLt; omega
  have he : ((cfg2.win 9).blk t).view.emb (ix2 p q) = ix2 (⟨t.val * 2048 + p.val, hr⟩ : Fin 100352) q := by
    funext a
    apply Fin.ext
    match a with
    | ⟨0, _⟩ => show win2_9.index t (0 : Fin 2) * 2048 + 1 * p.val = t.val * 2048 + p.val; rw [e90]; omega
    | ⟨1, _⟩ => show win2_9.index t (1 : Fin 2) * 64 + 1 * q.val = q.val; rw [e91]; omega
  rw [he, Cert.Gin.stage_ix2]
  refine (out_apply (iblk2 V c 0 t) (iblk2 V c 1 t) (iblk2 V c 2 t) (iblk2 V c 3 t) (iblk2 V c 4 t) (iblk2 V c 5 t) (iblk2 V c 6 t) (iblk2 V c 7 t) (iblk2 V c 8 t) p q).trans ?_
  rw [blk1_eq V c t, blk2_eq V c t, blk3_eq V c t, blk4_eq V c t, blk5_eq V c t, blk6_eq V c t, blk7_eq V c t, blk8_eq V c t]
  exact congrArg (fun a => Cert.Gin.stageRow a (V c main_arg19) (V c main_arg20) (V c main_arg21) (V c main_arg22) (V c main_arg23) (V c main_arg24) (V c main_arg25) (V c main_arg26) q)
    (funext fun i => blk0_apply V c t p i ⟨t.val * 2048 + p.val, hr⟩ rfl)

/-- An index of the output array lies in point t's block when its row is among rows 2048 t to 2048 t + 2047. -/
theorem mem_blk (t : Fin cfg2.N) (i : S100352x64.Idx) :
    i ∈ ((cfg2.win 9).blk t).view.set ↔ ∀ a : Fin 2, win2_9.index t a * S2048x64.size a ≤ (i a).val ∧ (i a).val < win2_9.index t a * S2048x64.size a + S2048x64.size a := by
  show i ∈ ((View.whole main_v48).slice (win2_9.rect t)).set ↔ _
  rw [View.set_slice_whole, Rect.mem_set_unit]
  exact Iff.rfl

/-- Every index of the output array is written back by some point: row r by point r / 2048. -/
theorem cover (i : S100352x64.Idx) :
    ∃ t : Fin cfg2.N, (cfg2.win 9).flush t = true ∧ i ∈ ((cfg2.win 9).blk t).view.set := by
  have hi0 : (i 0).val < 100352 := (i 0).isLt
  have hi1 : (i 1).val < 64 := (i 1).isLt
  have hN : cfg2.N = 49 := N_2
  obtain ⟨t, ht⟩ : ∃ t : Fin cfg2.N, t.val = (i 0).val / 2048 := ⟨⟨(i 0).val / 2048, by rw [hN]; omega⟩, rfl⟩
  obtain ⟨e00, e01, e10, e11, e2, e3, e4, e5, e6, e70, e71, e8, e90, e91⟩ := idx_facts t
  refine ⟨t, flush2_9 t, ?_⟩
  rw [mem_blk]
  intro a
  match a with
  | ⟨0, _⟩ => show win2_9.index t (0 : Fin 2) * 2048 ≤ (i 0).val ∧ (i 0).val < win2_9.index t (0 : Fin 2) * 2048 + 2048; rw [e90, ht]; omega
  | ⟨1, _⟩ => show win2_9.index t (1 : Fin 2) * 64 ≤ (i 1).val ∧ (i 1).val < win2_9.index t (1 : Fin 2) * 64 + 64; rw [e91]; omega

/-- The array the stage's launch leaves: every row of the result is the stage of the same row of the input. -/
theorem final (c : Dev nD) :
    (dat2 (F := Ideal) V c).arrAt 9 cfg2.N
      = Cert.Gin.stage (V c main_v47) (V c main_arg19) (V c main_arg20) (V c main_arg21) (V c main_arg22) (V c main_arg23) (V c main_arg24) (V c main_arg25) (V c main_arg26) :=
  (dat2 V c).arrAt_eq_of_cover 9 _ (fun t _ => flushed_eq V c t) cover

end Cert.KernelIdeal.Stage2

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.KPoolPay.lean ====
import proofs.«404020_j57260503991115_3_alg».proof.Proof.Gen.KernelIdeal.Skeleton
import proofs.«404020_j57260503991115_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PoolPay

open Cert.KernelIdeal Cert.KernelIdeal.Gen Idealize.ShloMosaic Idealize.ShloMosaic.ValueIdx

/-- The value the pooling body stores at the first grid point before anything else: all zeros. -/
theorem pay1_eq : k3_pay1 (F := Ideal) = fun _ => (0 : EReal) := by
  funext i
  show Ideal.ofBits .f32 0x00000000#32 = 0
  exact Ideal.ofBits_zero_f32

/-! ## The graph numbers as a column, and the lane numbers -/

/-- A vector of 1024 words laid out as a column and repeated along 1000 lanes reads, at node n and lane g, its entry n. -/
theorem column_apply (w : IVec S1024 32) (n : Fin 1024) (g : Fin 1000) :
    broadcastTo S1024x1000 (shapeCast S1024x1 w shapeCasts_S1024_S1024x1) broadcasts_S1024x1_S1024x1000 (ix2 n g)
      = w (ix1 n) := by
  refine (broadcastTo_apply _ broadcasts_S1024x1_S1024x1000 (ix2 n g) (ix2 n (0 : Fin 1)) fun a => ?_).trans ?_
  · match a with
    | ⟨0, _⟩ =>
      show n.val = if (1024 : Nat) = 1 then 0 else n.val
      rw [if_neg (by decide)]
    | ⟨1, _⟩ =>
      show 0 = if (1 : Nat) = 1 then 0 else g.val
      rw [if_pos rfl]
  · exact shapeCast_apply w shapeCasts_S1024_S1024x1 (ix2 n (0 : Fin 1)) (ix1 n) (by
      rw [Shape.rowMajor_val_one, Shape.rowMajor_val_two]
      show n.val = n.val * 1 + 0
      omega)

/-- The lane-number array reads, at node n and lane g, the 32-bit word of g. -/
theorem lane_apply (n : Fin 1024) (g : Fin 1000) :
    iota .tc S1024x1000 32 [1] iota_S1024x1000_d1_w32 (ix2 n g) = BitVec.ofNat 32 g.val :=
  iota_single_apply .tc S1024x1000 32 1 iota_S1024x1000_d1_w32 (ix2 n g)

/-! ## Words -/

/-- A 32-bit word is the word of a number g below 1000 exactly when, read as a signed integer, it is g: the word of such a g
    is non-negative, and a word is determined by its signed reading. -/
theorem eq_ofNat_iff_toInt (w : BitVec 32) (g : Fin 1000) : w = BitVec.ofNat 32 g.val ↔ w.toInt = (g.val : ℤ) := by
  have hg : (BitVec.ofNat 32 g.val).toInt = (g.val : ℤ) := by
    have := g.isLt
    rw [BitVec.toInt_eq_toNat_cond, BitVec.toNat_ofNat]
    split <;> omega
  constructor
  · rintro rfl; exact hg
  · intro h; exact BitVec.eq_of_toInt_eq (h.trans hg.symm)

/-- The equality test of two words is the bit 1 exactly when the words are equal. -/
theorem cmp_eq_one_iff (a b : BitVec 32) : IntOp.cmpi .eq a b = 1#1 ↔ a = b := by
  show BitVec.ofBool (a == b) = 1#1 ↔ a = b
  rw [← beq_iff_eq (a := a) (b := b)]
  generalize (a == b) = c
  cases c <;> decide

/-- A one-bit word widened to 32 bits and converted to a number is 1 for the bit 1 and 0 for the bit 0. -/
theorem bit_to_number (b : BitVec 1) :
    (FloatOps.sitofp (F := Ideal) .f32 (b.setWidth 32) : EReal) = if b = 1#1 then 1 else 0 := by
  rcases BitVec.eq_zero_or_eq_one b with rfl | rfl
  · rw [if_neg (by decide)]
    show (((((0#1 : BitVec 1).setWidth 32).toInt : ℤ) : ℝ) : EReal) = 0
    have e : ((0#1 : BitVec 1).setWidth 32).toInt = 0 := by decide
    rw [e]; simp
  · rw [if_pos rfl]
    show (((((1#1 : BitVec 1).setWidth 32).toInt : ℤ) : ℝ) : EReal) = 1
    have e : ((1#1 : BitVec 1).setWidth 32).toInt = 1 := by decide
    rw [e]; simp

/-! ## The one-hot matrix -/

/-- The matrix the pooling body multiplies by: entry (n, g) compares node n's graph number with lane g. -/
def onehot (w : IVec S1024 32) : FVec Ideal S1024x1000 .bf16 :=
  truncf .bf16 (sitofp .f32 (extui 32 (cmpi .eq
    (broadcastTo S1024x1000 (shapeCast S1024x1 w shapeCasts_S1024_S1024x1) broadcasts_S1024x1_S1024x1000)
    (iota .tc S1024x1000 32 [1] iota_S1024x1000_d1_w32)) natLt_1_32)) bitsLt_bf16_f32

/-- Entry (n, g) of the one-hot matrix is 1 when node n's graph number, read as a signed integer, is g, and 0 otherwise. -/
theorem onehot_apply (w : IVec S1024 32) (n : Fin 1024) (g : Fin 1000) :
    onehot w (ix2 n g) = if (w (ix1 n)).toInt = (g.val : ℤ) then 1 else 0 := by
  show (FloatOps.sitofp (F := Ideal) .f32 ((IntOp.cmpi .eq
    (broadcastTo S1024x1000 (shapeCast S1024x1 w shapeCasts_S1024_S1024x1) broadcasts_S1024x1_S1024x1000 (ix2 n g))
    (iota .tc S1024x1000 32 [1] iota_S1024x1000_d1_w32 (ix2 n g))).setWidth 32) : EReal) = _
  rw [bit_to_number, column_apply, lane_apply]
  by_cases h : (w (ix1 n)).toInt = (g.val : ℤ)
  · rw [if_pos h, if_pos ((cmp_eq_one_iff _ _).mpr ((eq_ofNat_iff_toInt _ g).mpr h))]
  · rw [if_neg h, if_neg (fun hc => h ((eq_ofNat_iff_toInt _ g).mp ((cmp_eq_one_iff _ _).mp hc)))]

/-! ## The product, contracted over the node axis of both factors -/

/-- On the node axis the left factor's index is the contraction position. -/
theorem lhs_axis0 (i : S1000x64.Idx) (q : dot_S1024x1000_S1024x64_S1000x64_0_0_1_1_n_n.contr.Idx) :
    (dot_S1024x1000_S1024x64_S1000x64_0_0_1_1_n_n.lhsIdx i q 0).val = (q ⟨0, by decide⟩).val :=
  dot_S1024x1000_S1024x64_S1000x64_0_0_1_1_n_n.lhsIdx_val_of_single rfl i q
/-- On the lane axis the left factor's index is the result's row. -/
theorem lhs_axis1 (i : S1000x64.Idx) (q : dot_S1024x1000_S1024x64_S1000x64_0_0_1_1_n_n.contr.Idx) :
    (dot_S1024x1000_S1024x64_S1000x64_0_0_1_1_n_n.lhsIdx i q 1).val = (i 0).val := by
  unfold DotDims.lhsIdx
  rw [dif_neg (show ¬(1 : Fin S1024x1000.rank) ∈ dot_S1024x1000_S1024x64_S1000x64_0_0_1_1_n_n.lhsBatch by decide),
    dif_pos (show (1 : Fin S1024x1000.rank) ∈ dot_S1024x1000_S1024x64_S1000x64_0_0_1_1_n_n.lhsNonContracting by decide)]
  rfl
/-- On the node axis the right factor's index is the contraction position. -/
theorem rhs_axis0 (i : S1000x64.Idx) (q : dot_S1024x1000_S1024x64_S1000x64_0_0_1_1_n_n.contr.Idx) :
    (dot_S1024x1000_S1024x64_S1000x64_0_0_1_1_n_n.rhsIdx i q 0).val = (q ⟨0, by decide⟩).val :=
  dot_S1024x1000_S1024x64_S1000x64_0_0_1_1_n_n.rhsIdx_val_of_single rfl i q
/-- On the feature axis the right factor's index is the result's column. -/
theorem rhs_axis1 (i : S1000x64.Idx) (q : dot_S1024x1000_S1024x64_S1000x64_0_0_1_1_n_n.contr.Idx) :
    (dot_S1024x1000_S1024x64_S1000x64_0_0_1_1_n_n.rhsIdx i q 1).val = (i 1).val := by
  unfold DotDims.rhsIdx
  rw [dif_neg (show ¬(1 : Fin S1024x64.rank) ∈ dot_S1024x1000_S1024x64_S1000x64_0_0_1_1_n_n.rhsBatch by decide),
    dif_pos (show (1 : Fin S1024x64.rank) ∈ dot_S1024x1000_S1024x64_S1000x64_0_0_1_1_n_n.rhsNonContracting by decide)]
  rfl

/-- The product into a zero accumulator, at row g and column q: the sum over the 1024 nodes of the left factor's
    entry (n, g) times the right factor's entry (n, q). -/
theorem product_apply (A : FVec Ideal S1024x1000 .bf16) (B : FVec Ideal S1024x64 .bf16) (g : Fin 1000) (q : Fin 64) :
    FloatOps.matmul dot_S1024x1000_S1024x64_S1000x64_0_0_1_1_n_n none A B (constant S1000x64 .f32 0x00000000#32) (ix2 g q)
      = ∑ n : Fin 1024, A (ix2 n g) * B (ix2 n q) := by
  rw [Ideal.matmul_constant_zero_apply,
    ← Equiv.sum_comp (contrEquiv1 dot_S1024x1000_S1024x64_S1000x64_0_0_1_1_n_n 1024 rfl rfl).symm]
  refine Finset.sum_congr rfl fun k _ => ?_
  have hk := contrEquiv1_symm_val dot_S1024x1000_S1024x64_S1000x64_0_0_1_1_n_n 1024 rfl rfl k
  have el : dot_S1024x1000_S1024x64_S1000x64_0_0_1_1_n_n.lhsIdx (ix2 g q)
      ((contrEquiv1 dot_S1024x1000_S1024x64_S1000x64_0_0_1_1_n_n 1024 rfl rfl).symm k) = ix2 k g :=
    funext fun a => Fin.ext (by
      match a with
      | ⟨0, _⟩ => exact (lhs_axis0 _ _).trans hk
      | ⟨1, _⟩ => exact lhs_axis1 _ _)
  have er : dot_S1024x1000_S1024x64_S1000x64_0_0_1_1_n_n.rhsIdx (ix2 g q)
      ((contrEquiv1 dot_S1024x1000_S1024x64_S1000x64_0_0_1_1_n_n 1024 rfl rfl).symm k) = ix2 k q :=
    funext fun a => Fin.ext (by
      match a with
      | ⟨0, _⟩ => exact (rhs_axis0 _ _).trans hk
      | ⟨1, _⟩ => exact rhs_axis1 _ _)
  rw [el, er]

/-- The value the pooling body stores at a grid point: what the output block held, plus the pooled sums of the point's
    1024 node rows (the product of the transposed one-hot matrix of their graph numbers with their rows). -/
theorem pay2_eq (v3 : Vec Ideal S1024x64 .f32) (v6 : Vec Ideal S1024 .i32) (v16 : Vec Ideal S1000x64 .f32) :
    k3_pay2 (F := Ideal) v3 v6 v16 = fun y => v16 y + Cert.Gin.pooled (N := 1024) (G := 1000) v3 v6 y := by
  funext y
  obtain ⟨g, q, rfl⟩ : ∃ (g : Fin 1000) (q : Fin 64), y = ix2 g q := ⟨y 0, y 1, eq_ix2 y⟩
  have e : k3_pay2 (F := Ideal) v3 v6 v16
      = addf v16 (FloatOps.matmul dot_S1024x1000_S1024x64_S1000x64_0_0_1_1_n_n none (onehot v6)
          (truncf .bf16 v3 bitsLt_bf16_f32) (constant S1000x64 .f32 0x00000000#32)) := by
    unfold k3_pay2 onehot
    rw [shapeCast_self, shapeCast_self, shapeCast_self]
  rw [e, addf_apply, product_apply, Cert.Gin.pooled_ix2]
  refine congrArg (v16 (ix2 g q) + ·) (Finset.sum_congr rfl fun n _ => ?_)
  rw [onehot_apply]
  show (if (v6 (ix1 n)).toInt = (g.val : ℤ) then (1 : EReal) else 0) * v3 (ix2 n q) = _
  by_cases h : (v6 (ix1 n)).toInt = (g.val : ℤ)
  · rw [if_pos h, if_pos h, one_mul]
  · rw [if_neg h, if_neg h, zero_mul]

end Cert.KernelIdeal.PoolPay

end
-- ==== Proof.KPool.lean ====
import proofs.«404020_j57260503991115_3_alg».proof.Proof.Gen.KernelIdeal.Frame
import proofs.«404020_j57260503991115_3_alg».proof.Proof.Spec
import proofs.«404020_j57260503991115_3_alg».proof.Proof.LibTileSum
import proofs.«404020_j57260503991115_3_alg».proof.Proof.KPoolPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-
  The pooling launch read as one whole-array function. The launch visits 98 grid points; point t sees rows
  1024 t … 1024 t + 1023 of the padded node array and the same stretch of the padded graph numbers, and one output block
  of 1000 x 64 that stays in place from point to point. The first point sets the block to zero and then adds to it,
  every later point only adds; what is added at point t is the pooled sum of that point's 1024 rows. So after point n
  the block holds the sum over t ≤ n of the tiles' pooled sums (induction on n), after the last point it holds the sum
  over all 98 tiles, that block is written back once and is the whole output array, and a sum over 98 tiles of 1024 rows
  is the sum over the 98 * 1024 = 100352 padded rows.
-/

namespace Cert.KernelIdeal.Pool

open Cert.KernelIdeal Cert.KernelIdeal.Gen Idealize.ShloMosaic Idealize.ShloMosaic.ValueIdx Idealize.ShloMosaic.TcCoe Idealize.SL.Sem
open Idealize.ShloMosaic.Pipeline (Dat)

/-! ## What one grid point leaves in the output block -/

section Pieces
variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a; rfl

/-- A point other than the first: the block that held xo ends holding the body's sum term of the two input blocks and
    xo. Its one store covers the whole block, and each of its three loads reads a whole buffer. -/
theorem out_B (c : Dev nD) (i : grid3.Coords) (a1 : Memref sig .tc .vmem S1024x64 .f32) (h1 : a1.IsWhole)
    (a2 : Memref sig .tc .vmem S1024 .i32) (h2 : a2.IsWhole) (a3 : Memref sig .tc .vmem S1000x64 .f32) (h3 : a3.IsWhole)
    (hc : ¬cond3_0 i) (x0 : Vec F S1024x64 .f32) (x1 : Vec F S1024 .i32) (xo : Vec F S1000x64 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero (S := S1000x64) zeros2]
  simp only [View.readAt_eq_ld, h1.read_unread, h2.read_unread, h3.read_unread,
    View.ld_unit_zero (S := S1024x64) zeros2, View.ld_unit_zero (S := S1024) zeros1, View.ld_unit_zero (S := S1000x64) zeros2]

/-- The first point: the block is first overwritten with the reset value, then read back and overwritten with the sum
    term over that reset value. The second store covers the first, and the read-back sees exactly the first store. -/
theorem out_A (c : Dev nD) (i : grid3.Coords) (a1 : Memref sig .tc .vmem S1024x64 .f32) (h1 : a1.IsWhole)
    (a2 : Memref sig .tc .vmem S1024 .i32) (h2 : a2.IsWhole) (a3 : Memref sig .tc .vmem S1000x64 .f32) (h3 : a3.IsWhole)
    (hc : cond3_0 i) (x0 : Vec F S1024x64 .f32) (x1 : Vec F S1024 .i32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S1000x64) zeros2, View.readCov_unit_zero (S := S1000x64) _ zeros2]
  simp only [View.readAt_eq_ld, h1.read_unread, h2.read_unread,
    View.ld_unit_zero (S := S1024x64) zeros2, View.ld_unit_zero (S := S1024) zeros1]

end Pieces

/-! ## The running sum over the grid points -/

variable (V : (c : Dev nD) → (b : Ref sig .tc) → Buf (Elt Ideal) ((c : Thread nD τ).loc b))

/-- The 1024 node rows point t sees. -/
abbrev hblk (c : Dev nD) (t : Fin cfg3.N) : Vec Ideal S1024x64 .f32 := iblk3 V c 0 t
/-- The 1024 graph numbers point t sees. -/
abbrev bblk (c : Dev nD) (t : Fin cfg3.N) : Vec Ideal S1024 .i32 := iblk3 V c 1 t

/-- The pooled sums of the rows of grid point t; zero for a number t past the grid. -/
def tileSum (c : Dev nD) (t : ℕ) (y : S1000x64.Idx) : EReal :=
  if h : t < cfg3.N then Cert.Gin.pooled (N := 1024) (G := 1000) (hblk V c ⟨t, h⟩) (bblk V c ⟨t, h⟩) y else 0

theorem tileSum_of_lt (c : Dev nD) (t : ℕ) (h : t < cfg3.N) (y : S1000x64.Idx) :
    tileSum V c t y = Cert.Gin.pooled (N := 1024) (G := 1000) (hblk V c ⟨t, h⟩) (bblk V c ⟨t, h⟩) y := dif_pos h

/-- After point n the output block holds the sum of the tiles' pooled sums over the points 0, …, n. At point 0 the block
    is 0 + the first tile's sums; at point n + 1 (never a multiple of 98 inside the grid) it is what point n left plus
    the tile's sums. -/
theorem outsAt_eq (c : Dev nD) : ∀ (n : ℕ) (h : n < cfg3.N),
    outsAt3 V c n h = fun y => ∑ t ∈ Finset.range (n + 1), tileSum V c t y
  | 0, h => by
    rw [outsAt3_A V c ⟨0, h⟩ rfl, out_A c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) ((hcond3_0 ⟨0, h⟩).mpr rfl) (hblk V c ⟨0, h⟩) (bblk V c ⟨0, h⟩),
      PoolPay.pay2_eq (hblk V c ⟨0, h⟩) (bblk V c ⟨0, h⟩) (k3_pay1 (F := Ideal)), PoolPay.pay1_eq]
    funext y
    rw [Finset.sum_range_one, tileSum_of_lt V c 0 h y, zero_add]
  | n + 1, h => by
    have hN : cfg3.N = 98 := N_3
    have hB : ¬(⟨n + 1, h⟩ : Fin cfg3.N).val % 98 = 0 := by dsimp only; omega
    rw [outsAt3_B V c ⟨n + 1, h⟩ hB]
    dsimp only
    refine (out_B c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (fun hh => hB ((hcond3_0 ⟨n + 1, h⟩).mp hh)) (hblk V c ⟨n + 1, h⟩) (bblk V c ⟨n + 1, h⟩) (outsAt3 V c n (Nat.lt_of_succ_lt h))).trans ?_
    rw [PoolPay.pay2_eq (hblk V c ⟨n + 1, h⟩) (bblk V c ⟨n + 1, h⟩) (outsAt3 V c n (Nat.lt_of_succ_lt h)), outsAt_eq c n (Nat.lt_of_succ_lt h)]
    funext y
    rw [Finset.sum_range_succ _ (n + 1), tileSum_of_lt V c (n + 1) h y]

/-! ## The one write-back -/

/-- The last grid point. -/
abbrev tlast : Fin cfg3.N := ⟨97, by rw [show cfg3.N = 98 from N_3]; decide⟩

/-- The sum of all 98 tiles' pooled sums. -/
def total (c : Dev nD) : S1000x64.Idx → EReal :=
  fun y => ∑ t ∈ Finset.range 98, tileSum V c t y

/-- Only the last point writes the block back, and it writes the sum of all tiles: the output's one block, at block index
    zero on both axes, is the whole 1000 x 64 array. -/
theorem flushed_eq (c : Dev nD) (t : Fin cfg3.N) (hf : (cfg3.win 2).flush t = true) :
    (dat3 (F := Ideal) V c).flushed 2 t = ((cfg3.win 2).blk t).view.read (Elt Ideal) (total V c) := by
  have hN : cfg3.N = 98 := N_3
  have h97 : t.val = 97 := by have := (flush3_2 t).mp hf; have := t.isLt; omega
  obtain rfl : t = tlast := Fin.ext h97
  show (cfg3.win 2).cut (grid3.coords tlast) ((dat3 (F := Ideal) V c).after 2 tlast) = _
  rw [after3_2, outsAt_eq]
  have hz' : (fun a => win3_2.index tlast a * main_v52.ty.shape.size a) = fun _ => 0 := funext fun a => by fin_cases a <;> decide +kernel
  exact (Memref.read_access_unit_zero (Elt Ideal) main_v52 hz' (fun a => by rw [congrFun hz' a]; simp) (total V c)).symm

/-! ## The tiles are the stretches of the padded arrays -/

/-- Point t's block of the node array starts at row t (in blocks of 1024) and column 0; its block of the graph numbers
    starts at place t (in blocks of 1024). -/
theorem idx_facts0 : ∀ t : Fin cfg3.N, win3_0.index t 0 = t.val ∧ win3_0.index t 1 = 0 :=
  (by decide +kernel : ∀ t : Fin grid3.N, win3_0.index t 0 = t.val ∧ win3_0.index t 1 = 0)
theorem idx_facts1 : ∀ t : Fin cfg3.N, win3_1.index t 0 = t.val :=
  (by decide +kernel : ∀ t : Fin grid3.N, win3_1.index t 0 = t.val)

theorem row_lt (t : Fin cfg3.N) (e : Fin 1024) : t.val * 1024 + e.val < 100352 := by
  have hN : cfg3.N = 98 := N_3
  have := t.isLt; have := e.isLt; omega

/-- Row e of point t's node block is row 1024 t + e of the padded node array. -/
theorem hblk_apply (c : Dev nD) (t : Fin cfg3.N) (e : Fin 1024) (q : Fin 64) :
    hblk V c t (ix2 e q) = (V c main_v50 : Cert.Gin.Mat 100352 64) (ix2 ⟨t.val * 1024 + e.val, row_lt t e⟩ q) := by
  unfold hblk iblk3
  rw [View.read_apply]
  show V c main_v50 _ = V c main_v50 _
  congr 1
  funext a
  apply Fin.ext
  match a with
  | ⟨0, _⟩ => show win3_0.index t 0 * 1024 + 1 * e.val = t.val * 1024 + e.val; rw [(idx_facts0 t).1]; omega
  | ⟨1, _⟩ => show win3_0.index t 1 * 64 + 1 * q.val = q.val; rw [(idx_facts0 t).2]; omega

/-- Place e of point t's block of graph numbers is place 1024 t + e of the padded graph numbers. -/
theorem bblk_apply (c : Dev nD) (t : Fin cfg3.N) (e : Fin 1024) :
    bblk V c t (ix1 e) = (V c main_v51 : Cert.Gin.Wrd 100352) (ix1 ⟨t.val * 1024 + e.val, row_lt t e⟩) := by
  unfold bblk iblk3
  rw [View.read_apply]
  show V c main_v51 _ = V c main_v51 _
  congr 1
  funext a
  apply Fin.ext
  match a with
  | ⟨0, _⟩ => show win3_1.index t 0 * 1024 + 1 * e.val = t.val * 1024 + e.val; rw [idx_facts1 t]; omega

/-- The sum over the 98 tiles of the sums over their 1024 rows is the sum over the 100352 = 98 * 1024 padded rows. -/
theorem total_eq (c : Dev nD) :
    total V c = Cert.Gin.pooled (N := 100352) (G := 1000) (V c main_v50) (V c main_v51) := by
  have hN : cfg3.N = 98 := N_3
  funext y
  obtain ⟨p, q, rfl⟩ : ∃ (p : Fin 1000) (q : Fin 64), y = ix2 p q := ⟨y 0, y 1, eq_ix2 y⟩
  rw [Cert.Gin.pooled_ix2]
  unfold total
  rw [Finset.sum_range, ← (finCongr (show 98 * 1024 = 100352 by norm_num)).sum_comp, Cert.Lib.TileSum.sum_tiles 98 1024]
  refine Finset.sum_congr rfl fun t _ => ?_
  rw [tileSum_of_lt V c t.val (by omega), Cert.Gin.pooled_ix2]
  refine Finset.sum_congr rfl fun e _ => ?_
  rw [hblk_apply, bblk_apply]
  rfl

/-! ## The result -/

/-- The array the pooling launch leaves: entry (p, q) adds up column q of the padded node array over the padded nodes
    whose graph number is p. -/
theorem final (c : Dev nD) :
    (dat3 (F := Ideal) V c).arrAt 2 cfg3.N = Cert.Gin.pooled (N := 100352) (G := 1000) (V c main_v50) (V c main_v51) := by
  rw [← total_eq V c]
  exact (dat3 (F := Ideal) V c).arrAt_eq_of_cover 2 (total V c) (flushed_eq V c) fun i => ⟨tlast, (flush3_2 tlast).mpr rfl, by
    show i ∈ ((View.whole main_v52).slice (win3_2.rect tlast)).set
    rw [View.set_slice_whole, Rect.mem_set_unit]
    intro a
    have h0 : (i 0 : Nat) < 1000 := (i 0).isLt
    have h1 : (i 1 : Nat) < 64 := (i 1).isLt
    match a with
    | ⟨0, _⟩ =>
      show win3_2.index tlast 0 * win3_2.size 0 ≤ (i 0 : Nat) ∧ (i 0 : Nat) < win3_2.index tlast 0 * win3_2.size 0 + win3_2.xsize (grid3.coords tlast) 0
      rw [show win3_2.index tlast 0 * win3_2.size 0 = 0 from by decide +kernel, show win3_2.xsize (grid3.coords tlast) 0 = 1000 from by decide +kernel]; omega
    | ⟨1, _⟩ =>
      show win3_2.index tlast 1 * win3_2.size 1 ≤ (i 1 : Nat) ∧ (i 1 : Nat) < win3_2.index tlast 1 * win3_2.size 1 + win3_2.xsize (grid3.coords tlast) 1
      rw [show win3_2.index tlast 1 * win3_2.size 1 = 0 from by decide +kernel, show win3_2.xsize (grid3.coords tlast) 1 = 64 from by decide +kernel]; omega⟩

end Cert.KernelIdeal.Pool

end
-- ==== Proof.KHead.lean ====
import proofs.«404020_j57260503991115_3_alg».proof.Proof.Gen.KernelIdeal.Frame
import proofs.«404020_j57260503991115_3_alg».proof.Proof.Spec
import proofs.«404020_j57260503991115_3_alg».proof.Proof.LibMatProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! # The read-out launch

The launch runs at one point, and each of its six windows is a whole array: the pooled rows (1000 by 64), the first
weight matrix (64 by 64) and offset (64), the second weight matrix (64 by 1) and offset (one entry), and the result
(1000 by 1). The body stores one value: the pooled rows times the first weight matrix, plus the first offset on every
row, clamped below at zero, times the second weight matrix, plus the second offset on every row. Over the extended
reals a change of float format is the identity and a product accumulated into zeros is the plain row-by-column
product, so row p of the stored value is the read-out of pooled row p. Since the one block of the result window is the
whole result array, that is what the array holds after the launch. -/

open Cert.Lib.MatProduct Cert.Gin

/-- The first matrix unit product, rows by 64 against 64 by 64 into a zero splat, is the row-by-column product. -/
theorem first_product (A : FVec Ideal S1000x64 .bf16) (B : FVec Ideal S64x64 .bf16) :
    matmul dot_S1000x64_S64x64_S1000x64_1_0_0_1_n_n none A B (constant S1000x64 .f32 0x00000000#32) = matProd A B :=
  matmul_plain_zero_eq (M := 1000) (K := 64) (N := 64) none A B

/-- The second one, rows by 64 against 64 by 1, likewise. -/
theorem second_product (A : FVec Ideal S1000x64 .bf16) (B : FVec Ideal S64x1 .bf16) :
    matmul dot_S1000x64_S64x1_S1000x1_1_0_0_1_n_n none A B (constant S1000x1 .f32 0x00000000#32) = matProd A B :=
  matmul_plain_zero_eq (M := 1000) (K := 64) (N := 1) none A B

/-- The body's one stored value at row p: the read-out of row p of the first block with the other four blocks as the
    two weight matrices and the two offsets. A change of float format is the identity, the products into zero splats are
    plain products, and an offset cast to one row and spread over the rows is read at its column. -/
theorem payload_at (x0 : Vec Ideal S1000x64 .f32) (x1 : Vec Ideal S64x64 .f32) (x2 : Vec Ideal S64 .f32)
    (x3 : Vec Ideal S64x1 .f32) (x4 : Vec Ideal S1 .f32) (p : Fin 1000) :
    k4_pay1 x0 x1 x2 x3 x4 (ix2 p (0 : Fin 1)) = readRow (fun i => x0 (ix2 p i)) x1 x2 x3 x4 := by
  unfold k4_pay1 readRow
  rw [addf_apply]
  simp only [second_product, first_product, matProd_ix2, truncf_apply, maximumf_apply, addf_apply, broadcast_apply,
    shapeCast_self, broadcastTo_1b_ab_apply, shapeCast_a_1a_apply, Ideal.ofBits_def, Ideal.ofBits_zero_f32]

/-- The zero offsets of a rank-two access, as a constant function. -/
theorem hz2 : (![0, 0] : Fin 2 → Nat) = fun _ => 0 := funext fun a => by fin_cases a <;> rfl
/-- The zero offset of a rank-one access, as a constant function. -/
theorem hz1 : (![0] : Fin 1 → Nat) = fun _ => 0 := funext fun a => by fin_cases a; rfl

/-- At the launch's one point every window's block index is zero on every axis. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

/-- The pooled rows' window is whole: its block is the array. -/
theorem block_pooled (c : Dev nD) (t : Fin cfg4.N) : (iblk4 V c 0 t : Vec Ideal S1000x64 .f32) = V c main_v52 := by
  funext y
  unfold iblk4
  rw [View.read_apply]
  show V c main_v52 (((cfg4.win 0).blk t).view.emb y) = V c main_v52 y
  obtain ⟨e0, e1, -⟩ := idx_facts t
  refine congrArg _ (funext fun a => Fin.ext ?_)
  match a with
  | ⟨0, _⟩ => show win4_0.index t (0 : Fin 2) * 1000 + 1 * (y 0).val = (y 0).val; rw [e0]; omega
  | ⟨1, _⟩ => show win4_0.index t (1 : Fin 2) * 64 + 1 * (y 1).val = (y 1).val; rw [e1]; omega

/-- The first weight matrix's block is the array. -/
theorem block_weight1 (c : Dev nD) (t : Fin cfg4.N) : (iblk4 V c 1 t : Vec Ideal S64x64 .f32) = V c main_arg27 := by
  funext y
  unfold iblk4
  rw [View.read_apply]
  show V c main_arg27 (((cfg4.win 1).blk t).view.emb y) = V c main_arg27 y
  obtain ⟨-, -, e0, e1, -⟩ := idx_facts t
  refine congrArg _ (funext fun a => Fin.ext ?_)
  match a with
  | ⟨0, _⟩ => show win4_1.index t (0 : Fin 2) * 64 + 1 * (y 0).val = (y 0).val; rw [e0]; omega
  | ⟨1, _⟩ => show win4_1.index t (1 : Fin 2) * 64 + 1 * (y 1).val = (y 1).val; rw [e1]; omega

/-- The first offset's block is the vector. -/
theorem block_offset1 (c : Dev nD) (t : Fin cfg4.N) : (iblk4 V c 2 t : Vec Ideal S64 .f32) = V c main_arg28 := by
  funext y
  unfold iblk4
  rw [View.read_apply]
  show V c main_arg28 (((cfg4.win 2).blk t).view.emb y) = V c main_arg28 y
  obtain ⟨-, -, -, -, e0, -⟩ := idx_facts t
  refine congrArg _ (funext fun a => Fin.ext ?_)
  match a with
  | ⟨0, _⟩ => show win4_2.index t (0 : Fin 1) * 64 + 1 * (y 0).val = (y 0).val; rw [e0]; omega

/-- The second weight matrix's block is the array. -/
theorem block_weight2 (c : Dev nD) (t : Fin cfg4.N) : (iblk4 V c 3 t : Vec Ideal S64x1 .f32) = V c main_arg29 := by
  funext y
  unfold iblk4
  rw [View.read_apply]
  show V c main_arg29 (((cfg4.win 3).blk t).view.emb y) = V c main_arg29 y
  obtain ⟨-, -, -, -, -, e0, e1, -⟩ := idx_facts t
  refine congrArg _ (funext fun a => Fin.ext ?_)
  match a with
  | ⟨0, _⟩ => show win4_3.index t (0 : Fin 2) * 64 + 1 * (y 0).val = (y 0).val; rw [e0]; omega
  | ⟨1, _⟩ => show win4_3.index t (1 : Fin 2) * 1 + 1 * (y 1).val = (y 1).val; rw [e1]; omega

/-- The second offset's block is the one-entry vector. -/
theorem block_offset2 (c : Dev nD) (t : Fin cfg4.N) : (iblk4 V c 4 t : Vec Ideal S1 .f32) = V c main_arg30 := by
  funext y
  unfold iblk4
  rw [View.read_apply]
  show V c main_arg30 (((cfg4.win 4).blk t).view.emb y) = V c main_arg30 y
  obtain ⟨-, -, -, -, -, -, -, e0, -⟩ := idx_facts t
  refine congrArg _ (funext fun a => Fin.ext ?_)
  match a with
  | ⟨0, _⟩ => show win4_4.index t (0 : Fin 1) * 1 + 1 * (y 0).val = (y 0).val; rw [e0]; omega

/-- What the one point writes back is the read-out of the pooled rows, read through the output window's block: the
    body's stored value at row p is the read-out of row p of the blocks, each block is its whole array, and the output
    block's row p is the array's row p. -/
theorem flushed_eq (c : Dev nD) (t : Fin cfg4.N) :
    (dat4 (F := Ideal) V c).flushed 5 t = ((cfg4.win 5).blk t).view.read (Elt Ideal)
      (readout (V c main_v52) (V c main_arg27) (V c main_arg28) (V c main_arg29) (V c main_arg30)) := by
  show (cfg4.win 5).cut (grid4.coords t) ((dat4 V c).after 5 t) = _
  rw [after4_5, block_pooled, block_weight1, block_offset1, block_weight2, block_offset2]
  unfold out4_5
  rw [View.canon_unit_zero hz2]
  simp only [View.ld_unit_zero (S := S1000x64) hz2, View.ld_unit_zero (S := S64x64) hz2, View.ld_unit_zero (S := S64) hz1,
    View.ld_unit_zero (S := S64x1) hz2, View.ld_unit_zero (S := S1) hz1]
  funext j
  obtain ⟨p, q, rfl⟩ : ∃ (p : Fin 1000) (q : Fin 1), j = ix2 p q := ⟨j 0, j 1, eq_ix2 j⟩
  obtain rfl : q = 0 := Subsingleton.elim _ _
  rw [View.read_apply]
  show k4_pay1 (V c main_v52) (V c main_arg27) (V c main_arg28) (V c main_arg29) (V c main_arg30) (ix2 p (0 : Fin 1))
    = readout (V c main_v52) (V c main_arg27) (V c main_arg28) (V c main_arg29) (V c main_arg30)
        (((cfg4.win 5).blk t).view.emb (ix2 p (0 : Fin 1)))
  have hemb : ((cfg4.win 5).blk t).view.emb (ix2 p (0 : Fin 1)) = ix2 p (0 : Fin 1) := by
    obtain ⟨-, -, -, -, -, -, -, -, e0, e1⟩ := idx_facts t
    refine funext fun a => Fin.ext ?_
    match a with
    | ⟨0, _⟩ => show win4_5.index t (0 : Fin 2) * 1000 + 1 * p.val = p.val; rw [e0]; omega
    | ⟨1, _⟩ => show win4_5.index t (1 : Fin 2) * 1 + 1 * 0 = 0; rw [e1]
  rw [hemb, readout_ix2]
  exact payload_at _ _ _ _ _ p

/-- An index of the output array is in the point's block iff each coordinate is in the block's range on its axis. -/
theorem mem_blk (t : Fin cfg4.N) (i : S1000x1.Idx) :
    i ∈ ((cfg4.win 5).blk t).view.set ↔ ∀ a : Fin 2, win4_5.index t a * S1000x1.size a ≤ (i a).val
      ∧ (i a).val < win4_5.index t a * S1000x1.size a + S1000x1.size a := by
  show i ∈ ((View.whole main_v53).slice (win4_5.rect t)).set ↔ _
  rw [View.set_slice_whole, Rect.mem_set_unit]
  exact Iff.rfl

/-- The one point's block is the whole output array, so it covers every index. -/
theorem covered (i : S1000x1.Idx) : ∃ t : Fin cfg4.N, (cfg4.win 5).flush t = true ∧ i ∈ ((cfg4.win 5).blk t).view.set := by
  refine ⟨t4_0, flush4_5 t4_0, ?_⟩
  rw [mem_blk]
  obtain ⟨-, -, -, -, -, -, -, -, e0, e1⟩ := idx_facts t4_0
  have h0 : (i 0).val < 1000 := idx2_lt0 i
  have h1 : (i 1).val < 1 := idx2_lt1 i
  intro a
  match a with
  | ⟨0, _⟩ =>
    show win4_5.index t4_0 (0 : Fin 2) * 1000 ≤ (i 0).val ∧ (i 0).val < win4_5.index t4_0 (0 : Fin 2) * 1000 + 1000
    rw [e0]; omega
  | ⟨1, _⟩ =>
    show win4_5.index t4_0 (1 : Fin 2) * 1 ≤ (i 1).val ∧ (i 1).val < win4_5.index t4_0 (1 : Fin 2) * 1 + 1
    rw [e1]; omega

/-- The array the read-out launch leaves: row p is the read-out of pooled row p. -/
theorem final (c : Dev nD) :
    (dat4 (F := Ideal) V c).arrAt 5 cfg4.N
      = Cert.Gin.readout (V c main_v52) (V c main_arg27) (V c main_arg28) (V c main_arg29) (V c main_arg30) :=
  (dat4 (F := Ideal) V c).arrAt_eq_of_cover 5
    (Cert.Gin.readout (V c main_v52) (V c main_arg27) (V c main_arg28) (V c main_arg29) (V c main_arg30))
    (fun t _ => flushed_eq V c t) covered

end Cert.KernelIdeal.Head

end
-- ==== Proof.KArgs.lean ====
import proofs.«404020_j57260503991115_3_alg».proof.Proof.Gen.KernelIdeal.Frame
import proofs.«404020_j57260503991115_3_alg».proof.Proof.Gen.ReferenceIdeal.Read
import Idealize.ShloMosaic.Lib.StableHlo.Run
import Idealize.ShloMosaic.PureOps.Ideal

set_option maxRecDepth 16384

noncomputable section

namespace Cert.KernelIdeal.Args

open Cert.KernelIdeal Cert.KernelIdeal.Gen Idealize.ShloMosaic Idealize.ShloMosaic.TcCoe Idealize.SL.Sem
open Idealize.ShloMosaic.StableHlo
open Cert.ReferenceIdeal.Read (val_main_v1 val_main_v3)

variable (m : (ℓ : Loc nD τ sig) → Buf (Elt Ideal) ℓ) (ρ : Dev nD → PrngReg)

/-! What the buffers that no launch and no host operation after their own writes hold at the boundaries where a later
    launch or host stretch reads them: an argument array is as launched; the two index vectors cut out of the edge
    list stay what the first host stretch computed. -/

/-! ## At the first launch's entry: the launch memory after the first host stretch and the padding call

The two stretches write only their own intermediate results; reading a buffer through them leaves, for an argument
array, the launch memory, and for the two index vectors the slice-and-reshape of the edge list that computes them. -/

set_option maxHeartbeats 2000000 in
theorem W2_arg3 (c : Dev nD) : W2 (F := Ideal) m ρ c (Proc.devRef .tc main_arg3) = m ((c : Thread nD τ).loc main_arg3) := by
  show after hostOps0_1 (after hostOps0 (W0 m ρ c)) (Proc.devRef .tc main_arg3) = _
  simp only [hostOps0, hostOps0_1]
  after_results_simp

set_option maxHeartbeats 2000000 in
theorem W2_arg4 (c : Dev nD) : W2 (F := Ideal) m ρ c (Proc.devRef .tc main_arg4) = m ((c : Thread nD τ).loc main_arg4) := by
  show after hostOps0_1 (after hostOps0 (W0 m ρ c)) (Proc.devRef .tc main_arg4) = _
  simp only [hostOps0, hostOps0_1]
  after_results_simp

set_option maxHeartbeats 2000000 in
theorem W2_arg5 (c : Dev nD) : W2 (F := Ideal) m ρ c (Proc.devRef .tc main_arg5) = m ((c : Thread nD τ).loc main_arg5) := by
  show after hostOps0_1 (after hostOps0 (W0 m ρ c)) (Proc.devRef .tc main_arg5) = _
  simp only [hostOps0, hostOps0_1]
  after_results_simp

set_option maxHeartbeats 2000000 in
theorem W2_arg6 (c : Dev nD) : W2 (F := Ideal) m ρ c (Proc.devRef .tc main_arg6) = m ((c : Thread nD τ).loc main_arg6) := by
  show after hostOps0_1 (after hostOps0 (W0 m ρ c)) (Proc.devRef .tc main_arg6) = _
  simp only [hostOps0, hostOps0_1]
  after_results_simp

set_option maxHeartbeats 2000000 in
theorem W2_arg7 (c : Dev nD) : W2 (F := Ideal) m ρ c (Proc.devRef .tc main_arg7) = m ((c : Thread nD τ).loc main_arg7) := by
  show after hostOps0_1 (after hostOps0 (W0 m ρ c)) (Proc.devRef .tc main_arg7) = _
  simp only [hostOps0, hostOps0_1]
  after_results_simp

set_option maxHeartbeats 2000000 in
theorem W2_arg8 (c : Dev nD) : W2 (F := Ideal) m ρ c (Proc.devRef .tc main_arg8) = m ((c : Thread nD τ).loc main_arg8) := by
  show after hostOps0_1 (after hostOps0 (W0 m ρ c)) (Proc.devRef .tc main_arg8) = _
  simp only [hostOps0, hostOps0_1]
  after_results_simp

set_option maxHeartbeats 2000000 in
theorem W2_arg9 (c : Dev nD) : W2 (F := Ideal) m ρ c (Proc.devRef .tc main_arg9) = m ((c : Thread nD τ).loc main_arg9) := by
  show after hostOps0_1 (after hostOps0 (W0 m ρ c)) (Proc.devRef .tc main_arg9) = _
  simp only [hostOps0, hostOps0_1]
  after_results_simp

set_option maxHeartbeats 2000000 in
theorem W2_arg10 (c : Dev nD) : W2 (F := Ideal) m ρ c (Proc.devRef .tc main_arg10) = m ((c : Thread nD τ).loc main_arg10) := by
  show after hostOps0_1 (after hostOps0 (W0 m ρ c)) (Proc.devRef .tc main_arg10) = _
  simp only [hostOps0, hostOps0_1]
  after_results_simp

set_option maxHeartbeats 2000000 in
theorem W2_v1 (c : Dev nD) : W2 (F := Ideal) m ρ c (Proc.devRef .tc main_v1) = val_main_v1 (F := Ideal) (m ((c : Thread nD τ).loc main_arg1)) := by
  show after hostOps0_1 (after hostOps0 (W0 m ρ c)) (Proc.devRef .tc main_v1) = _
  simp only [hostOps0, hostOps0_1]
  after_results_simp
  rfl

set_option maxHeartbeats 2000000 in
theorem W2_v3 (c : Dev nD) : W2 (F := Ideal) m ρ c (Proc.devRef .tc main_v3) = val_main_v3 (F := Ideal) (m ((c : Thread nD τ).loc main_arg1)) := by
  show after hostOps0_1 (after hostOps0 (W0 m ρ c)) (Proc.devRef .tc main_v3) = _
  simp only [hostOps0, hostOps0_1]
  after_results_simp
  rfl

/-! ## Across the first launch: the index vectors are none of its arrays -/

theorem W3_v1 (c : Dev nD) : W3 (F := Ideal) m ρ c (Proc.devRef .tc main_v1) = val_main_v1 (F := Ideal) (m ((c : Thread nD τ).loc main_arg1)) := by
  exact (W3_of_ne m ρ c main_v1 (by decide)).trans (W2_v1 m ρ c)

theorem W3_v3 (c : Dev nD) : W3 (F := Ideal) m ρ c (Proc.devRef .tc main_v3) = val_main_v3 (F := Ideal) (m ((c : Thread nD τ).loc main_arg1)) := by
  exact (W3_of_ne m ρ c main_v3 (by decide)).trans (W2_v3 m ρ c)

/-! ## Through the second host stretch and across the second launch -/

set_option maxHeartbeats 2000000 in
theorem W5_v1 (c : Dev nD) : W5 (F := Ideal) m ρ c (Proc.devRef .tc main_v1) = val_main_v1 (F := Ideal) (m ((c : Thread nD τ).loc main_arg1)) := by
  show after hostOps1_1 (after hostOps1 (W3 m ρ c)) (Proc.devRef .tc main_v1) = _
  simp only [hostOps1, hostOps1_1]
  after_results_simp
  exact W3_v1 m ρ c

set_option maxHeartbeats 2000000 in
theorem W5_v3 (c : Dev nD) : W5 (F := Ideal) m ρ c (Proc.devRef .tc main_v3) = val_main_v3 (F := Ideal) (m ((c : Thread nD τ).loc main_arg1)) := by
  show after hostOps1_1 (after hostOps1 (W3 m ρ c)) (Proc.devRef .tc main_v3) = _
  simp only [hostOps1, hostOps1_1]
  after_results_simp
  exact W3_v3 m ρ c

theorem W6_v1 (c : Dev nD) : W6 (F := Ideal) m ρ c (Proc.devRef .tc main_v1) = val_main_v1 (F := Ideal) (m ((c : Thread nD τ).loc main_arg1)) := by
  exact (W6_of_ne m ρ c main_v1 (by decide)).trans (W5_v1 m ρ c)

theorem W6_v3 (c : Dev nD) : W6 (F := Ideal) m ρ c (Proc.devRef .tc main_v3) = val_main_v3 (F := Ideal) (m ((c : Thread nD τ).loc main_arg1)) := by
  exact (W6_of_ne m ρ c main_v3 (by decide)).trans (W5_v3 m ρ c)

/-! ## The second stage's parameters at the second launch's entry

Each is first read at the first launch's entry (as launched), is none of the first launch's arrays, and is written by
no operation of the second host stretch. -/

set_option maxHeartbeats 2000000 in
theorem W2_arg11 (c : Dev nD) : W2 (F := Ideal) m ρ c (Proc.devRef .tc main_arg11) = m ((c : Thread nD τ).loc main_arg11) := by
  show after hostOps0_1 (after hostOps0 (W0 m ρ c)) (Proc.devRef .tc main_arg11) = _
  simp only [hostOps0, hostOps0_1]
  after_results_simp

set_option maxHeartbeats 2000000 in
theorem W5_arg11 (c : Dev nD) : W5 (F := Ideal) m ρ c (Proc.devRef .tc main_arg11) = m ((c : Thread nD τ).loc main_arg11) := by
  show after hostOps1_1 (after hostOps1 (W3 m ρ c)) (Proc.devRef .tc main_arg11) = _
  simp only [hostOps1, hostOps1_1]
  after_results_simp
  exact (W3_of_ne m ρ c main_arg11 (by decide)).trans (W2_arg11 m ρ c)

set_option maxHeartbeats 2000000 in
theorem W2_arg12 (c : Dev nD) : W2 (F := Ideal) m ρ c (Proc.devRef .tc main_arg12) = m ((c : Thread nD τ).loc main_arg12) := by
  show after hostOps0_1 (after hostOps0 (W0 m ρ c)) (Proc.devRef .tc main_arg12) = _
  simp only [hostOps0, hostOps0_1]
  after_results_simp

set_option maxHeartbeats 2000000 in
theorem W5_arg12 (c : Dev nD) : W5 (F := Ideal) m ρ c (Proc.devRef .tc main_arg12) = m ((c : Thread nD τ).loc main_arg12) := by
  show after hostOps1_1 (after hostOps1 (W3 m ρ c)) (Proc.devRef .tc main_arg12) = _
  simp only [hostOps1, hostOps1_1]
  after_results_simp
  exact (W3_of_ne m ρ c main_arg12 (by decide)).trans (W2_arg12 m ρ c)

set_option maxHeartbeats 2000000 in
theorem W2_arg13 (c : Dev nD) : W2 (F := Ideal) m ρ c (Proc.devRef .tc main_arg13) = m ((c : Thread nD τ).loc main_arg13) := by
  show after hostOps0_1 (after hostOps0 (W0 m ρ c)) (Proc.devRef .tc main_arg13) = _
  simp only [hostOps0, hostOps0_1]
  after_results_simp

set_option maxHeartbeats 2000000 in
theorem W5_arg13 (c : Dev nD) : W5 (F := Ideal) m ρ c (Proc.devRef .tc main_arg13) = m ((c : Thread nD τ).loc main_arg13) := by
  show after hostOps1_1 (after hostOps1 (W3 m ρ c)) (Proc.devRef .tc main_arg13) = _
  simp only [hostOps1, hostOps1_1]
  after_results_simp
  exact (W3_of_ne m ρ c main_arg13 (by decide)).trans (W2_arg13 m ρ c)

set_option maxHeartbeats 2000000 in
theorem W2_arg14 (c : Dev nD) : W2 (F := Ideal) m ρ c (Proc.devRef .tc main_arg14) = m ((c : Thread nD τ).loc main_arg14) := by
  show after hostOps0_1 (after hostOps0 (W0 m ρ c)) (Proc.devRef .tc main_arg14) = _
  simp only [hostOps0, hostOps0_1]
  after_results_simp

set_option maxHeartbeats 2000000 in
theorem W5_arg14 (c : Dev nD) : W5 (F := Ideal) m ρ c (Proc.devRef .tc main_arg14) = m ((c : Thread nD τ).loc main_arg14) := by
  show after hostOps1_1 (after hostOps1 (W3 m ρ c)) (Proc.devRef .tc main_arg14) = _
  simp only [hostOps1, hostOps1_1]
  after_results_simp
  exact (W3_of_ne m ρ c main_arg14 (by decide)).trans (W2_arg14 m ρ c)

set_option maxHeartbeats 2000000 in
theorem W2_arg15 (c : Dev nD) : W2 (F := Ideal) m ρ c (Proc.devRef .tc main_arg15) = m ((c : Thread nD τ).loc main_arg15) := by
  show after hostOps0_1 (after hostOps0 (W0 m ρ c)) (Proc.devRef .tc main_arg15) = _
  simp only [hostOps0, hostOps0_1]
  after_results_simp

set_option maxHeartbeats 2000000 in
theorem W5_arg15 (c : Dev nD) : W5 (F := Ideal) m ρ c (Proc.devRef .tc main_arg15) = m ((c : Thread nD τ).loc main_arg15) := by
  show after hostOps1_1 (after hostOps1 (W3 m ρ c)) (Proc.devRef .tc main_arg15) = _
  simp only [hostOps1, hostOps1_1]
  after_results_simp
  exact (W3_of_ne m ρ c main_arg15 (by decide)).trans (W2_arg15 m ρ c)

set_option maxHeartbeats 2000000 in
theorem W2_arg16 (c : Dev nD) : W2 (F := Ideal) m ρ c (Proc.devRef .tc main_arg16) = m ((c : Thread nD τ).loc main_arg16) := by
  show after hostOps0_1 (after hostOps0 (W0 m ρ c)) (Proc.devRef .tc main_arg16) = _
  simp only [hostOps0, hostOps0_1]
  after_results_simp

set_option maxHeartbeats 2000000 in
theorem W5_arg16 (c : Dev nD) : W5 (F := Ideal) m ρ c (Proc.devRef .tc main_arg16) = m ((c : Thread nD τ).loc main_arg16) := by
  show after hostOps1_1 (after hostOps1 (W3 m ρ c)) (Proc.devRef .tc main_arg16) = _
  simp only [hostOps1, hostOps1_1]
  after_results_simp
  exact (W3_of_ne m ρ c main_arg16 (by decide)).trans (W2_arg16 m ρ c)

set_option maxHeartbeats 2000000 in
theorem W2_arg17 (c : Dev nD) : W2 (F := Ideal) m ρ c (Proc.devRef .tc main_arg17) = m ((c : Thread nD τ).loc main_arg17) := by
  show after hostOps0_1 (after hostOps0 (W0 m ρ c)) (Proc.devRef .tc main_arg17) = _
  simp only [hostOps0, hostOps0_1]
  after_results_simp

set_option maxHeartbeats 2000000 in
theorem W5_arg17 (c : Dev nD) : W5 (F := Ideal) m ρ c (Proc.devRef .tc main_arg17) = m ((c : Thread nD τ).loc main_arg17) := by
  show after hostOps1_1 (after hostOps1 (W3 m ρ c)) (Proc.devRef .tc main_arg17) = _
  simp only [hostOps1, hostOps1_1]
  after_results_simp
  exact (W3_of_ne m ρ c main_arg17 (by decide)).trans (W2_arg17 m ρ c)

set_option maxHeartbeats 2000000 in
theorem W2_arg18 (c : Dev nD) : W2 (F := Ideal) m ρ c (Proc.devRef .tc main_arg18) = m ((c : Thread nD τ).loc main_arg18) := by
  show after hostOps0_1 (after hostOps0 (W0 m ρ c)) (Proc.devRef .tc main_arg18) = _
  simp only [hostOps0, hostOps0_1]
  after_results_simp

set_option maxHeartbeats 2000000 in
theorem W5_arg18 (c : Dev nD) : W5 (F := Ideal) m ρ c (Proc.devRef .tc main_arg18) = m ((c : Thread nD τ).loc main_arg18) := by
  show after hostOps1_1 (after hostOps1 (W3 m ρ c)) (Proc.devRef .tc main_arg18) = _
  simp only [hostOps1, hostOps1_1]
  after_results_simp
  exact (W3_of_ne m ρ c main_arg18 (by decide)).trans (W2_arg18 m ρ c)

/-! ## The third stage's parameters at the third launch's entry: the same walk, one launch and one host stretch longer -/

set_option maxHeartbeats 2000000 in
theorem W2_arg19 (c : Dev nD) : W2 (F := Ideal) m ρ c (Proc.devRef .tc main_arg19) = m ((c : Thread nD τ).loc main_arg19) := by
  show after hostOps0_1 (after hostOps0 (W0 m ρ c)) (Proc.devRef .tc main_arg19) = _
  simp only [hostOps0, hostOps0_1]
  after_results_simp

set_option maxHeartbeats 2000000 in
theorem W5_arg19 (c : Dev nD) : W5 (F := Ideal) m ρ c (Proc.devRef .tc main_arg19) = m ((c : Thread nD τ).loc main_arg19) := by
  show after hostOps1_1 (after hostOps1 (W3 m ρ c)) (Proc.devRef .tc main_arg19) = _
  simp only [hostOps1, hostOps1_1]
  after_results_simp
  exact (W3_of_ne m ρ c main_arg19 (by decide)).trans (W2_arg19 m ρ c)

set_option maxHeartbeats 2000000 in
theorem W8_arg19 (c : Dev nD) : W8 (F := Ideal) m ρ c (Proc.devRef .tc main_arg19) = m ((c : Thread nD τ).loc main_arg19) := by
  show after hostOps2_1 (after hostOps2 (W6 m ρ c)) (Proc.devRef .tc main_arg19) = _
  simp only [hostOps2, hostOps2_1]
  after_results_simp
  exact (W6_of_ne m ρ c main_arg19 (by decide)).trans (W5_arg19 m ρ c)

set_option maxHeartbeats 2000000 in
theorem W2_arg20 (c : Dev nD) : W2 (F := Ideal) m ρ c (Proc.devRef .tc main_arg20) = m ((c : Thread nD τ).loc main_arg20) := by
  show after hostOps0_1 (after hostOps0 (W0 m ρ c)) (Proc.devRef .tc main_arg20) = _
  simp only [hostOps0, hostOps0_1]
  after_results_simp

set_option maxHeartbeats 2000000 in
theorem W5_arg20 (c : Dev nD) : W5 (F := Ideal) m ρ c (Proc.devRef .tc main_arg20) = m ((c : Thread nD τ).loc main_arg20) := by
  show after hostOps1_1 (after hostOps1 (W3 m ρ c)) (Proc.devRef .tc main_arg20) = _
  simp only [hostOps1, hostOps1_1]
  after_results_simp
  exact (W3_of_ne m ρ c main_arg20 (by decide)).trans (W2_arg20 m ρ c)

set_option maxHeartbeats 2000000 in
theorem W8_arg20 (c : Dev nD) : W8 (F := Ideal) m ρ c (Proc.devRef .tc main_arg20) = m ((c : Thread nD τ).loc main_arg20) := by
  show after hostOps2_1 (after hostOps2 (W6 m ρ c)) (Proc.devRef .tc main_arg20) = _
  simp only [hostOps2, hostOps2_1]
  after_results_simp
  exact (W6_of_ne m ρ c main_arg20 (by decide)).trans (W5_arg20 m ρ c)

set_option maxHeartbeats 2000000 in
theorem W2_arg21 (c : Dev nD) : W2 (F := Ideal) m ρ c (Proc.devRef .tc main_arg21) = m ((c : Thread nD τ).loc main_arg21) := by
  show after hostOps0_1 (after hostOps0 (W0 m ρ c)) (Proc.devRef .tc main_arg21) = _
  simp only [hostOps0, hostOps0_1]
  after_results_simp

set_option maxHeartbeats 2000000 in
theorem W5_arg21 (c : Dev nD) : W5 (F := Ideal) m ρ c (Proc.devRef .tc main_arg21) = m ((c : Thread nD τ).loc main_arg21) := by
  show after hostOps1_1 (after hostOps1 (W3 m ρ c)) (Proc.devRef .tc main_arg21) = _
  simp only [hostOps1, hostOps1_1]
  after_results_simp
  exact (W3_of_ne m ρ c main_arg21 (by decide)).trans (W2_arg21 m ρ c)

set_option maxHeartbeats 2000000 in
theorem W8_arg21 (c : Dev nD) : W8 (F := Ideal) m ρ c (Proc.devRef .tc main_arg21) = m ((c : Thread nD τ).loc main_arg21) := by
  show after hostOps2_1 (after hostOps2 (W6 m ρ c)) (Proc.devRef .tc main_arg21) = _
  simp only [hostOps2, hostOps2_1]
  after_results_simp
  exact (W6_of_ne m ρ c main_arg21 (by decide)).trans (W5_arg21 m ρ c)

set_option maxHeartbeats 2000000 in
theorem W2_arg22 (c : Dev nD) : W2 (F := Ideal) m ρ c (Proc.devRef .tc main_arg22) = m ((c : Thread nD τ).loc main_arg22) := by
  show after hostOps0_1 (after hostOps0 (W0 m ρ c)) (Proc.devRef .tc main_arg22) = _
  simp only [hostOps0, hostOps0_1]
  after_results_simp

set_option maxHeartbeats 2000000 in
theorem W5_arg22 (c : Dev nD) : W5 (F := Ideal) m ρ c (Proc.devRef .tc main_arg22) = m ((c : Thread nD τ).loc main_arg22) := by
  show after hostOps1_1 (after hostOps1 (W3 m ρ c)) (Proc.devRef .tc main_arg22) = _
  simp only [hostOps1, hostOps1_1]
  after_results_simp
  exact (W3_of_ne m ρ c main_arg22 (by decide)).trans (W2_arg22 m ρ c)

set_option maxHeartbeats 2000000 in
theorem W8_arg22 (c : Dev nD) : W8 (F := Ideal) m ρ c (Proc.devRef .tc main_arg22) = m ((c : Thread nD τ).loc main_arg22) := by
  show after hostOps2_1 (after hostOps2 (W6 m ρ c)) (Proc.devRef .tc main_arg22) = _
  simp only [hostOps2, hostOps2_1]
  after_results_simp
  exact (W6_of_ne m ρ c main_arg22 (by decide)).trans (W5_arg22 m ρ c)

set_option maxHeartbeats 2000000 in
theorem W2_arg23 (c : Dev nD) : W2 (F := Ideal) m ρ c (Proc.devRef .tc main_arg23) = m ((c : Thread nD τ).loc main_arg23) := by
  show after hostOps0_1 (after hostOps0 (W0 m ρ c)) (Proc.devRef .tc main_arg23) = _
  simp only [hostOps0, hostOps0_1]
  after_results_simp

set_option maxHeartbeats 2000000 in
theorem W5_arg23 (c : Dev nD) : W5 (F := Ideal) m ρ c (Proc.devRef .tc main_arg23) = m ((c : Thread nD τ).loc main_arg23) := by
  show after hostOps1_1 (after hostOps1 (W3 m ρ c)) (Proc.devRef .tc main_arg23) = _
  simp only [hostOps1, hostOps1_1]
  after_results_simp
  exact (W3_of_ne m ρ c main_arg23 (by decide)).trans (W2_arg23 m ρ c)

set_option maxHeartbeats 2000000 in
theorem W8_arg23 (c : Dev nD) : W8 (F := Ideal) m ρ c (Proc.devRef .tc main_arg23) = m ((c : Thread nD τ).loc main_arg23) := by
  show after hostOps2_1 (after hostOps2 (W6 m ρ c)) (Proc.devRef .tc main_arg23) = _
  simp only [hostOps2, hostOps2_1]
  after_results_simp
  exact (W6_of_ne m ρ c main_arg23 (by decide)).trans (W5_arg23 m ρ c)

set_option maxHeartbeats 2000000 in
theorem W2_arg24 (c : Dev nD) : W2 (F := Ideal) m ρ c (Proc.devRef .tc main_arg24) = m ((c : Thread nD τ).loc main_arg24) := by
  show after hostOps0_1 (after hostOps0 (W0 m ρ c)) (Proc.devRef .tc main_arg24) = _
  simp only [hostOps0, hostOps0_1]
  after_results_simp

set_option maxHeartbeats 2000000 in
theorem W5_arg24 (c : Dev nD) : W5 (F := Ideal) m ρ c (Proc.devRef .tc main_arg24) = m ((c : Thread nD τ).loc main_arg24) := by
  show after hostOps1_1 (after hostOps1 (W3 m ρ c)) (Proc.devRef .tc main_arg24) = _
  simp only [hostOps1, hostOps1_1]
  after_results_simp
  exact (W3_of_ne m ρ c main_arg24 (by decide)).trans (W2_arg24 m ρ c)

set_option maxHeartbeats 2000000 in
theorem W8_arg24 (c : Dev nD) : W8 (F := Ideal) m ρ c (Proc.devRef .tc main_arg24) = m ((c : Thread nD τ).loc main_arg24) := by
  show after hostOps2_1 (after hostOps2 (W6 m ρ c)) (Proc.devRef .tc main_arg24) = _
  simp only [hostOps2, hostOps2_1]
  after_results_simp
  exact (W6_of_ne m ρ c main_arg24 (by decide)).trans (W5_arg24 m ρ c)

set_option maxHeartbeats 2000000 in
theorem W2_arg25 (c : Dev nD) : W2 (F := Ideal) m ρ c (Proc.devRef .tc main_arg25) = m ((c : Thread nD τ).loc main_arg25) := by
  show after hostOps0_1 (after hostOps0 (W0 m ρ c)) (Proc.devRef .tc main_arg25) = _
  simp only [hostOps0, hostOps0_1]
  after_results_simp

set_option maxHeartbeats 2000000 in
theorem W5_arg25 (c : Dev nD) : W5 (F := Ideal) m ρ c (Proc.devRef .tc main_arg25) = m ((c : Thread nD τ).loc main_arg25) := by
  show after hostOps1_1 (after hostOps1 (W3 m ρ c)) (Proc.devRef .tc main_arg25) = _
  simp only [hostOps1, hostOps1_1]
  after_results_simp
  exact (W3_of_ne m ρ c main_arg25 (by decide)).trans (W2_arg25 m ρ c)

set_option maxHeartbeats 2000000 in
theorem W8_arg25 (c : Dev nD) : W8 (F := Ideal) m ρ c (Proc.devRef .tc main_arg25) = m ((c : Thread nD τ).loc main_arg25) := by
  show after hostOps2_1 (after hostOps2 (W6 m ρ c)) (Proc.devRef .tc main_arg25) = _
  simp only [hostOps2, hostOps2_1]
  after_results_simp
  exact (W6_of_ne m ρ c main_arg25 (by decide)).trans (W5_arg25 m ρ c)

set_option maxHeartbeats 2000000 in
theorem W2_arg26 (c : Dev nD) : W2 (F := Ideal) m ρ c (Proc.devRef .tc main_arg26) = m ((c : Thread nD τ).loc main_arg26) := by
  show after hostOps0_1 (after hostOps0 (W0 m ρ c)) (Proc.devRef .tc main_arg26) = _
  simp only [hostOps0, hostOps0_1]
  after_results_simp

set_option maxHeartbeats 2000000 in
theorem W5_arg26 (c : Dev nD) : W5 (F := Ideal) m ρ c (Proc.devRef .tc main_arg26) = m ((c : Thread nD τ).loc main_arg26) := by
  show after hostOps1_1 (after hostOps1 (W3 m ρ c)) (Proc.devRef .tc main_arg26) = _
  simp only [hostOps1, hostOps1_1]
  after_results_simp
  exact (W3_of_ne m ρ c main_arg26 (by decide)).trans (W2_arg26 m ρ c)

set_option maxHeartbeats 2000000 in
theorem W8_arg26 (c : Dev nD) : W8 (F := Ideal) m ρ c (Proc.devRef .tc main_arg26) = m ((c : Thread nD τ).loc main_arg26) := by
  show after hostOps2_1 (after hostOps2 (W6 m ρ c)) (Proc.devRef .tc main_arg26) = _
  simp only [hostOps2, hostOps2_1]
  after_results_simp
  exact (W6_of_ne m ρ c main_arg26 (by decide)).trans (W5_arg26 m ρ c)

/-! ## The graph numbers at the third launch's exit -/

set_option maxHeartbeats 2000000 in
theorem W2_arg2 (c : Dev nD) : W2 (F := Ideal) m ρ c (Proc.devRef .tc main_arg2) = m ((c : Thread nD τ).loc main_arg2) := by
  show after hostOps0_1 (after hostOps0 (W0 m ρ c)) (Proc.devRef .tc main_arg2) = _
  simp only [hostOps0, hostOps0_1]
  after_results_simp

set_option maxHeartbeats 2000000 in
theorem W5_arg2 (c : Dev nD) : W5 (F := Ideal) m ρ c (Proc.devRef .tc main_arg2) = m ((c : Thread nD τ).loc main_arg2) := by
  show after hostOps1_1 (after hostOps1 (W3 m ρ c)) (Proc.devRef .tc main_arg2) = _
  simp only [hostOps1, hostOps1_1]
  after_results_simp
  exact (W3_of_ne m ρ c main_arg2 (by decide)).trans (W2_arg2 m ρ c)

set_option maxHeartbeats 2000000 in
theorem W8_arg2 (c : Dev nD) : W8 (F := Ideal) m ρ c (Proc.devRef .tc main_arg2) = m ((c : Thread nD τ).loc main_arg2) := by
  show after hostOps2_1 (after hostOps2 (W6 m ρ c)) (Proc.devRef .tc main_arg2) = _
  simp only [hostOps2, hostOps2_1]
  after_results_simp
  exact (W6_of_ne m ρ c main_arg2 (by decide)).trans (W5_arg2 m ρ c)

theorem W9_arg2 (c : Dev nD) : W9 (F := Ideal) m ρ c (Proc.devRef .tc main_arg2) = m ((c : Thread nD τ).loc main_arg2) := by
  exact (W9_of_ne m ρ c main_arg2 (by decide)).trans (W8_arg2 m ρ c)

/-! ## The read-out's parameters at the last launch's entry

They are input windows 1 to 4 of the last launch: at its exit an input array holds what it held at entry, and at its
exit every argument array is as launched. -/

theorem W14_arg27 (c : Dev nD) : W14 (F := Ideal) m ρ c (Proc.devRef .tc main_arg27) = m ((c : Thread nD τ).loc main_arg27) := by
  have h : W15 (F := Ideal) m ρ c (Proc.devRef .tc main_arg27) = W14 m ρ c (Proc.devRef .tc main_arg27) :=
    (W15_arr m ρ c 1).trans (((dat4 (V14 m ρ) c).arrAt_in 1 rfl _).trans (A_eq4 (V14 m ρ) c 1))
  exact h.symm.trans (W15_main_arg27 m ρ c)

theorem W14_arg28 (c : Dev nD) : W14 (F := Ideal) m ρ c (Proc.devRef .tc main_arg28) = m ((c : Thread nD τ).loc main_arg28) := by
  have h : W15 (F := Ideal) m ρ c (Proc.devRef .tc main_arg28) = W14 m ρ c (Proc.devRef .tc main_arg28) :=
    (W15_arr m ρ c 2).trans (((dat4 (V14 m ρ) c).arrAt_in 2 rfl _).trans (A_eq4 (V14 m ρ) c 2))
  exact h.symm.trans (W15_main_arg28 m ρ c)

theorem W14_arg29 (c : Dev nD) : W14 (F := Ideal) m ρ c (Proc.devRef .tc main_arg29) = m ((c : Thread nD τ).loc main_arg29) := by
  have h : W15 (F := Ideal) m ρ c (Proc.devRef .tc main_arg29) = W14 m ρ c (Proc.devRef .tc main_arg29) :=
    (W15_arr m ρ c 3).trans (((dat4 (V14 m ρ) c).arrAt_in 3 rfl _).trans (A_eq4 (V14 m ρ) c 3))
  exact h.symm.trans (W15_main_arg29 m ρ c)

theorem W14_arg30 (c : Dev nD) : W14 (F := Ideal) m ρ c (Proc.devRef .tc main_arg30) = m ((c : Thread nD τ).loc main_arg30) := by
  have h : W15 (F := Ideal) m ρ c (Proc.devRef .tc main_arg30) = W14 m ρ c (Proc.devRef .tc main_arg30) :=
    (W15_arr m ρ c 4).trans (((dat4 (V14 m ρ) c).arrAt_in 4 rfl _).trans (A_eq4 (V14 m ρ) c 4))
  exact h.symm.trans (W15_main_arg30 m ρ c)

end Cert.KernelIdeal.Args

end
-- ==== Proof.KPadSlice.lean ====
import proofs.«404020_j57260503991115_3_alg».proof.KernelIdeal
import proofs.«404020_j57260503991115_3_alg».proof.Proof.Gen.KernelIdeal
import proofs.«404020_j57260503991115_3_alg».proof.Proof.Spec
import proofs.«404020_j57260503991115_3_alg».proof.Proof.PoolPad
import Idealize.ShloMosaic.Lib.KernelVsHost
import Idealize.ShloMosaic.Lib.Pipeline.Value
import Idealize.ShloMosaic.Lib.ValueIdx
import Idealize.ShloMosaic.PureOps.Ideal

noncomputable section

namespace Cert.KernelIdeal.PadSlice

open Cert.KernelIdeal Cert.KernelIdeal.Gen Idealize.ShloMosaic Idealize.ShloMosaic.ValueIdx

/-- 352 rows of zeros appended below the 100000 rows of an array of 11 columns. -/
def pad11 (a : FVec Ideal S100000x11 .f32) : FVec Ideal S100352x11 .f32 :=
  pad S100352x11 ![0, 0] ![352, 0] ![0, 0] a (sitofp .f32 (constantI S_ 32 0#32)) pads_S100000x11_S100352x11_03520_000 h_S_

/-- 352 rows of zeros appended below the 100000 rows of an array of 64 columns. -/
def pad64 (a : FVec Ideal S100000x64 .f32) : FVec Ideal S100352x64 .f32 :=
  pad S100352x64 ![0, 0] ![352, 0] ![0, 0] a (sitofp .f32 (constantI S_ 32 0#32)) pads_S100000x64_S100352x64_03520_000 h_S_

/-- 352 copies of the word of minus one appended after 100000 graph numbers. -/
def padB (b : IVec S100000 32) : IVec S100352 32 :=
  pad S100352 ![0] ![352] ![0] b (id (constantI S_ 32 4294967295#32)) pads_S100000_S100352_03520 h_S_

/-- The first 100000 rows of an array of 100352 rows and 64 columns. -/
def slice64 (o : FVec Ideal S100352x64 .f32) : FVec Ideal S100000x64 .f32 :=
  extractStridedSlice S100000x64 ![0, 0] o slices_S100352x64_S100000x64_0_0

/-- The slice keeps row r for every r below 100000. -/
theorem slice64_apply (o : FVec Ideal S100352x64 .f32) (r : Fin 100000) (j : Fin 64) :
    slice64 o (ix2 r j) = o (ix2 (Fin.castAdd 352 r) j) := by
  unfold slice64
  exact extractStridedSlice_apply _ o slices_S100352x64_S100000x64_0_0 (ix2 r j) (ix2 (Fin.castAdd 352 r) j) (fun a => by
    match a with
    | ⟨0, _⟩ => show r.val = 0 + r.val; omega
    | ⟨1, _⟩ => show j.val = 0 + j.val; omega)

/-- A row below 100000 of the padded array of 11 columns is the row of the array. -/
theorem pad11_apply (a : FVec Ideal S100000x11 .f32) (r : Fin 100000) (i : Fin 11) :
    pad11 a (ix2 (Fin.castAdd 352 r) i) = a (ix2 r i) := by
  unfold pad11
  exact pad_apply_of_inside _ _ _ a _ pads_S100000x11_S100352x11_03520_000 h_S_ _ (ix2 r i) (fun d => by
    match d with
    | ⟨0, _⟩ => show r.val = 0 + r.val * (0 + 1); omega
    | ⟨1, _⟩ => show i.val = 0 + i.val * (0 + 1); omega)

/-- A row below 100000 of the padded array of 64 columns is the row of the array. -/
theorem pad64_apply (a : FVec Ideal S100000x64 .f32) (r : Fin 100000) (i : Fin 64) :
    pad64 a (ix2 (Fin.castAdd 352 r) i) = a (ix2 r i) := by
  unfold pad64
  exact pad_apply_of_inside _ _ _ a _ pads_S100000x64_S100352x64_03520_000 h_S_ _ (ix2 r i) (fun d => by
    match d with
    | ⟨0, _⟩ => show r.val = 0 + r.val * (0 + 1); omega
    | ⟨1, _⟩ => show i.val = 0 + i.val * (0 + 1); omega)

/-- An entry below 100000 of the padded graph numbers is the graph number. -/
theorem padB_apply (b : IVec S100000 32) (n : Fin 100000) :
    padB b (ix1 (Fin.castAdd 352 n)) = b (ix1 n) := by
  unfold padB
  exact pad_apply_of_inside _ _ _ b _ pads_S100000_S100352_03520 h_S_ _ (ix1 n) (fun d => by
    match d with
    | ⟨0, _⟩ => show n.val = 0 + n.val * (0 + 1); omega)

/-- An entry from 100000 on of the padded graph numbers is the word of minus one. -/
theorem padB_apply_tail (b : IVec S100000 32) (n : Fin 352) :
    padB b (ix1 (Fin.natAdd 100000 n)) = 4294967295#32 := by
  unfold padB
  exact pad_apply_of_not_inside _ _ _ b _ pads_S100000_S100352_03520 h_S_ _ (0 : Fin 1) (fun hin => by
    have e : (100000 + n.val - 0) / (0 + 1) < 100000 := hin.2.2
    omega)

/-- A stage acts row by row, so appending rows to its input and dropping them from its result changes nothing (11 columns in). -/
theorem slice_stage_pad11 (a : FVec Ideal S100000x11 .f32) (wa : Cert.Gin.Mat 11 64) (ba g be mu v : Cert.Gin.Vct 64)
    (wb : Cert.Gin.Mat 64 64) (bb : Cert.Gin.Vct 64) :
    slice64 (Cert.Gin.stage (pad11 a) wa ba g be mu v wb bb) = Cert.Gin.stage a wa ba g be mu v wb bb := by
  funext y
  obtain ⟨r, j, rfl⟩ : ∃ (r : Fin 100000) (j : Fin 64), y = ix2 r j := ⟨y 0, y 1, eq_ix2 y⟩
  rw [slice64_apply]
  exact Cert.Gin.stage_of_rows a (pad11 a) wa ba g be mu v wb bb r (Fin.castAdd 352 r) (fun i => pad11_apply a r i) j

/-- The same with 64 columns in. -/
theorem slice_stage_pad64 (a : FVec Ideal S100000x64 .f32) (wa : Cert.Gin.Mat 64 64) (ba g be mu v : Cert.Gin.Vct 64)
    (wb : Cert.Gin.Mat 64 64) (bb : Cert.Gin.Vct 64) :
    slice64 (Cert.Gin.stage (pad64 a) wa ba g be mu v wb bb) = Cert.Gin.stage a wa ba g be mu v wb bb := by
  funext y
  obtain ⟨r, j, rfl⟩ : ∃ (r : Fin 100000) (j : Fin 64), y = ix2 r j := ⟨y 0, y 1, eq_ix2 y⟩
  rw [slice64_apply]
  exact Cert.Gin.stage_of_rows a (pad64 a) wa ba g be mu v wb bb r (Fin.castAdd 352 r) (fun i => pad64_apply a r i) j

/-- The appended nodes carry the graph number minus one, which is no graph's number, so they add nothing to any pooled sum. -/
theorem pooled_pad (h : FVec Ideal S100000x64 .f32) (b : IVec S100000 32) :
    Cert.Gin.pooled (N := 100352) (G := 1000) (pad64 h) (padB b) = Cert.Gin.pooled (N := 100000) (G := 1000) h b := by
  refine Cert.Gin.pooled_append (N := 100000) (K := 352) (G := 1000) h b (pad64 h) (padB b)
    (fun n q => pad64_apply h n q) (fun n => padB_apply b n) (fun n p => ?_)
  rw [padB_apply_tail]
  have e : (4294967295#32 : BitVec 32).toInt = -1 := by decide
  rw [e]
  omega

end Cert.KernelIdeal.PadSlice

end
-- ==== Proof.LibRowScatter.lean ====
/-
  The accumulating scatter of ROWS, read at an index.

  For an operand [N, C], a column [R, 1] of scatter indices and updates [R, C] (the update's axis 1 is the window axis,
  the operand's axis 0 the inserted one the scatter index names), update element (n, q') lands on operand element
  (p, q) exactly when the scatter index of row n, read signed, is p's number and q' = q; an index outside 0 … N - 1
  lands nowhere. So over the extended reals the accumulating scatter at (p, q) is the operand there plus the sum, over
  the update rows n whose scatter index is p, of the update at (n, q).
-/
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

/-- A sum over the elements that satisfy a condition is the sum of the terms switched by an equivalent condition. -/
theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

/-- The dimension numbers of x.at[idx].add(u) for an operand [N, C], scatter indices [R, 1] and updates [R, C]. -/
abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the operand's row axis the window of update element j starts at the scatter index of j's row, read signed. -/
theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

/-- On the operand's column axis the window starts at 0. -/
theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

/-- The window has one row. -/
theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

/-- Across the columns the window coordinate is the update element's column. -/
theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

/-- Update element j lands at operand element i exactly when the scatter index of j's row, read signed, is i's row
    number and the two are in the same column. -/
theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

/-- The accumulating scatter of rows over the extended reals, read at (p, q): the operand there plus the sum, over
    the update rows whose scatter index (read signed) is p, of the update at column q. -/
theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.RStages.lean ====
import proofs.«404020_j57260503991115_3_alg».proof.Proof.Gen.ReferenceIdeal.Read
import proofs.«404020_j57260503991115_3_alg».proof.Proof.Spec
import proofs.«404020_j57260503991115_3_alg».proof.Proof.LibMatProduct
import proofs.«404020_j57260503991115_3_alg».proof.Proof.LibRowScatter
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Read Idealize.ShloMosaic Idealize.ShloMosaic.ValueIdx

variable (x0 : FVec Ideal S100000x11 .f32) (x1 : IVec S2x1200000 32) (x2 : IVec S100000 32) (x3 : FVec Ideal S11x64 .f32)
  (x4 x5 x6 x7 x8 : FVec Ideal S64 .f32) (x9 : FVec Ideal S64x64 .f32) (x10 : FVec Ideal S64 .f32)
  (x11 : FVec Ideal S64x64 .f32) (x12 x13 x14 x15 x16 : FVec Ideal S64 .f32) (x17 : FVec Ideal S64x64 .f32) (x18 : FVec Ideal S64 .f32)
  (x19 : FVec Ideal S64x64 .f32) (x20 x21 x22 x23 x24 : FVec Ideal S64 .f32) (x25 : FVec Ideal S64x64 .f32) (x26 : FVec Ideal S64 .f32)
  (x27 : FVec Ideal S64x64 .f32) (x28 : FVec Ideal S64 .f32) (x29 : FVec Ideal S64x1 .f32) (x30 : FVec Ideal S1 .f32)

/-- The clamped, normalised first linear map of the first stage, read at row r and column k: the operations from the
    first matrix product to the first clamp, each read at its index, are the entry `hidden` of the specification. -/
theorem hidden1 (r : Fin 100000) (k : Fin 64) :
    val_main_v34 (F := Ideal) x0 x1 x3 x4 x5 x6 x7 x8 (ix2 r k)
      = Cert.Gin.hidden (fun i => val_main_v14 (F := Ideal) x0 x1 (ix2 r i)) x3 x4 x5 x6 x7 x8 k := by
  have el : ∀ i : Fin 11, lidx_main_v15 (ix2 r k) i = ix2 r i := fun i =>
    funext fun a => Fin.ext (by match a with | ⟨0, _⟩ => rfl | ⟨1, _⟩ => rfl)
  have er : ∀ i : Fin 11, ridx_main_v15 (ix2 r k) i = ix2 i k := fun i =>
    funext fun a => Fin.ext (by match a with | ⟨0, _⟩ => rfl | ⟨1, _⟩ => rfl)
  have e4 : idx_main_v16 (idx_main_v17 (ix2 r k)) = ix1 k := funext fun a => Fin.ext (by match a with | ⟨0, _⟩ => rfl)
  have e7 : idx_main_v19 (idx_main_v20 (ix2 r k)) = ix1 k := funext fun a => Fin.ext (by match a with | ⟨0, _⟩ => rfl)
  have e8 : idx_main_v25 (idx_main_v26 (ix2 r k)) = ix1 k := funext fun a => Fin.ext (by match a with | ⟨0, _⟩ => rfl)
  have e5 : idx_main_v28 (idx_main_v29 (ix2 r k)) = ix1 k := funext fun a => Fin.ext (by match a with | ⟨0, _⟩ => rfl)
  have e6 : idx_main_v31 (idx_main_v32 (ix2 r k)) = ix1 k := funext fun a => Fin.ext (by match a with | ⟨0, _⟩ => rfl)
  rw [val_main_v34_apply, val_main_v33_apply, val_main_v30_apply, val_main_v27_apply, val_main_v21_apply, val_main_v18_apply,
    val_main_v15_apply, val_main_v17_apply, val_main_v16_apply, val_main_v20_apply, val_main_v19_apply, val_main_v26_apply,
    val_main_v25_apply, val_main_v24_apply, val_main_v23_apply, val_main_v22_apply, val_main_cst_1_apply, val_main_v29_apply,
    val_main_v28_apply, val_main_v32_apply, val_main_v31_apply, val_main_call0_v0_apply, val_main_call0_cst_apply]
  generalize val_main_v14 (F := Ideal) x0 x1 = A
  simp only [el, er, e4, e7, e8, e5, e6, Ideal.maximumf_def, Ideal.addf_def, Ideal.subf_def, Ideal.mulf_def,
    Ideal.hostUnary_rsqrt_def, Ideal.ofBits_def, Ideal.ofBits_zero_f32]
  rfl

/-- The first stage of the reference, from the aggregated input features. -/
theorem layer1 : val_main_v39 (F := Ideal) x0 x1 x3 x4 x5 x6 x7 x8 x9 x10
    = Cert.Gin.stage (val_main_v14 (F := Ideal) x0 x1) x3 x4 x5 x6 x7 x8 x9 x10 := by
  funext y
  obtain ⟨r, j, rfl⟩ : ∃ (r : Fin 100000) (j : Fin 64), y = ix2 r j := ⟨y 0, y 1, eq_ix2 y⟩
  have el : ∀ k : Fin 64, lidx_main_v35 (ix2 r j) k = ix2 r k := fun k =>
    funext fun a => Fin.ext (by match a with | ⟨0, _⟩ => rfl | ⟨1, _⟩ => rfl)
  have er : ∀ k : Fin 64, ridx_main_v35 (ix2 r j) k = ix2 k j := fun k =>
    funext fun a => Fin.ext (by match a with | ⟨0, _⟩ => rfl | ⟨1, _⟩ => rfl)
  have e10 : idx_main_v36 (idx_main_v37 (ix2 r j)) = ix1 j := funext fun a => Fin.ext (by match a with | ⟨0, _⟩ => rfl)
  rw [Cert.Gin.stage_ix2, val_main_v39_apply, val_main_v38_apply, val_main_v35_apply, val_main_v37_apply, val_main_v36_apply,
    val_main_call1_v0_apply, val_main_call1_cst_apply]
  simp only [el, er, e10, hidden1, Ideal.maximumf_def, Ideal.addf_def, Ideal.ofBits_def, Ideal.ofBits_zero_f32]
  generalize val_main_v14 (F := Ideal) x0 x1 = A
  rfl

/-- The clamped, normalised first linear map of the second stage, read at row r and column k. -/
theorem hidden2 (r : Fin 100000) (k : Fin 64) :
    val_main_v71 (F := Ideal) x0 x1 x3 x4 x5 x6 x7 x8 x9 x10 x11 x12 x13 x14 x15 x16 (ix2 r k)
      = Cert.Gin.hidden (fun i => val_main_v51 (F := Ideal) x0 x1 x3 x4 x5 x6 x7 x8 x9 x10 (ix2 r i)) x11 x12 x13 x14 x15 x16 k := by
  have el : ∀ i : Fin 64, lidx_main_v52 (ix2 r k) i = ix2 r i := fun i =>
    funext fun a => Fin.ext (by match a with | ⟨0, _⟩ => rfl | ⟨1, _⟩ => rfl)
  have er : ∀ i : Fin 64, ridx_main_v52 (ix2 r k) i = ix2 i k := fun i =>
    funext fun a => Fin.ext (by match a with | ⟨0, _⟩ => rfl | ⟨1, _⟩ => rfl)
  have e12 : idx_main_v53 (idx_main_v54 (ix2 r k)) = ix1 k := funext fun a => Fin.ext (by match a with | ⟨0, _⟩ => rfl)
  have e15 : idx_main_v56 (idx_main_v57 (ix2 r k)) = ix1 k := funext fun a => Fin.ext (by match a with | ⟨0, _⟩ => rfl)
  have e16 : idx_main_v62 (idx_main_v63 (ix2 r k)) = ix1 k := funext fun a => Fin.ext (by match a with | ⟨0, _⟩ => rfl)
  have e13 : idx_main_v65 (idx_main_v66 (ix2 r k)) = ix1 k := funext fun a => Fin.ext (by match a with | ⟨0, _⟩ => rfl)
  have e14 : idx_main_v68 (idx_main_v69 (ix2 r k)) = ix1 k := funext fun a => Fin.ext (by match a with | ⟨0, _⟩ => rfl)
  rw [val_main_v71_apply, val_main_v70_apply, val_main_v67_apply, val_main_v64_apply, val_main_v58_apply, val_main_v55_apply,
    val_main_v52_apply, val_main_v54_apply, val_main_v53_apply, val_main_v57_apply, val_main_v56_apply, val_main_v63_apply,
    val_main_v62_apply, val_main_v61_apply, val_main_v60_apply, val_main_v59_apply, val_main_cst_5_apply, val_main_v66_apply,
    val_main_v65_apply, val_main_v69_apply, val_main_v68_apply, val_main_call3_v0_apply, val_main_call3_cst_apply]
  generalize val_main_v51 (F := Ideal) x0 x1 x3 x4 x5 x6 x7 x8 x9 x10 = A
  simp only [el, er, e12, e15, e16, e13, e14, Ideal.maximumf_def, Ideal.addf_def, Ideal.subf_def, Ideal.mulf_def,
    Ideal.hostUnary_rsqrt_def, Ideal.ofBits_def, Ideal.ofBits_zero_f32]
  rfl

/-- The second stage of the reference, from the aggregated clamped first-stage features. -/
theorem layer2 : val_main_v76 (F := Ideal) x0 x1 x3 x4 x5 x6 x7 x8 x9 x10 x11 x12 x13 x14 x15 x16 x17 x18
    = Cert.Gin.stage (val_main_v51 (F := Ideal) x0 x1 x3 x4 x5 x6 x7 x8 x9 x10) x11 x12 x13 x14 x15 x16 x17 x18 := by
  funext y
  obtain ⟨r, j, rfl⟩ : ∃ (r : Fin 100000) (j : Fin 64), y = ix2 r j := ⟨y 0, y 1, eq_ix2 y⟩
  have el : ∀ k : Fin 64, lidx_main_v72 (ix2 r j) k = ix2 r k := fun k =>
    funext fun a => Fin.ext (by match a with | ⟨0, _⟩ => rfl | ⟨1, _⟩ => rfl)
  have er : ∀ k : Fin 64, ridx_main_v72 (ix2 r j) k = ix2 k j := fun k =>
    funext fun a => Fin.ext (by match a with | ⟨0, _⟩ => rfl | ⟨1, _⟩ => rfl)
  have e18 : idx_main_v73 (idx_main_v74 (ix2 r j)) = ix1 j := funext fun a => Fin.ext (by match a with | ⟨0, _⟩ => rfl)
  rw [Cert.Gin.stage_ix2, val_main_v76_apply, val_main_v75_apply, val_main_v72_apply, val_main_v74_apply, val_main_v73_apply,
    val_main_call4_v0_apply, val_main_call4_cst_apply]
  simp only [el, er, e18, hidden2, Ideal.maximumf_def, Ideal.addf_def, Ideal.ofBits_def, Ideal.ofBits_zero_f32]
  generalize val_main_v51 (F := Ideal) x0 x1 x3 x4 x5 x6 x7 x8 x9 x10 = A
  rfl

/-- The clamped, normalised first linear map of the third stage, read at row r and column k. -/
theorem hidden3 (r : Fin 100000) (k : Fin 64) :
    val_main_v108 (F := Ideal) x0 x1 x3 x4 x5 x6 x7 x8 x9 x10 x11 x12 x13 x14 x15 x16 x17 x18 x19 x20 x21 x22 x23 x24 (ix2 r k)
      = Cert.Gin.hidden (fun i => val_main_v88 (F := Ideal) x0 x1 x3 x4 x5 x6 x7 x8 x9 x10 x11 x12 x13 x14 x15 x16 x17 x18 (ix2 r i)) x19 x20 x21 x22 x23 x24 k := by
  have el : ∀ i : Fin 64, lidx_main_v89 (ix2 r k) i = ix2 r i := fun i =>
    funext fun a => Fin.ext (by match a with | ⟨0, _⟩ => rfl | ⟨1, _⟩ => rfl)
  have er : ∀ i : Fin 64, ridx_main_v89 (ix2 r k) i = ix2 i k := fun i =>
    funext fun a => Fin.ext (by match a with | ⟨0, _⟩ => rfl | ⟨1, _⟩ => rfl)
  have e20 : idx_main_v90 (idx_main_v91 (ix2 r k)) = ix1 k := funext fun a => Fin.ext (by match a with | ⟨0, _⟩ => rfl)
  have e23 : idx_main_v93 (idx_main_v94 (ix2 r k)) = ix1 k := funext fun a => Fin.ext (by match a with | ⟨0, _⟩ => rfl)
  have e24 : idx_main_v99 (idx_main_v100 (ix2 r k)) = ix1 k := funext fun a => Fin.ext (by match a with | ⟨0, _⟩ => rfl)
  have e21 : idx_main_v102 (idx_main_v103 (ix2 r k)) = ix1 k := funext fun a => Fin.ext (by match a with | ⟨0, _⟩ => rfl)
  have e22 : idx_main_v105 (idx_main_v106 (ix2 r k)) = ix1 k := funext fun a => Fin.ext (by match a with | ⟨0, _⟩ => rfl)
  rw [val_main_v108_apply, val_main_v107_apply, val_main_v104_apply, val_main_v101_apply, val_main_v95_apply, val_main_v92_apply,
    val_main_v89_apply, val_main_v91_apply, val_main_v90_apply, val_main_v94_apply, val_main_v93_apply, val_main_v100_apply,
    val_main_v99_apply, val_main_v98_apply, val_main_v97_apply, val_main_v96_apply, val_main_cst_9_apply, val_main_v103_apply,
    val_main_v102_apply, val_main_v106_apply, val_main_v105_apply, val_main_call6_v0_apply, val_main_call6_cst_apply]
  generalize val_main_v88 (F := Ideal) x0 x1 x3 x4 x5 x6 x7 x8 x9 x10 x11 x12 x13 x14 x15 x16 x17 x18 = A
  simp only [el, er, e20, e23, e24, e21, e22, Ideal.maximumf_def, Ideal.addf_def, Ideal.subf_def, Ideal.mulf_def,
    Ideal.hostUnary_rsqrt_def, Ideal.ofBits_def, Ideal.ofBits_zero_f32]
  rfl

/-- The third stage of the reference, from the aggregated clamped second-stage features. -/
theorem layer3 : val_main_v113 (F := Ideal) x0 x1 x3 x4 x5 x6 x7 x8 x9 x10 x11 x12 x13 x14 x15 x16 x17 x18 x19 x20 x21 x22 x23 x24 x25 x26
    = Cert.Gin.stage (val_main_v88 (F := Ideal) x0 x1 x3 x4 x5 x6 x7 x8 x9 x10 x11 x12 x13 x14 x15 x16 x17 x18) x19 x20 x21 x22 x23 x24 x25 x26 := by
  funext y
  obtain ⟨r, j, rfl⟩ : ∃ (r : Fin 100000) (j : Fin 64), y = ix2 r j := ⟨y 0, y 1, eq_ix2 y⟩
  have el : ∀ k : Fin 64, lidx_main_v109 (ix2 r j) k = ix2 r k := fun k =>
    funext fun a => Fin.ext (by match a with | ⟨0, _⟩ => rfl | ⟨1, _⟩ => rfl)
  have er : ∀ k : Fin 64, ridx_main_v109 (ix2 r j) k = ix2 k j := fun k =>
    funext fun a => Fin.ext (by match a with | ⟨0, _⟩ => rfl | ⟨1, _⟩ => rfl)
  have e26 : idx_main_v110 (idx_main_v111 (ix2 r j)) = ix1 j := funext fun a => Fin.ext (by match a with | ⟨0, _⟩ => rfl)
  rw [Cert.Gin.stage_ix2, val_main_v113_apply, val_main_v112_apply, val_main_v109_apply, val_main_v111_apply, val_main_v110_apply,
    val_main_call7_v0_apply, val_main_call7_cst_apply]
  simp only [el, er, e26, hidden3, Ideal.maximumf_def, Ideal.addf_def, Ideal.ofBits_def, Ideal.ofBits_zero_f32]
  generalize val_main_v88 (F := Ideal) x0 x1 x3 x4 x5 x6 x7 x8 x9 x10 x11 x12 x13 x14 x15 x16 x17 x18 = A
  rfl

end Cert.ReferenceIdeal.Stages

end
-- ==== Proof.RTail.lean ====
import proofs.«404020_j57260503991115_3_alg».proof.Proof.Gen.ReferenceIdeal.Read
import proofs.«404020_j57260503991115_3_alg».proof.Proof.Spec
import proofs.«404020_j57260503991115_3_alg».proof.Proof.LibMatProduct
import proofs.«404020_j57260503991115_3_alg».proof.Proof.LibRowScatter
import Idealize.ShloMosaic.Lib.ValueIdx
import Idealize.ShloMosaic.Lib.ValueLayout
import Idealize.ShloMosaic.PureOps.Ideal.Laws

noncomputable section

namespace Cert.ReferenceIdeal.Tail

open Cert.ReferenceIdeal Cert.ReferenceIdeal.Read Idealize.ShloMosaic Idealize.ShloMosaic.ValueIdx

variable (x0 : FVec Ideal S100000x11 .f32) (x1 : IVec S2x1200000 32) (x2 : IVec S100000 32) (x3 : FVec Ideal S11x64 .f32)
  (x4 x5 x6 x7 x8 : FVec Ideal S64 .f32) (x9 : FVec Ideal S64x64 .f32) (x10 : FVec Ideal S64 .f32)
  (x11 : FVec Ideal S64x64 .f32) (x12 x13 x14 x15 x16 : FVec Ideal S64 .f32) (x17 : FVec Ideal S64x64 .f32) (x18 : FVec Ideal S64 .f32)
  (x19 : FVec Ideal S64x64 .f32) (x20 x21 x22 x23 x24 : FVec Ideal S64 .f32) (x25 : FVec Ideal S64x64 .f32) (x26 : FVec Ideal S64 .f32)
  (x27 : FVec Ideal S64x64 .f32) (x28 : FVec Ideal S64 .f32) (x29 : FVec Ideal S64x1 .f32) (x30 : FVec Ideal S1 .f32)

/-! ## The pooling

The reference pools by an accumulating scatter: the node rows are added into a zero array of one row per graph, row n
going to the row its graph number names. Read at (p, q) that is zero plus the sum of column q over the nodes whose
graph number is p; the column of graph numbers the scatter is handed is the vector of graph numbers spread to one
column, so its row n is entry n of that vector. -/

/-- The column of graph numbers read at row n is entry n of the vector it was spread from. -/
theorem graphNumber_idx (n : Fin 100000) : idx_main_v115 (ix2 n (0 : Fin 1)) = ix1 n :=
  funext fun a => Fin.ext (by match a with | ⟨0, _⟩ => rfl)

open Cert.Lib.RowScatter Cert.Gin in
/-- The reference's pooling: the accumulating scatter of the node rows into a zero array at the nodes' graph numbers. -/
theorem pool : val_main_v116 (F := Ideal) x0 x1 x2 x3 x4 x5 x6 x7 x8 x9 x10 x11 x12 x13 x14 x15 x16 x17 x18 x19 x20 x21 x22 x23 x24 x25 x26
    = Cert.Gin.pooled (N := 100000) (G := 1000) (val_main_v113 (F := Ideal) x0 x1 x3 x4 x5 x6 x7 x8 x9 x10 x11 x12 x13 x14 x15 x16 x17 x18 x19 x20 x21 x22 x23 x24 x25 x26) x2 := by
  unfold val_main_v116
  generalize val_main_v113 (F := Ideal) x0 x1 x3 x4 x5 x6 x7 x8 x9 x10 x11 x12 x13 x14 x15 x16 x17 x18 x19 x20 x21 x22 x23 x24 x25 x26 = h
  funext i
  obtain ⟨p, q, rfl⟩ : ∃ (p : Fin 1000) (q : Fin 64), i = ix2 p q := ⟨i 0, i 1, eq_ix2 i⟩
  rw [pooled_ix2]
  show Ideal.hostScatterAdd (putRowDims 1000 100000 64 Facts₀.scatter_S1000x64_S100000x1_S100000x64_1_0_0_1_wf)
    (val_main_v114 (F := Ideal)) (val_main_v115 (F := Ideal) x2) h (ix2 p q) = _
  rw [hostScatterAdd_rows_apply, val_main_v114_apply, val_main_cst_10_apply, Ideal.ofBits_def, Ideal.ofBits_zero_f32, zero_add]
  refine Finset.sum_congr rfl fun n _ => ?_
  rw [val_main_v115_apply, graphNumber_idx]

/-! ## The read-out

The reference's read-out is two matrix products with an offset after each and a clamp at zero between them. Its index
maps, composed from the result's index (p, 0) inwards, are the plain ones: the first product contracts row p of the
pooled sums with column k of the first weight matrix, the first offset is read at k, the second product contracts
over k with the one column of the second weight matrix, and the second offset has one entry. -/

/-- The left factor of the first product, reached from row p through column k, at contraction index i: pooled entry (p, i). -/
theorem left_first (p : Fin 1000) (k i : Fin 64) :
    lidx_main_v117 (lidx_main_v122 (ix2 p (0 : Fin 1)) k) i = ix2 p i :=
  funext fun a => Fin.ext (by match a with | ⟨0, _⟩ => rfl | ⟨1, _⟩ => rfl)

/-- The right factor of the first product at contraction index i: weight entry (i, k). -/
theorem right_first (p : Fin 1000) (k i : Fin 64) :
    ridx_main_v117 (lidx_main_v122 (ix2 p (0 : Fin 1)) k) i = ix2 i k :=
  funext fun a => Fin.ext (by match a with | ⟨0, _⟩ => rfl | ⟨1, _⟩ => rfl)

/-- The first offset, spread over the rows, read at column k: entry k. -/
theorem offset_first (p : Fin 1000) (k : Fin 64) :
    idx_main_v118 (idx_main_v119 (lidx_main_v122 (ix2 p (0 : Fin 1)) k)) = ix1 k :=
  funext fun a => Fin.ext (by match a with | ⟨0, _⟩ => rfl)

/-- The right factor of the second product at contraction index k: weight entry (k, 0). -/
theorem right_second (p : Fin 1000) (k : Fin 64) : ridx_main_v122 (ix2 p (0 : Fin 1)) k = ix2 k (0 : Fin 1) :=
  funext fun a => Fin.ext (by match a with | ⟨0, _⟩ => rfl | ⟨1, _⟩ => rfl)

/-- The second offset, spread over the rows: its one entry. -/
theorem offset_second (p : Fin 1000) : idx_main_v123 (idx_main_v124 (ix2 p (0 : Fin 1))) = ix1 (0 : Fin 1) :=
  funext fun a => Fin.ext (by match a with | ⟨0, _⟩ => rfl)

open Cert.Gin in
/-- The reference's read-out of the pooled rows. -/
theorem head : val_main_v125 (F := Ideal) x0 x1 x2 x3 x4 x5 x6 x7 x8 x9 x10 x11 x12 x13 x14 x15 x16 x17 x18 x19 x20 x21 x22 x23 x24 x25 x26 x27 x28 x29 x30
    = Cert.Gin.readout (val_main_v116 (F := Ideal) x0 x1 x2 x3 x4 x5 x6 x7 x8 x9 x10 x11 x12 x13 x14 x15 x16 x17 x18 x19 x20 x21 x22 x23 x24 x25 x26) x27 x28 x29 x30 := by
  funext i
  obtain ⟨p, q, rfl⟩ : ∃ (p : Fin 1000) (q : Fin 1), i = ix2 p q := ⟨i 0, i 1, eq_ix2 i⟩
  obtain rfl : q = 0 := Subsingleton.elim _ _
  rw [readout_ix2]
  unfold readRow
  simp only [val_main_v125_apply, val_main_v122_apply, val_main_v121_apply, val_main_v120_apply, val_main_v117_apply,
    val_main_v119_apply, val_main_v118_apply, val_main_call8_v0_apply, val_main_call8_cst_apply, val_main_v124_apply,
    val_main_v123_apply]
  generalize val_main_v116 (F := Ideal) x0 x1 x2 x3 x4 x5 x6 x7 x8 x9 x10 x11 x12 x13 x14 x15 x16 x17 x18 x19 x20 x21 x22 x23 x24 x25 x26 = g
  simp only [left_first, right_first, offset_first, right_second, offset_second, Ideal.addf_def, Ideal.maximumf_def,
    Ideal.ofBits_def, Ideal.ofBits_zero_f32]

end Cert.ReferenceIdeal.Tail

end
-- ==== Proof.KChain.lean ====
import proofs.«404020_j57260503991115_3_alg».proof.Proof.Gen.KernelIdeal.Frame
import proofs.«404020_j57260503991115_3_alg».proof.Proof.Gen.ReferenceIdeal.Read
import proofs.«404020_j57260503991115_3_alg».proof.Proof.Spec
import proofs.«404020_j57260503991115_3_alg».proof.Proof.PoolPad
import proofs.«404020_j57260503991115_3_alg».proof.Proof.KStage0
import proofs.«404020_j57260503991115_3_alg».proof.Proof.KStage1
import proofs.«404020_j57260503991115_3_alg».proof.Proof.KStage2
import proofs.«404020_j57260503991115_3_alg».proof.Proof.KPool
import proofs.«404020_j57260503991115_3_alg».proof.Proof.KHead
import proofs.«404020_j57260503991115_3_alg».proof.Proof.KArgs
import proofs.«404020_j57260503991115_3_alg».proof.Proof.KPadSlice
import proofs.«404020_j57260503991115_3_alg».proof.Proof.RStages
import proofs.«404020_j57260503991115_3_alg».proof.Proof.RTail
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

set_option maxRecDepth 16384

noncomputable section

namespace Cert.KernelIdeal.Chain

open Cert.KernelIdeal Cert.KernelIdeal.Gen Idealize.ShloMosaic Idealize.ShloMosaic.ValueIdx Idealize.ShloMosaic.TcCoe Idealize.SL.Sem
open Idealize.ShloMosaic.StableHlo
open Cert.KernelIdeal.PadSlice (pad11 pad64 padB slice64)
open Cert.ReferenceIdeal.Read (val_main_v1 val_main_v3 val_main_v14 val_main_v39 val_main_v51 val_main_v76 val_main_v88 val_main_v113 val_main_v116 val_main_v125)

variable (m : (ℓ : Loc nD τ sig) → Buf (Elt Ideal) ℓ) (ρ : Dev nD → PrngReg)

/-! The kernel program's result, boundary by boundary. Between two launches the program applies to its arrays the
    same host operations as the reference does (clamp at zero, gather the source rows of the edges, add them into
    the destination rows, add the node's own row), so each boundary's contents are stated through the reference's own
    stages: what the kernel program adds is only the appended zero rows before a launch and their removal after it,
    which a row-by-row stage does not see, and appended graph numbers of minus one, which pooling does not count. -/

/-- Entry of the first stage's launch: the aggregated input features, with the appended zero rows. -/
theorem W2_v15 (c : Dev nD) : W2 (F := Ideal) m ρ c (Proc.devRef .tc main_v15) = pad11 (val_main_v14 (F := Ideal) (m ((c : Thread nD τ).loc main_arg0)) (m ((c : Thread nD τ).loc main_arg1))) := by
  show StableHlo.after hostOps0_1 (StableHlo.after hostOps0 (W0 m ρ c)) (Proc.devRef .tc main_v15) = _
  simp only [hostOps0, hostOps0_1]
  after_results_simp
  rfl

/-- Exit of the first stage's launch. -/
theorem W3_v16 (c : Dev nD) : W3 (F := Ideal) m ρ c (Proc.devRef .tc main_v16) = Cert.Gin.stage (pad11 (val_main_v14 (F := Ideal) (m ((c : Thread nD τ).loc main_arg0)) (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W3_arr m ρ c 9).trans ((Cert.KernelIdeal.Stage0.final (V2 m ρ) c).trans ?_)
  show Cert.Gin.stage (W2 (F := Ideal) m ρ c (Proc.devRef .tc main_v15)) (W2 (F := Ideal) m ρ c (Proc.devRef .tc main_arg3)) (W2 (F := Ideal) m ρ c (Proc.devRef .tc main_arg4)) (W2 (F := Ideal) m ρ c (Proc.devRef .tc main_arg5)) (W2 (F := Ideal) m ρ c (Proc.devRef .tc main_arg6)) (W2 (F := Ideal) m ρ c (Proc.devRef .tc main_arg7)) (W2 (F := Ideal) m ρ c (Proc.devRef .tc main_arg8)) (W2 (F := Ideal) m ρ c (Proc.devRef .tc main_arg9)) (W2 (F := Ideal) m ρ c (Proc.devRef .tc main_arg10)) = _
  rw [W2_v15, Cert.KernelIdeal.Args.W2_arg3 m ρ c, Cert.KernelIdeal.Args.W2_arg4 m ρ c, Cert.KernelIdeal.Args.W2_arg5 m ρ c, Cert.KernelIdeal.Args.W2_arg6 m ρ c, Cert.KernelIdeal.Args.W2_arg7 m ρ c, Cert.KernelIdeal.Args.W2_arg8 m ρ c, Cert.KernelIdeal.Args.W2_arg9 m ρ c, Cert.KernelIdeal.Args.W2_arg10 m ρ c]

/-- Entry of the second stage's launch: the first stage's rows, clamped and aggregated, with the appended zero rows. -/
theorem W5_v31 (c : Dev nD) : W5 (F := Ideal) m ρ c (Proc.devRef .tc main_v31) = pad64 (val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps1_1 (StableHlo.after hostOps1 (W3 m ρ c)) (Proc.devRef .tc main_v31) = _
  simp only [hostOps1, hostOps1_1]
  after_results_simp
  rw [W3_v16, Cert.KernelIdeal.Args.W3_v1 m ρ c, Cert.KernelIdeal.Args.W3_v3 m ρ c]
  rw [show extractStridedSlice S100000x64 ![0, 0] (Cert.Gin.stage (pad11 (val_main_v14 (F := Ideal) (m ((c : Thread nD τ).loc main_arg0)) (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) slices_S100352x64_S100000x64_0_0
      = (val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) from
    (Cert.KernelIdeal.PadSlice.slice_stage_pad11 _ _ _ _ _ _ _ _ _).trans (Cert.ReferenceIdeal.Stages.layer1 _ _ _ _ _ _ _ _ _ _).symm]
  rfl

/-- Exit of the second stage's launch. -/
theorem W6_v32 (c : Dev nD) : W6 (F := Ideal) m ρ c (Proc.devRef .tc main_v32) = Cert.Gin.stage (pad64 (val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 9).trans ((Cert.KernelIdeal.Stage1.final (V5 m ρ) c).trans ?_)
  show Cert.Gin.stage (W5 (F := Ideal) m ρ c (Proc.devRef .tc main_v31)) (W5 (F := Ideal) m ρ c (Proc.devRef .tc main_arg11)) (W5 (F := Ideal) m ρ c (Proc.devRef .tc main_arg12)) (W5 (F := Ideal) m ρ c (Proc.devRef .tc main_arg13)) (W5 (F := Ideal) m ρ c (Proc.devRef .tc main_arg14)) (W5 (F := Ideal) m ρ c (Proc.devRef .tc main_arg15)) (W5 (F := Ideal) m ρ c (Proc.devRef .tc main_arg16)) (W5 (F := Ideal) m ρ c (Proc.devRef .tc main_arg17)) (W5 (F := Ideal) m ρ c (Proc.devRef .tc main_arg18)) = _
  rw [W5_v31, Cert.KernelIdeal.Args.W5_arg11 m ρ c, Cert.KernelIdeal.Args.W5_arg12 m ρ c, Cert.KernelIdeal.Args.W5_arg13 m ρ c, Cert.KernelIdeal.Args.W5_arg14 m ρ c, Cert.KernelIdeal.Args.W5_arg15 m ρ c, Cert.KernelIdeal.Args.W5_arg16 m ρ c, Cert.KernelIdeal.Args.W5_arg17 m ρ c, Cert.KernelIdeal.Args.W5_arg18 m ρ c]

/-- Entry of the third stage's launch. -/
theorem W8_v47 (c : Dev nD) : W8 (F := Ideal) m ρ c (Proc.devRef .tc main_v47) = pad64 (val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  show StableHlo.after hostOps2_1 (StableHlo.after hostOps2 (W6 m ρ c)) (Proc.devRef .tc main_v47) = _
  simp only [hostOps2, hostOps2_1]
  after_results_simp
  rw [W6_v32, Cert.KernelIdeal.Args.W6_v1 m ρ c, Cert.KernelIdeal.Args.W6_v3 m ρ c]
  rw [show extractStridedSlice S100000x64 ![0, 0] (Cert.Gin.stage (pad64 (val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) slices_S100352x64_S100000x64_0_0
      = (val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) from
    (Cert.KernelIdeal.PadSlice.slice_stage_pad64 _ _ _ _ _ _ _ _ _).trans (Cert.ReferenceIdeal.Stages.layer2 _ _ _ _ _ _ _ _ _ _ _ _ _ _ _ _ _ _).symm]
  rfl

/-- Exit of the third stage's launch. -/
theorem W9_v48 (c : Dev nD) : W9 (F := Ideal) m ρ c (Proc.devRef .tc main_v48) = Cert.Gin.stage (pad64 (val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (W9_arr m ρ c 9).trans ((Cert.KernelIdeal.Stage2.final (V8 m ρ) c).trans ?_)
  show Cert.Gin.stage (W8 (F := Ideal) m ρ c (Proc.devRef .tc main_v47)) (W8 (F := Ideal) m ρ c (Proc.devRef .tc main_arg19)) (W8 (F := Ideal) m ρ c (Proc.devRef .tc main_arg20)) (W8 (F := Ideal) m ρ c (Proc.devRef .tc main_arg21)) (W8 (F := Ideal) m ρ c (Proc.devRef .tc main_arg22)) (W8 (F := Ideal) m ρ c (Proc.devRef .tc main_arg23)) (W8 (F := Ideal) m ρ c (Proc.devRef .tc main_arg24)) (W8 (F := Ideal) m ρ c (Proc.devRef .tc main_arg25)) (W8 (F := Ideal) m ρ c (Proc.devRef .tc main_arg26)) = _
  rw [W8_v47, Cert.KernelIdeal.Args.W8_arg19 m ρ c, Cert.KernelIdeal.Args.W8_arg20 m ρ c, Cert.KernelIdeal.Args.W8_arg21 m ρ c, Cert.KernelIdeal.Args.W8_arg22 m ρ c, Cert.KernelIdeal.Args.W8_arg23 m ρ c, Cert.KernelIdeal.Args.W8_arg24 m ρ c, Cert.KernelIdeal.Args.W8_arg25 m ρ c, Cert.KernelIdeal.Args.W8_arg26 m ρ c]

/-- Entry of the pooling launch: the third stage's rows with the appended zero rows. -/
theorem W13_v50 (c : Dev nD) : W13 (F := Ideal) m ρ c (Proc.devRef .tc main_v50) = pad64 (val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) := by
  show StableHlo.after hostOps3_3 (StableHlo.after hostOps3_2 (StableHlo.after hostOps3_1 (StableHlo.after hostOps3 (W9 m ρ c)))) (Proc.devRef .tc main_v50) = _
  simp only [hostOps3, hostOps3_1, hostOps3_2, hostOps3_3]
  after_results_simp
  rw [W9_v48]
  rw [show extractStridedSlice S100000x64 ![0, 0] (Cert.Gin.stage (pad64 (val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) slices_S100352x64_S100000x64_0_0
      = (val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) from
    (Cert.KernelIdeal.PadSlice.slice_stage_pad64 _ _ _ _ _ _ _ _ _).trans (Cert.ReferenceIdeal.Stages.layer3 _ _ _ _ _ _ _ _ _ _ _ _ _ _ _ _ _ _ _ _ _ _ _ _ _ _).symm]
  rfl

/-- Entry of the pooling launch: the graph numbers with the appended minus ones. -/
theorem W13_v51 (c : Dev nD) : W13 (F := Ideal) m ρ c (Proc.devRef .tc main_v51) = padB (m ((c : Thread nD τ).loc main_arg2)) := by
  show StableHlo.after hostOps3_3 (StableHlo.after hostOps3_2 (StableHlo.after hostOps3_1 (StableHlo.after hostOps3 (W9 m ρ c)))) (Proc.devRef .tc main_v51) = _
  simp only [hostOps3, hostOps3_1, hostOps3_2, hostOps3_3]
  after_results_simp
  rw [Cert.KernelIdeal.Args.W9_arg2 m ρ c]
  rfl

/-- Exit of the pooling launch: the reference's pooled rows. -/
theorem W14_v52 (c : Dev nD) : W14 (F := Ideal) m ρ c (Proc.devRef .tc main_v52) = (val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) := by
  refine (W14_arr m ρ c 2).trans ((Cert.KernelIdeal.Pool.final (V13 m ρ) c).trans ?_)
  show Cert.Gin.pooled (N := 100352) (G := 1000) (W13 (F := Ideal) m ρ c (Proc.devRef .tc main_v50)) (W13 (F := Ideal) m ρ c (Proc.devRef .tc main_v51)) = _
  rw [W13_v50, W13_v51, Cert.KernelIdeal.PadSlice.pooled_pad]
  exact (Cert.ReferenceIdeal.Tail.pool _ _ _ _ _ _ _ _ _ _ _ _ _ _ _ _ _ _ _ _ _ _ _ _ _ _ _).symm

/-- Exit of the read-out launch: the reference's result. -/
theorem W15_v53 (c : Dev nD) : W15 (F := Ideal) m ρ c (Proc.devRef .tc main_v53) = (val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))) := by
  refine (W15_arr m ρ c 5).trans ((Cert.KernelIdeal.Head.final (V14 m ρ) c).trans ?_)
  show Cert.Gin.readout (W14 (F := Ideal) m ρ c (Proc.devRef .tc main_v52)) (W14 (F := Ideal) m ρ c (Proc.devRef .tc main_arg27)) (W14 (F := Ideal) m ρ c (Proc.devRef .tc main_arg28)) (W14 (F := Ideal) m ρ c (Proc.devRef .tc main_arg29)) (W14 (F := Ideal) m ρ c (Proc.devRef .tc main_arg30)) = _
  rw [W14_v52, Cert.KernelIdeal.Args.W14_arg27 m ρ c, Cert.KernelIdeal.Args.W14_arg28 m ρ c, Cert.KernelIdeal.Args.W14_arg29 m ρ c, Cert.KernelIdeal.Args.W14_arg30 m ρ c]
  exact (Cert.ReferenceIdeal.Tail.head _ _ _ _ _ _ _ _ _ _ _ _ _ _ _ _ _ _ _ _ _ _ _ _ _ _ _ _ _ _ _).symm

end Cert.KernelIdeal.Chain

end
-- ==== Proof.lean ====
/-
  A three-stage graph network with sum pooling and a two-layer read-out, as a program of five kernel launches among
  host operations, against the same network written with plain array operations.

  Every stage acts on each node's feature row separately (two linear maps, a normalisation by fixed statistics and two
  clamps at zero), so the kernel program's way of running a stage — append zero rows up to a multiple of the block
  height, run the stage block by block, drop the appended rows — gives the stage of the original rows. Between the
  stages both programs apply the same host operations (gather the source rows of the edges, add them into the
  destination rows, add the node's own row), so those are never opened: each boundary of the kernel program's run is
  stated through the reference's own intermediate values. Pooling in the kernel program multiplies, block by block,
  the transposed one-hot matrix of the graph numbers with the node rows and accumulates over the blocks; entry by
  entry that is the sum of the rows whose graph number is the entry's row, a product by zero contributing zero and a
  product by one the factor itself for every extended real, which is what the reference's accumulating scatter adds
  up; the appended nodes carry graph number minus one and are counted nowhere, and a node whose number is no graph's
  is dropped on both sides. The read-out is the same two linear maps with a clamp on both sides. No step uses that
  the inputs are finite. The ideal pass rewrote nothing, so the kernel program's idealization is its own text.
-/
import proofs.«404020_j57260503991115_3_alg».proof.Defs
import proofs.«404020_j57260503991115_3_alg».proof.Proof.Gen.Kernel
import proofs.«404020_j57260503991115_3_alg».proof.Proof.Gen.Kernel.Skeleton
import proofs.«404020_j57260503991115_3_alg».proof.Proof.Gen.Kernel.Launch
import proofs.«404020_j57260503991115_3_alg».proof.Proof.Gen.Kernel.Points
import proofs.«404020_j57260503991115_3_alg».proof.Proof.Gen.Kernel.Frame
import proofs.«404020_j57260503991115_3_alg».proof.Proof.Gen.KernelIdeal
import proofs.«404020_j57260503991115_3_alg».proof.Proof.Gen.KernelIdeal.Skeleton
import proofs.«404020_j57260503991115_3_alg».proof.Proof.Gen.KernelIdeal.Launch
import proofs.«404020_j57260503991115_3_alg».proof.Proof.Gen.KernelIdeal.Points
import proofs.«404020_j57260503991115_3_alg».proof.Proof.Gen.KernelIdeal.Frame
import proofs.«404020_j57260503991115_3_alg».proof.Proof.Gen.ReferenceIdeal
import proofs.«404020_j57260503991115_3_alg».proof.Proof.Gen.Pre_finite_inputs
import proofs.«404020_j57260503991115_3_alg».proof.Proof.Gen.ReferenceIdeal.Run
import proofs.«404020_j57260503991115_3_alg».proof.Proof.Gen.ReferenceIdeal.Read
import proofs.«404020_j57260503991115_3_alg».proof.Proof.RunNamed
import proofs.«404020_j57260503991115_3_alg».proof.Proof.KChain
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both programs end with the reference's last stage of the launch arguments: the kernel program by the chain of its
    boundaries, the reference by its run; the two memories agree on the arguments. -/
theorem algebraic : Cert.algebraic_KernelIdeal_ReferenceIdeal := by
  intro m ρ m' ρ' _ hagree
  refine ⟨fun c => Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)), ?_, ?_⟩
  · exact (θ_run Cert.KernelIdeal.defs _ _).mono
      (fun r h c => ⟨(h c).1.trans (Cert.KernelIdeal.Chain.W15_v53 m ρ c), (h c).2⟩) (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30⟩ := hagree c
    rw [Cert.ReferenceIdeal.Read.val_main_v125_eq, h0, h1, h2, h3, h4, h5, h6, h7, h8, h9, h10, h11, h12, h13, h14, h15, h16, h17, h18, h19, h20, h21, h22, h23, h24, h25, h26, h27, h28, h29, h30]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
